-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S256 .f32) (main_arg7 : FVec F S256x128 .f32) (main_arg8 : FVec F S128 .f32) (main_arg9 : FVec F S128x2 .f32) (main_arg10 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : IVec S40000 32) (main_arg3 : FVec F S128x256 .f32) (main_arg4 : FVec F S256 .f32) (main_arg5 : FVec F S256x256 .f32) (main_arg6 : FVec F S256 .f32) (main_arg7 : FVec F S256x128 .f32) (main_arg8 : FVec F S128 .f32) (main_arg9 : FVec F S128x2 .f32) (main_arg10 : FVec F S2 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x1 : Shape := ⟨2, ![40000, 1]⟩
abbrev S40000x256 : Shape := ⟨2, ![40000, 256]⟩
abbrev S640000x256 : Shape := ⟨2, ![640000, 256]⟩
abbrev S1x256 : Shape := ⟨2, ![1, 256]⟩
abbrev S640000x128 : Shape := ⟨2, ![640000, 128]⟩
abbrev S1x128 : Shape := ⟨2, ![1, 128]⟩
abbrev S1x2 : Shape := ⟨2, ![1, 2]⟩
abbrev S64x128 : Shape := ⟨2, ![64, 128]⟩
abbrev S64x2 : Shape := ⟨2, ![64, 2]⟩
abbrev S2000x128 : Shape := ⟨2, ![2000, 128]⟩
abbrev S2000x256 : Shape := ⟨2, ![2000, 256]⟩
abbrev S2000x1 : Shape := ⟨2, ![2000, 1]⟩
abbrev S64x1 : Shape := ⟨2, ![64, 1]⟩
abbrev S2000x64 : Shape := ⟨2, ![2000, 64]⟩

abbrev nBuf : Space → Nat
  | .hbm => 144
  | .vmem => 52
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x2, .f32⟩
  | 10 => ⟨S2, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S40000, .f32⟩
  | 19 => ⟨S640000x1, .i32⟩
  | 20 => ⟨S40000, .f32⟩
  | 21 => ⟨S_, .f32⟩
  | 22 => ⟨S40000, .f32⟩
  | 23 => ⟨S40000, .f32⟩
  | 24 => ⟨S40000, .f32⟩
  | 25 => ⟨S40000x1, .f32⟩
  | 26 => ⟨S40000x256, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000, .f32⟩
  | 45 => ⟨S640000, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x256, .f32⟩
  | 55 => ⟨S640000x1, .f32⟩
  | 56 => ⟨S640000x256, .f32⟩
  | 57 => ⟨S640000x256, .f32⟩
  | 58 => ⟨S_, .f32⟩
  | 59 => ⟨S40000x256, .f32⟩
  | 60 => ⟨S640000x1, .i32⟩
  | 61 => ⟨S40000x256, .f32⟩
  | 62 => ⟨S1x256, .f32⟩
  | 63 => ⟨S40000x256, .f32⟩
  | 64 => ⟨S40000x256, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000, .f32⟩
  | 83 => ⟨S640000, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S640000x256, .f32⟩
  | 93 => ⟨S640000x1, .f32⟩
  | 94 => ⟨S640000x256, .f32⟩
  | 95 => ⟨S640000x256, .f32⟩
  | 96 => ⟨S_, .f32⟩
  | 97 => ⟨S40000x256, .f32⟩
  | 98 => ⟨S640000x1, .i32⟩
  | 99 => ⟨S40000x256, .f32⟩
  | 100 => ⟨S1x256, .f32⟩
  | 101 => ⟨S40000x256, .f32⟩
  | 102 => ⟨S40000x128, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000, .f32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000, .f32⟩
  | 121 => ⟨S640000, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S40000x128, .f32⟩

abbrev hbmTy0_1 (i : Nat) : BufTy := match i % 128 with
  | 0 => ⟨S640000, .i32⟩
  | 1 => ⟨S640000x1, .i32⟩
  | 2 => ⟨S640000x128, .f32⟩
  | 3 => ⟨S640000x1, .f32⟩
  | 4 => ⟨S640000x128, .f32⟩
  | 5 => ⟨S640000x128, .f32⟩
  | 6 => ⟨S_, .f32⟩
  | 7 => ⟨S40000x128, .f32⟩
  | 8 => ⟨S640000x1, .i32⟩
  | 9 => ⟨S40000x128, .f32⟩
  | 10 => ⟨S1x128, .f32⟩
  | 11 => ⟨S40000x128, .f32⟩
  | 12 => ⟨S40000x1, .i32⟩
  | 13 => ⟨S1x2, .f32⟩
  | 14 => ⟨S64x128, .f32⟩
  | 15 => ⟨S64x2, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .i32⟩
  | .local _ .vmem, ⟨45, _⟩ => ⟨S2000x1, .i32⟩
  | .local _ .vmem, ⟨46, _⟩ => ⟨S128x2, .f32⟩
  | .local _ .vmem, ⟨47, _⟩ => ⟨S1x2, .f32⟩
  | .local _ .vmem, ⟨48, _⟩ => ⟨S64x128, .f32⟩
  | .local _ .vmem, ⟨49, _⟩ => ⟨S64x2, .f32⟩
  | .local _ .vmem, ⟨50, _⟩ => ⟨S64x128, .f32⟩
  | .local _ .vmem, ⟨51, _⟩ => ⟨S64x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_cst : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c : Ref sig .tc := ⟨.hbm, 27, rfl⟩
abbrev main_call0_v13 : Ref sig .tc := ⟨.hbm, 28, rfl⟩
abbrev main_call0_v14 : Ref sig .tc := ⟨.hbm, 29, rfl⟩
abbrev main_call0_c_2 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_c_3 : Ref sig .tc := ⟨.hbm, 36, rfl⟩
abbrev main_call0_v20 : Ref sig .tc := ⟨.hbm, 37, rfl⟩
abbrev main_call0_v21 : Ref sig .tc := ⟨.hbm, 38, rfl⟩
abbrev main_call0_c_4 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_c_5 : Ref sig .tc := ⟨.hbm, 46, rfl⟩
abbrev main_call0_v28 : Ref sig .tc := ⟨.hbm, 47, rfl⟩
abbrev main_call0_v29 : Ref sig .tc := ⟨.hbm, 48, rfl⟩
abbrev main_call0_c_6 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_cst_7 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42 : Ref sig .tc := ⟨.hbm, 63, rfl⟩
abbrev main_call0_v43 : Ref sig .tc := ⟨.hbm, 64, rfl⟩
abbrev main_call0_c_8 : Ref sig .tc := ⟨.hbm, 65, rfl⟩
abbrev main_call0_v44 : Ref sig .tc := ⟨.hbm, 66, rfl⟩
abbrev main_call0_v45 : Ref sig .tc := ⟨.hbm, 67, rfl⟩
abbrev main_call0_c_9 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_c_10 : Ref sig .tc := ⟨.hbm, 74, rfl⟩
abbrev main_call0_v51 : Ref sig .tc := ⟨.hbm, 75, rfl⟩
abbrev main_call0_v52 : Ref sig .tc := ⟨.hbm, 76, rfl⟩
abbrev main_call0_c_11 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_c_12 : Ref sig .tc := ⟨.hbm, 84, rfl⟩
abbrev main_call0_v59 : Ref sig .tc := ⟨.hbm, 85, rfl⟩
abbrev main_call0_v60 : Ref sig .tc := ⟨.hbm, 86, rfl⟩
abbrev main_call0_c_13 : Ref sig .tc := ⟨.hbm, 87, rfl⟩
abbrev main_call0_v61 : Ref sig .tc := ⟨.hbm, 88, rfl⟩
abbrev main_call0_v62 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_cst_14 : Ref sig .tc := ⟨.hbm, 96, rfl⟩
abbrev main_call0_v69 : Ref sig .tc := ⟨.hbm, 97, rfl⟩
abbrev main_call0_v70 : Ref sig .tc := ⟨.hbm, 98, rfl⟩
abbrev main_call0_v71 : Ref sig .tc := ⟨.hbm, 99, rfl⟩
abbrev main_call0_v72 : Ref sig .tc := ⟨.hbm, 100, rfl⟩
abbrev main_call0_v73 : Ref sig .tc := ⟨.hbm, 101, rfl⟩
abbrev main_call0_v74 : Ref sig .tc := ⟨.hbm, 102, rfl⟩
abbrev main_call0_c_15 : Ref sig .tc := ⟨.hbm, 103, rfl⟩
abbrev main_call0_v75 : Ref sig .tc := ⟨.hbm, 104, rfl⟩
abbrev main_call0_v76 : Ref sig .tc := ⟨.hbm, 105, rfl⟩
abbrev main_call0_c_16 : Ref sig .tc := ⟨.hbm, 106, rfl⟩
abbrev main_call0_v77 : Ref sig .tc := ⟨.hbm, 107, rfl⟩
abbrev main_call0_v78 : Ref sig .tc := ⟨.hbm, 108, rfl⟩
abbrev main_call0_v79 : Ref sig .tc := ⟨.hbm, 109, rfl⟩
abbrev main_call0_v80 : Ref sig .tc := ⟨.hbm, 110, rfl⟩
abbrev main_call0_v81 : Ref sig .tc := ⟨.hbm, 111, rfl⟩
abbrev main_call0_c_17 : Ref sig .tc := ⟨.hbm, 112, rfl⟩
abbrev main_call0_v82 : Ref sig .tc := ⟨.hbm, 113, rfl⟩
abbrev main_call0_v83 : Ref sig .tc := ⟨.hbm, 114, rfl⟩
abbrev main_call0_c_18 : Ref sig .tc := ⟨.hbm, 115, rfl⟩
abbrev main_call0_v84 : Ref sig .tc := ⟨.hbm, 116, rfl⟩
abbrev main_call0_v85 : Ref sig .tc := ⟨.hbm, 117, rfl⟩
abbrev main_call0_v86 : Ref sig .tc := ⟨.hbm, 118, rfl⟩
abbrev main_call0_v87 : Ref sig .tc := ⟨.hbm, 119, rfl⟩
abbrev main_call0_v88 : Ref sig .tc := ⟨.hbm, 120, rfl⟩
abbrev main_call0_v89 : Ref sig .tc := ⟨.hbm, 121, rfl⟩
abbrev main_call0_c_19 : Ref sig .tc := ⟨.hbm, 122, rfl⟩
abbrev main_call0_v90 : Ref sig .tc := ⟨.hbm, 123, rfl⟩
abbrev main_call0_v91 : Ref sig .tc := ⟨.hbm, 124, rfl⟩
abbrev main_call0_c_20 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_v95 : Ref sig .tc := ⟨.hbm, 129, rfl⟩
abbrev main_call0_v96 : Ref sig .tc := ⟨.hbm, 130, rfl⟩
abbrev main_call0_v97 : Ref sig .tc := ⟨.hbm, 131, rfl⟩
abbrev main_call0_v98 : Ref sig .tc := ⟨.hbm, 132, rfl⟩
abbrev main_call0_v99 : Ref sig .tc := ⟨.hbm, 133, rfl⟩
abbrev main_call0_cst_21 : Ref sig .tc := ⟨.hbm, 134, rfl⟩
abbrev main_call0_v100 : Ref sig .tc := ⟨.hbm, 135, rfl⟩
abbrev main_call0_v101 : Ref sig .tc := ⟨.hbm, 136, rfl⟩
abbrev main_call0_v102 : Ref sig .tc := ⟨.hbm, 137, rfl⟩
abbrev main_call0_v103 : Ref sig .tc := ⟨.hbm, 138, rfl⟩
abbrev main_v0_0 : Ref sig .tc := ⟨.hbm, 139, rfl⟩
abbrev main_call0_v105 : Ref sig .tc := ⟨.hbm, 140, rfl⟩
abbrev main_call0_v106 : Ref sig .tc := ⟨.hbm, 141, rfl⟩
abbrev main_v0_1 : Ref sig .tc := ⟨.hbm, 142, rfl⟩
abbrev main_v0_2 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_scratch0 : Ref sig .tc := ⟨.vmem, 50, rfl⟩
abbrev cc6_scratch1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_14 : BitVec 32 := 0#32
  let v27 : BitVec 1 := Scalar.cmpi .ne v26 c0_i32_14
  v27

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S640000x1_S640000x256_0_1 : S640000x1.BroadcastsInDim S640000x256 (![0, 1] : Fin 2 → Fin S640000x256.rank)
  bcast_S_S40000x256 : S_.BroadcastsInDim S40000x256 (![] : Fin 0 → Fin S40000x256.rank)
  shapeCasts_S256_S1x256 : S256.ShapeCasts S1x256
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S128_S1x128 : S128.ShapeCasts S1x128
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S2000x64_d1_w32 : S2000x64.Iotas .tc 32 [1]
  broadcasts_S2000x1_S2000x64 : S2000x1.Broadcasts S2000x64
  natLt_1_32 : 1 < 32
  broadcasts_S64x1_S64x128 : S64x1.Broadcasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x64_S2000x128_S64x128_0_0_1_1_n_n_wf : DotDims.WF S2000x64 S2000x128 S64x128 [0] [0] [1] [1] [] []
  dot_S2000x64_S2000x1_S64x1_0_0_1_1_n_n_wf : DotDims.WF S2000x64 S2000x1 S64x1 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S40000x256.size a
  hwx0_2 : ∀ i : grid0.Coords, EltTy.bits .f32 = 32 ∨ (Rect.block (s := S40000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .f32 = 32 ∨ (Rect.block (s := S40000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S40000x256.size a
  hwx1_4 : ∀ i : grid1.Coords, EltTy.bits .f32 = 32 ∨ (Rect.block (s := S40000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S40000x256.size a
  hwx2_2 : ∀ i : grid2.Coords, EltTy.bits .f32 = 32 ∨ (Rect.block (s := S40000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S40000x256.size a
  hwx3_0 : ∀ i : grid3.Coords, EltTy.bits .f32 = 32 ∨ (Rect.block (s := S40000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S40000x256.size a
  hwx3_1 : ∀ i : grid3.Coords, EltTy.bits .f32 = 32 ∨ (Rect.block (s := S40000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S40000x1.size a
  hwx3_2 : ∀ i : grid3.Coords, EltTy.bits .f32 = 32 ∨ (Rect.block (s := S40000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S40000x256.size a
  hwx3_4 : ∀ i : grid3.Coords, EltTy.bits .f32 = 32 ∨ (Rect.block (s := S40000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S40000x256.size a
  hwx4_0 : ∀ i : grid4.Coords, EltTy.bits .f32 = 32 ∨ (Rect.block (s := S40000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S40000x128.size a
  hwx4_2 : ∀ i : grid4.Coords, EltTy.bits .f32 = 32 ∨ (Rect.block (s := S40000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S40000x128.size a
  hwx5_0 : ∀ i : grid5.Coords, EltTy.bits .f32 = 32 ∨ (Rect.block (s := S40000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S40000x128.size a
  hwx5_1 : ∀ i : grid5.Coords, EltTy.bits .f32 = 32 ∨ (Rect.block (s := S40000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S40000x1.size a
  hwx5_2 : ∀ i : grid5.Coords, EltTy.bits .f32 = 32 ∨ (Rect.block (s := S40000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S40000x128.size a
  hwx5_4 : ∀ i : grid5.Coords, EltTy.bits .f32 = 32 ∨ (Rect.block (s := S40000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S40000x128.size a
  hwx6_0 : ∀ i : grid6.Coords, EltTy.bits .f32 = 32 ∨ (Rect.block (s := S40000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S40000x1.size a
  hwx6_1 : ∀ i : grid6.Coords, EltTy.bits .i32 = 32 ∨ (Rect.block (s := S40000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x2.size a ≤ S128x2.size a
  hwx6_2 : ∀ i : grid6.Coords, EltTy.bits .f32 = 32 ∨ (Rect.block (s := S128x2) S128x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x2.size a ≤ S1x2.size a
  hwx6_3 : ∀ i : grid6.Coords, EltTy.bits .f32 = 32 ∨ (Rect.block (s := S1x2) S1x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x128.size a ≤ S64x128.size a
  hwx6_4 : ∀ i : grid6.Coords, EltTy.bits .f32 = 32 ∨ (Rect.block (s := S64x128) S64x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x2.size a ≤ S64x2.size a
  hwx6_5 : ∀ i : grid6.Coords, EltTy.bits .f32 = 32 ∨ (Rect.block (s := S64x2) S64x2.size (cc6_transform_5 i) (hinb6_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v42) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v42) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v43) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v71) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v43) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v72) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v73) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v73) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v74) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_call0_v102) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v74) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v103) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v0_0) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v0_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v105) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v106) S1x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v0_1) S64x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v0_2) S64x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x256 : Shape := ⟨2, ![40000, 256]⟩
abbrev S640000x256 : Shape := ⟨2, ![640000, 256]⟩
abbrev S40000x1 : Shape := ⟨2, ![40000, 1]⟩
abbrev S1x256 : Shape := ⟨2, ![1, 256]⟩
abbrev S640000x128 : Shape := ⟨2, ![640000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x2, .f32⟩
  | 10 => ⟨S2, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S40000, .f32⟩
  | 19 => ⟨S640000x1, .i32⟩
  | 20 => ⟨S40000, .f32⟩
  | 21 => ⟨S_, .f32⟩
  | 22 => ⟨S40000, .f32⟩
  | 23 => ⟨S40000, .f32⟩
  | 24 => ⟨S40000, .f32⟩
  | 25 => ⟨S40000x256, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S640000, .f32⟩
  | 45 => ⟨S640000x1, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x256, .f32⟩
  | 55 => ⟨S640000x256, .f32⟩
  | 56 => ⟨S640000x256, .f32⟩
  | 57 => ⟨S_, .f32⟩
  | 58 => ⟨S40000x256, .f32⟩
  | 59 => ⟨S640000x1, .i32⟩
  | 60 => ⟨S40000x256, .f32⟩
  | 61 => ⟨S40000, .f32⟩
  | 62 => ⟨S40000x1, .f32⟩
  | 63 => ⟨S40000x256, .f32⟩
  | 64 => ⟨S40000x256, .f32⟩
  | 65 => ⟨S40000x256, .f32⟩
  | 66 => ⟨S1x256, .f32⟩
  | 67 => ⟨S40000x256, .f32⟩
  | 68 => ⟨S40000x256, .f32⟩
  | 69 => ⟨S_, .f32⟩
  | 70 => ⟨S40000x256, .f32⟩
  | 71 => ⟨S40000x256, .f32⟩
  | 72 => ⟨S40000x256, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000, .f32⟩
  | 91 => ⟨S640000, .f32⟩
  | 92 => ⟨S640000x1, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x256, .f32⟩
  | 102 => ⟨S640000x256, .f32⟩
  | 103 => ⟨S640000x256, .f32⟩
  | 104 => ⟨S_, .f32⟩
  | 105 => ⟨S40000x256, .f32⟩
  | 106 => ⟨S640000x1, .i32⟩
  | 107 => ⟨S40000x256, .f32⟩
  | 108 => ⟨S40000, .f32⟩
  | 109 => ⟨S40000x1, .f32⟩
  | 110 => ⟨S40000x256, .f32⟩
  | 111 => ⟨S40000x256, .f32⟩
  | 112 => ⟨S40000x256, .f32⟩
  | 113 => ⟨S1x256, .f32⟩
  | 114 => ⟨S40000x256, .f32⟩
  | 115 => ⟨S40000x256, .f32⟩
  | 116 => ⟨S_, .f32⟩
  | 117 => ⟨S40000x256, .f32⟩
  | 118 => ⟨S40000x256, .f32⟩
  | 119 => ⟨S40000x128, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S40000x128, .f32⟩

abbrev hbmTy0_1 (i : Nat) : BufTy := match i % 128 with
  | 0 => ⟨S640000, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000, .f32⟩
  | 10 => ⟨S640000, .f32⟩
  | 11 => ⟨S640000x1, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S640000x128, .f32⟩
  | 22 => ⟨S640000x128, .f32⟩
  | 23 => ⟨S_, .f32⟩
  | 24 => ⟨S40000x128, .f32⟩
  | 25 => ⟨S640000x1, .i32⟩
  | 26 => ⟨S40000x128, .f32⟩
  | 27 => ⟨S40000, .f32⟩
  | 28 => ⟨S40000x1, .f32⟩
  | 29 => ⟨S40000x128, .f32⟩
  | 30 => ⟨S40000x128, .f32⟩
  | 31 => ⟨S40000x128, .f32⟩
  | 32 => ⟨S1x128, .f32⟩
  | 33 => ⟨S40000x128, .f32⟩
  | 34 => ⟨S40000x128, .f32⟩
  | 35 => ⟨S_, .f32⟩
  | 36 => ⟨S40000, .f32⟩
  | 37 => ⟨S_, .f32⟩
  | 38 => ⟨S64, .f32⟩
  | 39 => ⟨S40000x1, .i32⟩
  | 40 => ⟨S64, .f32⟩
  | 41 => ⟨S_, .f32⟩
  | 42 => ⟨S64x128, .f32⟩
  | 43 => ⟨S40000x1, .i32⟩
  | 44 => ⟨S64x128, .f32⟩
  | 45 => ⟨S_, .f32⟩
  | 46 => ⟨S64, .f32⟩
  | 47 => ⟨S64, .f32⟩
  | 48 => ⟨S64x1, .f32⟩
  | 49 => ⟨S64x128, .f32⟩
  | 50 => ⟨S64x128, .f32⟩
  | 51 => ⟨S64x2, .f32⟩
  | 52 => ⟨S1x2, .f32⟩
  | 53 => ⟨S64x2, .f32⟩
  | 54 => ⟨S64x2, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_25 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S640000x1_S640000x256_0_1 : S640000x1.BroadcastsInDim S640000x256 (![0, 1] : Fin 2 → Fin S640000x256.rank)
  bcast_S_S40000x256 : S_.BroadcastsInDim S40000x256 (![] : Fin 0 → Fin S40000x256.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S640000x1_S640000_n_0_0_1_wf : ScatterDims.WF S40000 S640000x1 S640000 [] [0] [0] 1
  dot_S40000x128_S128x256_S40000x256_1_0_0_1_n_n_wf : DotDims.WF S40000x128 S128x256 S40000x256 [1] [0] [0] [1] [] []
  gather_S40000_S640000x1_S640000_n_0_n_n_0_1_1_wf : GatherDims.WF S40000 S640000x1 S640000 [] [0] [] [0] [] 1 ![1]
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x256_S256x256_S40000x256_1_0_0_1_n_n_wf : DotDims.WF S40000x256 S256x256 S40000x256 [1] [0] [0] [1] [] []
  dot_S40000x256_S256x128_S40000x128_1_0_0_1_n_n_wf : DotDims.WF S40000x256 S256x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  dot_S64x128_S128x2_S64x2_1_0_0_1_n_n_wf : DotDims.WF S64x128 S128x2 S64x2 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.K.R0.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row tile of the activations times the whole weight matrix

Window 0 is the activations' row tile of the point, window 1 the weight matrix (the same block at every point),
window 2 the product's row tile. The body reads the two input tiles and stores one product tile. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input tile's staging buffer holds the tile of the point whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

/-- The product tile the body stores, from the two input tiles: one store covering the whole buffer. -/
def out0_2 (x0 : Vec F S2000x128 .f32) (x1 : Vec F S128x256 .f32) : Vec F S2000x256 .f32 :=
  View.canon [⟨r0_2, k0_pay1 (View.ld x0 r0_0) (View.ld x1 r0_1)⟩]

theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
/-- The body on whole staging buffers: the inputs at `x0`, `x1`, the output at anything; it returns the inputs
    as they were and the output at the product tile. -/
theorem sound_kernel0 (c : Dev nD) (E : Set ℕ) (i : grid0.Coords) (arg0 : Memref sig .tc .vmem S2000x128 .f32) (harg0 : arg0.IsWhole) (arg1 : Memref sig .tc .vmem S128x256 .f32) (harg1 : arg1.IsWhole)
    (arg2 : Memref sig .tc .vmem S2000x256 .f32) (harg2 : arg2.IsWhole)
    (x0 : Vec F S2000x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input
    buffer at its tile and the output buffer at the product tile; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input tile's staging buffer holds the tile of the point whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x1 := Rect.unit (s := S2000x1) ![0, 0] S2000x1.size inb_S2000x1_S2000x1_0_0
abbrev r1_3 : Rect S1x256 := Rect.unit (s := S1x256) ![0, 0] S1x256.size inb_S1x256_S1x256_0_0
abbrev r1_4 : Rect S2000x256 := Rect.unit (s := S2000x256) ![0, 0] S2000x256.size inb_S2000x256_S2000x256_0_0

/-- The tile the body stores, from the four input tiles: one store covering the whole buffer. -/
def out1_4 (x0 : Vec F S2000x256 .f32) (x1 : Vec F S2000x256 .f32) (x2 : Vec F S2000x1 .f32) (x3 : Vec F S1x256 .f32) : Vec F S2000x256 .f32 :=
  View.canon [⟨r1_4, k1_pay1 (View.ld x2 r1_2) (View.ld x0 r1_0) (View.ld x1 r1_1) (View.ld x3 r1_3)⟩]

theorem cover1_4 (p0 : Vec F S2000x256 .f32) (y : S2000x256.Idx) :
    ∃ pc ∈ ([⟨r1_4, p0⟩] : List (View.Piece (Elt F) S2000x256 .f32)), y ∈ pc.1.set :=
  View.cover_of_tiled [⟨r1_4, p0⟩] S2000x256.size (by rfl) y

set_option maxHeartbeats 1000000 in
/-- The body on whole staging buffers: the inputs at `x0 … x3`, the output at anything; it returns the inputs as
    they were and the output at the finished tile. -/
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole)
    (arg2 : Memref sig .tc .vmem S2000x1 .f32) (harg2 : arg2.IsWhole) (arg3 : Memref sig .tc .vmem S1x256 .f32) (harg3 : arg3.IsWhole)
    (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__finalize_kernel i arg0 harg0 arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region on core `c`: the arrays as the region finds them; after the body each input
    buffer at its tile and the output buffer at the finished tile; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a row tile of the activations times the whole weight matrix

Window 0 is the activations' row tile of the point, window 1 the weight matrix (the same block at every point),
window 2 the product's row tile. The body reads the two input tiles and stores one product tile. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input tile's staging buffer holds the tile of the point whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-- The product tile the body stores, from the two input tiles: one store covering the whole buffer. -/
def out2_2 (x0 : Vec F S2000x256 .f32) (x1 : Vec F S256x256 .f32) : Vec F S2000x256 .f32 :=
  View.canon [⟨r2_2, k2_pay1 (View.ld x0 r2_0) (View.ld x1 r2_1)⟩]

theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

set_option maxHeartbeats 1000000 in
/-- The body on whole staging buffers: the inputs at `x0`, `x1`, the output at anything; it returns the inputs
    as they were and the output at the product tile. -/
theorem sound_kernel2 (c : Dev nD) (E : Set ℕ) (i : grid2.Coords) (arg0 : Memref sig .tc .vmem S2000x256 .f32) (harg0 : arg0.IsWhole) (arg1 : Memref sig .tc .vmem S256x256 .f32) (harg1 : arg1.IsWhole)
    (arg2 : Memref sig .tc .vmem S2000x256 .f32) (harg2 : arg2.IsWhole)
    (x0 : Vec F S2000x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`: the arrays as the region finds them; after the body each input
    buffer at its tile and the output buffer at the product tile; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input tile's staging buffer holds the tile of the point whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x1 := Rect.unit (s := S2000x1) ![0, 0] S2000x1.size inb_S2000x1_S2000x1_0_0
abbrev r3_3 : Rect S1x256 := Rect.unit (s := S1x256) ![0, 0] S1x256.size inb_S1x256_S1x256_0_0
abbrev r3_4 : Rect S2000x256 := Rect.unit (s := S2000x256) ![0, 0] S2000x256.size inb_S2000x256_S2000x256_0_0

/-- The tile the body stores, from the four input tiles: one store covering the whole buffer. -/
def out3_4 (x0 : Vec F S2000x256 .f32) (x1 : Vec F S2000x256 .f32) (x2 : Vec F S2000x1 .f32) (x3 : Vec F S1x256 .f32) : Vec F S2000x256 .f32 :=
  View.canon [⟨r3_4, k3_pay1 (View.ld x2 r3_2) (View.ld x0 r3_0) (View.ld x1 r3_1) (View.ld x3 r3_3)⟩]

theorem cover3_4 (p0 : Vec F S2000x256 .f32) (y : S2000x256.Idx) :
    ∃ pc ∈ ([⟨r3_4, p0⟩] : List (View.Piece (Elt F) S2000x256 .f32)), y ∈ pc.1.set :=
  View.cover_of_tiled [⟨r3_4, p0⟩] S2000x256.size (by rfl) y

set_option maxHeartbeats 1000000 in
/-- The body on whole staging buffers: the inputs at `x0 … x3`, the output at anything; it returns the inputs as
    they were and the output at the finished tile. -/
theorem sound_kernel3 (c : Dev nD) (E : Set ℕ) (i : grid3.Coords) (arg0 : Memref sig .tc .vmem S2000x256 .f32) (harg0 : arg0.IsWhole) (arg1 : Memref sig .tc .vmem S2000x256 .f32) (harg1 : arg1.IsWhole)
    (arg2 : Memref sig .tc .vmem S2000x1 .f32) (harg2 : arg2.IsWhole) (arg3 : Memref sig .tc .vmem S1x256 .f32) (harg3 : arg3.IsWhole)
    (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__finalize_kernel i arg0 harg0 arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region on core `c`: the arrays as the region finds them; after the body each input
    buffer at its tile and the output buffer at the finished tile; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row tile of the activations times the whole weight matrix

Window 0 is the activations' row tile of the point, window 1 the weight matrix (the same block at every point),
window 2 the product's row tile. The body reads the two input tiles and stores one product tile. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input tile's staging buffer holds the tile of the point whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x256 := Rect.unit (s := S2000x256) ![0, 0] S2000x256.size inb_S2000x256_S2000x256_0_0
abbrev r4_1 : Rect S256x128 := Rect.unit (s := S256x128) ![0, 0] S256x128.size inb_S256x128_S256x128_0_0
abbrev r4_2 : Rect S2000x128 := Rect.unit (s := S2000x128) ![0, 0] S2000x128.size inb_S2000x128_S2000x128_0_0

/-- The product tile the body stores, from the two input tiles: one store covering the whole buffer. -/
def out4_2 (x0 : Vec F S2000x256 .f32) (x1 : Vec F S256x128 .f32) : Vec F S2000x128 .f32 :=
  View.canon [⟨r4_2, k4_pay1 (View.ld x0 r4_0) (View.ld x1 r4_1)⟩]

theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

set_option maxHeartbeats 1000000 in
/-- The body on whole staging buffers: the inputs at `x0`, `x1`, the output at anything; it returns the inputs
    as they were and the output at the product tile. -/
theorem sound_kernel4 (c : Dev nD) (E : Set ℕ) (i : grid4.Coords) (arg0 : Memref sig .tc .vmem S2000x256 .f32) (harg0 : arg0.IsWhole) (arg1 : Memref sig .tc .vmem S256x128 .f32) (harg1 : arg1.IsWhole)
    (arg2 : Memref sig .tc .vmem S2000x128 .f32) (harg2 : arg2.IsWhole)
    (x0 : Vec F S2000x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`: the arrays as the region finds them; after the body each input
    buffer at its tile and the output buffer at the product tile; nothing carried between points. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input tile's staging buffer holds the tile of the point whether or not the point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S2000x128 := Rect.unit (s := S2000x128) ![0, 0] S2000x128.size inb_S2000x128_S2000x128_0_0
abbrev r5_2 : Rect S2000x1 := Rect.unit (s := S2000x1) ![0, 0] S2000x1.size inb_S2000x1_S2000x1_0_0
abbrev r5_3 : Rect S1x128 := Rect.unit (s := S1x128) ![0, 0] S1x128.size inb_S1x128_S1x128_0_0
abbrev r5_4 : Rect S2000x128 := Rect.unit (s := S2000x128) ![0, 0] S2000x128.size inb_S2000x128_S2000x128_0_0

/-- The tile the body stores, from the four input tiles: one store covering the whole buffer. -/
def out5_4 (x0 : Vec F S2000x128 .f32) (x1 : Vec F S2000x128 .f32) (x2 : Vec F S2000x1 .f32) (x3 : Vec F S1x128 .f32) : Vec F S2000x128 .f32 :=
  View.canon [⟨r5_4, k5_pay1 (View.ld x2 r5_2) (View.ld x0 r5_0) (View.ld x1 r5_1) (View.ld x3 r5_3)⟩]

theorem cover5_4 (p0 : Vec F S2000x128 .f32) (y : S2000x128.Idx) :
    ∃ pc ∈ ([⟨r5_4, p0⟩] : List (View.Piece (Elt F) S2000x128 .f32)), y ∈ pc.1.set :=
  View.cover_of_tiled [⟨r5_4, p0⟩] S2000x128.size (by rfl) y

set_option maxHeartbeats 1000000 in
/-- The body on whole staging buffers: the inputs at `x0 … x3`, the output at anything; it returns the inputs as
    they were and the output at the finished tile. -/
theorem sound_kernel5 (c : Dev nD) (E : Set ℕ) (i : grid5.Coords) (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E (cc5__finalize_kernel i arg0 harg0 arg1 harg1 arg2 harg2 arg3 harg3 arg4 harg4) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of the region on core `c`: the arrays as the region finds them; after the body each input
    buffer at its tile and the output buffer at the finished tile; nothing carried between points. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6Runs.lean ====
import proofs.«409148_j78477642432722_1_alg».proof.Proof.Gen.Kernel.Launch
import proofs.«409148_j78477642432722_1_alg».proof.Proof.Gen.Kernel.Skeleton
import proofs.«409148_j78477642432722_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: mean pooling over the graphs and the classifier — what its three control cases share

Windows 0 and 1 are the row tiles of the node embeddings and of the graph ids; windows 2 and 3 the classifier's
weights and bias (the same block at every point); windows 4 and 5 the pooled graph embeddings and the logits, stored
at the last point only. Two scratch buffers, the per-graph sums and the per-graph counts, are reset at the first point
and carried from point to point. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input tile's staging buffer holds the tile of the point whether or not the point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions, from the grid coordinate -/

/-- The first conditional (reset the two scratch buffers) is taken at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional (divide the sums by the counts, classify, store both outputs) is taken at the last point only. -/
abbrev cond6_1 (i : grid6.Coords) : Prop := k6_cond2 i = 1#1
theorem hcond6_1 : ∀ t : Fin cfg6.N, cond6_1 (grid6.coords t) ↔ t.val = 19 :=
  (by decide +kernel : ∀ t : Fin grid6.N, cond6_1 (grid6.coords t) ↔ t.val = 19)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the two outputs are idle and not written back; at the last point they are live. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel

/-! ## The memrefs the body is called with -/

/-- One staging buffer of each output, through which its contents are stated. -/
abbrev VO6_4 : View sig .tc .vmem S64x128 .f32 := (Memref.whole cc6_stg4_0 : Memref sig .tc .vmem S64x128 .f32).view
abbrev VO6_5 : View sig .tc .vmem S64x2 .f32 := (Memref.whole cc6_stg5_0 : Memref sig .tc .vmem S64x2 .f32).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x2 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x2 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x2 .f32 := win6_5.stage (cfg6.slots t 5)
abbrev hs6_5 (t : Fin cfg6.N) : (ms6_5 t).IsWhole := hstage6_5 ((cfg6.slots t 5).cast nbuf6_5)
/-- The two scratch operands: whole scoped buffers of the kernel's own, and the views their contents are stated through. -/
abbrev scM6_0 : Memref sig .tc .vmem S64x128 .f32 := Memref.whole cc6_scratch0
abbrev scM6_1 : Memref sig .tc .vmem S64x1 .f32 := Memref.whole cc6_scratch1
abbrev VS6_0 : View sig .tc .vmem S64x128 .f32 := scM6_0.view
abbrev VS6_1 : View sig .tc .vmem S64x1 .f32 := scM6_1.view

/-- The other scoped buffers of the core, which the body never touches. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The region's invariant with the two scratch operands as memrefs owned at some contents: the scoped rest split at
    the two buffers, a whole buffer owned being the memref owned. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.Kernel.Hand

end
-- ==== Proof.K.R6A.lean ====
import proofs.«409148_j78477642432722_1_alg».proof.Proof.K.R6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, the first point: the body's run -/

set_option maxHeartbeats 1000000 in
/-- AT THE FIRST POINT (the reset taken, the finish not): the pieces the body's stores leave in the two scratch buffers
    (last first), with the triple they witness: on whole memrefs — the four inputs at their contents, the two outputs at
    any contents, handed back untouched, the two scratch buffers at anything — the body runs to the continuation holding
    the inputs and outputs as they were and each scratch buffer with its pieces written. -/
noncomputable def kernelRun6_A (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) :
    Σ' (LS0 : List (View.Piece (Elt F) S64x128 .f32)), { LS1 : List (View.Piece (Elt F) S64x1 .f32) //
      ∀ (xi4 : Vec F S64x128 .f32) (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, fun xi4 xi5 E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R6B.lean ====
import proofs.«409148_j78477642432722_1_alg».proof.Proof.K.R6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, a point that is neither the first nor the last: the body's run -/

set_option maxHeartbeats 1000000 in
/-- AT A MIDDLE POINT (neither conditional taken): the pieces the body's stores leave in the two scratch buffers, with
    the triple they witness: the four inputs at their contents, the two outputs at any contents, handed back untouched,
    the two scratch buffers at what the point before left (`xs0`, `xs1`). -/
noncomputable def kernelRun6_B (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) :
    Σ' (LS0 : List (View.Piece (Elt F) S64x128 .f32)), { LS1 : List (View.Piece (Elt F) S64x1 .f32) //
      ∀ (xi4 : Vec F S64x128 .f32) (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, fun xi4 xi5 E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R6C.lean ====
import proofs.«409148_j78477642432722_1_alg».proof.Proof.K.R6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, the last point: the body's run -/

set_option maxHeartbeats 1000000 in
/-- AT THE LAST POINT (the reset not taken, the finish taken): the pieces the body's stores leave in the two outputs and
    in the two scratch buffers, with the triple they witness: the four inputs at their contents, the two outputs at
    anything, the two scratch buffers at what the point before left (`xs0`, `xs1`). -/
noncomputable def kernelRun6_C (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    Σ' (L4 : List (View.Piece (Elt F) S64x128 .f32)) (L5 : List (View.Piece (Elt F) S64x2 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, ?_, ?_, fun E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Hand

end
-- ==== Proof.K.R6.lean ====
import proofs.«409148_j78477642432722_1_alg».proof.Proof.K.R6A
import proofs.«409148_j78477642432722_1_alg».proof.Proof.K.R6B
import proofs.«409148_j78477642432722_1_alg».proof.Proof.K.R6C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the proof data, the body obligation, the invariant at entry and exit

The three runs (first point, middle point, last point) each name the pieces the body's stores leave. Here the pieces
are shown to cover their buffers, so that what a buffer holds afterwards is a function of the pieces alone; the two
scratch buffers' contents are then defined point by point, and the body obligation follows by cases on the point. -/

/-! ## The pieces cover -/

theorem scover6_A_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) (y : S64x128.Idx) :
    ∃ pc ∈ (kernelRun6_A c i arg1 harg1 arg2 harg2 arg3 harg3 arg4 harg4 arg5 harg5 arg6 harg6 arg7 harg7 arg8 harg8 hc0 hc1 x0 x1 x2 x3).1, y ∈ pc.1.set :=
  View.cover_of_tiledL (kernelRun6_A c i arg1 harg1 arg2 harg2 arg3 harg3 arg4 harg4 arg5 harg5 arg6 harg6 arg7 harg7 arg8 harg8 hc0 hc1 x0 x1 x2 x3).1 S64x128.size (by sl_kernel_rfl) y
theorem scover6_A_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) (y : S64x1.Idx) :
    ∃ pc ∈ (kernelRun6_A c i arg1 harg1 arg2 harg2 arg3 harg3 arg4 harg4 arg5 harg5 arg6 harg6 arg7 harg7 arg8 harg8 hc0 hc1 x0 x1 x2 x3).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3).2.1 S64x1.size (by sl_kernel_rfl) y
theorem scover6_B_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 x3 xs0 xs1).1 S64x128.size (by sl_kernel_rfl) y
theorem scover6_B_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x1.Idx) :
    ∃ pc ∈ (kernelRun6_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 xs0 xs1).2.1 S64x1.size (by sl_kernel_rfl) y
theorem cover6_C_4 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).1 S64x128.size (by sl_kernel_rfl) y
theorem cover6_C_5 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x2.Idx) :
    ∃ pc ∈ (kernelRun6_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.1 S64x2.size (by sl_kernel_rfl) y
theorem scover6_C_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.2.1 S64x128.size (by sl_kernel_rfl) y
theorem scover6_C_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x1.Idx) :
    ∃ pc ∈ (kernelRun6_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.2.2.1 S64x1.size (by sl_kernel_rfl) y

/-! ## The runs at a point of the grid -/

/-- Pieces read back over arbitrary prior contents: what a buffer they cover holds. -/
abbrev rdS0 (L : List (View.Piece (Elt F) S64x128 .f32)) : Vec F S64x128 .f32 := VS6_0.read (Elt F) (VS6_0.writes (Elt F) VS6_0.junk L)
abbrev rdS1 (L : List (View.Piece (Elt F) S64x1 .f32)) : Vec F S64x1 .f32 := VS6_1.read (Elt F) (VS6_1.writes (Elt F) VS6_1.junk L)
abbrev rdO4 (L : List (View.Piece (Elt F) S64x128 .f32)) : Vec F S64x128 .f32 := VO6_4.read (Elt F) (VO6_4.writes (Elt F) VO6_4.junk L)
abbrev rdO5 (L : List (View.Piece (Elt F) S64x2 .f32)) : Vec F S64x2 .f32 := VO6_5.read (Elt F) (VO6_5.writes (Elt F) VO6_5.junk L)

/-- The first point's run at the point's memrefs and input tiles. -/
abbrev runA6 (c : Dev nD) (t : Fin cfg6.N) (h0 : t.val = 0) :=
  kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    ((hcond6_0 t).mpr h0) (fun h => by have := (hcond6_1 t).mp h; omega) (iblk6 V c 0 t) (iblk6 V c 1 t) (iblk6 V c 2 t) (iblk6 V c 3 t)
/-- A middle point's run, over what the point before left in the scratch buffers. -/
abbrev runB6 (c : Dev nD) (t : Fin cfg6.N) (h0 : t.val ≠ 0) (h1 : t.val ≠ 19) (xs0 : Vec F S64x128 .f32) (xs1 : Vec F S64x1 .f32) :=
  kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    (fun h => h0 ((hcond6_0 t).mp h)) (fun h => h1 ((hcond6_1 t).mp h)) (iblk6 V c 0 t) (iblk6 V c 1 t) (iblk6 V c 2 t) (iblk6 V c 3 t) xs0 xs1
/-- The last point's run, over what the point before left in the scratch buffers. -/
abbrev runC6 (c : Dev nD) (t : Fin cfg6.N) (h1 : t.val = 19) (xs0 : Vec F S64x128 .f32) (xs1 : Vec F S64x1 .f32) :=
  kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    (fun h => by have := (hcond6_0 t).mp h; omega) ((hcond6_1 t).mpr h1) (iblk6 V c 0 t) (iblk6 V c 1 t) (iblk6 V c 2 t) (iblk6 V c 3 t) xs0 xs1

/-! ## What the scratch buffers hold after each point -/

/-- THE ACCUMULATION: the two scratch buffers after the body at point `n`: at the first point the first run's pieces,
    afterwards the middle (or last) run's pieces over what the point before left. -/
def scr6 (c : Dev nD) : (n : ℕ) → n < cfg6.N → Vec F S64x128 .f32 × Vec F S64x1 .f32
  | 0, hn => (rdS0 (runA6 V c ⟨0, hn⟩ rfl).1, rdS1 (runA6 V c ⟨0, hn⟩ rfl).2.1)
  | n + 1, hn =>
    if h1 : n + 1 = 19 then
      (rdS0 (runC6 V c ⟨n + 1, hn⟩ h1 (scr6 c n (Nat.lt_of_succ_lt hn)).1 (scr6 c n (Nat.lt_of_succ_lt hn)).2).2.2.1,
       rdS1 (runC6 V c ⟨n + 1, hn⟩ h1 (scr6 c n (Nat.lt_of_succ_lt hn)).1 (scr6 c n (Nat.lt_of_succ_lt hn)).2).2.2.2.1)
    else
      (rdS0 (runB6 V c ⟨n + 1, hn⟩ (Nat.succ_ne_zero n) h1 (scr6 c n (Nat.lt_of_succ_lt hn)).1 (scr6 c n (Nat.lt_of_succ_lt hn)).2).1,
       rdS1 (runB6 V c ⟨n + 1, hn⟩ (Nat.succ_ne_zero n) h1 (scr6 c n (Nat.lt_of_succ_lt hn)).1 (scr6 c n (Nat.lt_of_succ_lt hn)).2).2.1)

/-- What the point before `t` left in the scratch buffers (read only where `t` is not the first point). -/
abbrev prev6 (c : Dev nD) (t : Fin cfg6.N) : Vec F S64x128 .f32 × Vec F S64x1 .f32 :=
  scr6 V c (t.val - 1) (Nat.lt_of_le_of_lt (Nat.sub_le _ _) t.isLt)

theorem scr6_A (c : Dev nD) (t : Fin cfg6.N) (h0 : t.val = 0) :
    scr6 V c t.val t.isLt = (rdS0 (runA6 V c t h0).1, rdS1 (runA6 V c t h0).2.1) := by
  obtain ⟨n, hn⟩ := t
  cases n with
  | zero => exact rfl
  | succ n => exact absurd h0 (Nat.succ_ne_zero n)

theorem scr6_B (c : Dev nD) (t : Fin cfg6.N) (h0 : t.val ≠ 0) (h1 : t.val ≠ 19) :
    scr6 V c t.val t.isLt = (rdS0 (runB6 V c t h0 h1 (prev6 V c t).1 (prev6 V c t).2).1, rdS1 (runB6 V c t h0 h1 (prev6 V c t).1 (prev6 V c t).2).2.1) := by
  obtain ⟨n, hn⟩ := t
  cases n with
  | zero => exact absurd rfl h0
  | succ n => exact (dif_neg h1).trans rfl

theorem scr6_C (c : Dev nD) (t : Fin cfg6.N) (h1 : t.val = 19) :
    scr6 V c t.val t.isLt = (rdS0 (runC6 V c t h1 (prev6 V c t).1 (prev6 V c t).2).2.2.1, rdS1 (runC6 V c t h1 (prev6 V c t).1 (prev6 V c t).2).2.2.2.1) := by
  obtain ⟨n, hn⟩ := t
  cases n with
  | zero => exact absurd h1 (by dsimp only; omega)
  | succ n => exact (dif_pos h1).trans rfl

theorem scr6_A1 (c : Dev nD) (t : Fin cfg6.N) (h0 : t.val = 0) : (scr6 V c t.val t.isLt).1 = rdS0 (runA6 V c t h0).1 := by
  rw [scr6_A V c t h0]
theorem scr6_A2 (c : Dev nD) (t : Fin cfg6.N) (h0 : t.val = 0) : (scr6 V c t.val t.isLt).2 = rdS1 (runA6 V c t h0).2.1 := by
  rw [scr6_A V c t h0]
theorem scr6_B1 (c : Dev nD) (t : Fin cfg6.N) (h0 : t.val ≠ 0) (h1 : t.val ≠ 19) :
    (scr6 V c t.val t.isLt).1 = rdS0 (runB6 V c t h0 h1 (prev6 V c t).1 (prev6 V c t).2).1 := by
  rw [scr6_B V c t h0 h1]
theorem scr6_B2 (c : Dev nD) (t : Fin cfg6.N) (h0 : t.val ≠ 0) (h1 : t.val ≠ 19) :
    (scr6 V c t.val t.isLt).2 = rdS1 (runB6 V c t h0 h1 (prev6 V c t).1 (prev6 V c t).2).2.1 := by
  rw [scr6_B V c t h0 h1]
theorem scr6_C1 (c : Dev nD) (t : Fin cfg6.N) (h1 : t.val = 19) :
    (scr6 V c t.val t.isLt).1 = rdS0 (runC6 V c t h1 (prev6 V c t).1 (prev6 V c t).2).2.2.1 := by
  rw [scr6_C V c t h1]
theorem scr6_C2 (c : Dev nD) (t : Fin cfg6.N) (h1 : t.val = 19) :
    (scr6 V c t.val t.isLt).2 = rdS1 (runC6 V c t h1 (prev6 V c t).1 (prev6 V c t).2).2.2.2.1 := by
  rw [scr6_C V c t h1]

/-- The two outputs' staging buffers after the body at point `t`: at the last point the last run's pieces; elsewhere
    the body stores nothing there and the value is never consulted (the windows are idle and not written back). -/
def out6 (c : Dev nD) (t : Fin cfg6.N) : Vec F S64x128 .f32 × Vec F S64x2 .f32 :=
  if h1 : t.val = 19 then
    (rdO4 (runC6 V c t h1 (prev6 V c t).1 (prev6 V c t).2).1, rdO5 (runC6 V c t h1 (prev6 V c t).1 (prev6 V c t).2).2.1)
  else (rdO4 [], rdO5 [])

theorem out6_C (c : Dev nD) (t : Fin cfg6.N) (h1 : t.val = 19) :
    out6 V c t = (rdO4 (runC6 V c t h1 (prev6 V c t).1 (prev6 V c t).2).1, rdO5 (runC6 V c t h1 (prev6 V c t).1 (prev6 V c t).2).2.1) :=
  dif_pos h1

theorem out6_C1 (c : Dev nD) (t : Fin cfg6.N) (h1 : t.val = 19) :
    (out6 V c t).1 = rdO4 (runC6 V c t h1 (prev6 V c t).1 (prev6 V c t).2).1 := by
  rw [out6_C V c t h1]
theorem out6_C2 (c : Dev nD) (t : Fin cfg6.N) (h1 : t.val = 19) :
    (out6 V c t).2 = rdO5 (runC6 V c t h1 (prev6 V c t).1 (prev6 V c t).2).2.1 := by
  rw [out6_C V c t h1]

/-! ## The invariant -/

/-- The region's invariant before position `n`: before the first point what the launch hands over (every scratch buffer at anything);
    afterwards the two scratch buffers at what the point before left, the core's other scoped buffers and its generator
    register as they come. -/
def PhiS6 (c : Dev nD) : (n : ℕ) → n ≤ cfg6.N → sProp 𝕄
  | 0, _ => Pipeline.ΦA spec6 c
  | n + 1, hn => iprop(iprop(iprop(owns (c : Thread nD τ) scM6_0 fullShare (scr6 V c n hn).1 ∗ owns (c : Thread nD τ) scM6_1 fullShare (scr6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scr6 V c n hn).1 ∗ owns (c : Thread nD τ) scM6_1 fullShare (scr6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scr6 V c (n - 1) (by omega)).1 ∗ owns (c : Thread nD τ) scM6_1 fullShare (scr6 V c (n - 1) (by omega)).2) ∗ rest6 c) ∗ (∃ r, prngReg c r)) := by
  cases n with
  | zero => exact absurd rfl hz
  | succ n => rfl

/-! ## The proof data -/

/-- The proof data of the region on core `c`: the arrays as the region finds them; after the body each input buffer at
    its tile and the two outputs at `out6`; the invariant `PhiS6`; full shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (out6 V c t).1
    | ⟨5, _⟩ => (out6 V c t).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (out6 V c t).1 := by dsimp only [dat6]
theorem after6_5 (c : Dev nD) (t : Fin cfg6.N) : (dat6 V c).after 5 t = (out6 V c t).2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point, by cases on the point: the inputs' memrefs hold their tiles; at the first point the invariant
    hands the scratch buffers at anything, afterwards at what the point before left; the case's run applies; the scratch
    buffers come back with the run's pieces written, which cover them; away from the last point the outputs are handed
    back as found, at the last point with the run's covering pieces written. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 20 := lt_of_lt_of_eq t.isLt (show cfg6.N = 20 from N_6)
  by_cases h0 : t.val = 0
  · have hn1 : ¬cond6_1 (grid6.coords t) := fun h => by have := (hcond6_1 t).mp h; omega
    rw [Dat.leavesExact_idle (dat6 V c) 4 t (idleAt6_4 t hn1) (noFlush6_4 t hn1), Dat.leavesExact_idle (dat6 V c) 5 t (idleAt6_5 t hn1) (noFlush6_5 t hn1)]
    rw [scr6_A1 V c t h0, scr6_A2 V c t h0]
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply ((runA6 V c t h0).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 (F := F) _ _ _ _ _ _ _ _ _ _ _ _ _ _ _ _ _ _ _ _ _ _ _ _)
          · unfold owns; iexists _; isplitr
            swap; · iexact HS1
            ipureintro; exact View.read_writes_of_cover _ _ _ _ _ (scover6_A_1 (F := F) _ _ _ _ _ _ _ _ _ _ _ _ _ _ _ _ _ _ _ _ _ _ _ _)
        · iexact Hr
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 19
    · have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4 t hc1], after6_4]
      rw [show (dat6 V c).leavesExact 5 t = owns (c : Thread nD τ) (ms6_5 t) fullShare ((dat6 V c).after 5 t) from by
        unfold Dat.leavesExact; rw [liveAt6_5 t hc1], after6_5]
      rw [scr6_C1 V c t h1, scr6_C2 V c t h1, out6_C1 V c t h1, out6_C2 V c t h1]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((runC6 V c t h1 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 (F := F) _ _ _ _ _ _ _ _ _ _ _ _ _ _ _ _ _ _ _ _ _ _ _ _ _ _)
            · unfold owns; iexists _; isplitr
              swap; · iexact HS1
              ipureintro; exact View.read_writes_of_cover _ _ _ _ _ (scover6_C_1 (F := F) _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_C_4 (F := F) _ _ _ _ _ _ _ _ _ _ _ _ _ _ _ _ _ _ _ _ _ _ _ _ _ _)
      unfold owns; iexists _; isplitr
      swap; · iexact H5
      ipureintro; exact View.read_writes_of_cover _ _ _ _ _ (cover6_C_5 (F := F) _ _ _ _ _ _ _ _ _ _ _ _ _ _ _ _ _ _ _ _ _ _ _ _ _ _)
    · have hn1 : ¬cond6_1 (grid6.coords t) := fun h => h1 ((hcond6_1 t).mp h)
      rw [Dat.leavesExact_idle (dat6 V c) 4 t (idleAt6_4 t hn1) (noFlush6_4 t hn1), Dat.leavesExact_idle (dat6 V c) 5 t (idleAt6_5 t hn1) (noFlush6_5 t hn1)]
      rw [scr6_B1 V c t h0 h1, scr6_B2 V c t h0 h1]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((runB6 V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 (F := F) _ _ _ _ _ _ _ _ _ _ _ _ _ _ _ _ _ _ _ _ _ _ _ _ _ _)
            · unfold owns; iexists _; isplitr
              swap; · iexact HS1
              ipureintro; exact View.read_writes_of_cover _ _ _ _ _ (scover6_B_1 (F := F) _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives back what the launch handed over: the scratch buffers' named contents are forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 20 := N_6; omega)

end Cert.Kernel.Hand

end
-- ==== Proof.K.Run.lean ====
import proofs.«409148_j78477642432722_1_alg».proof.Proof.K.R0
import proofs.«409148_j78477642432722_1_alg».proof.Proof.K.R1
import proofs.«409148_j78477642432722_1_alg».proof.Proof.K.R2
import proofs.«409148_j78477642432722_1_alg».proof.Proof.K.R3
import proofs.«409148_j78477642432722_1_alg».proof.Proof.K.R4
import proofs.«409148_j78477642432722_1_alg».proof.Proof.K.R5
import proofs.«409148_j78477642432722_1_alg».proof.Proof.K.R6
import proofs.«409148_j78477642432722_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: the program's seven regions among its host stretches

The buffer contents at every boundary between two items of the program are a fold from the launch memory: a host
stretch applies its operations, a region replaces its arrays by what its write-backs leave. Each region's proof data
is taken at the contents its entry finds. The final state holds every unscoped buffer at the last fold. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After region 2: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After region 4: its arrays at what the write-backs leave, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch `hostOps5`. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- After region 5: its arrays at what the write-backs leave, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- After the host stretch `hostOps6`. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- After region 6: its arrays at what the write-backs leave, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-! ## The proof data family and the thread state -/

abbrev adm : (p : Fin 7) → (pcfgs (F := F) p).Adm := fun p => (cfgs p).toPCfg_adm
/-- Every region's proof data, each at its entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as items of the run -/

set_option backward.isDefEq.respectTransparency.types false in
/-- Region 0 over the thread state: entered with every unscoped buffer at `W1`, left with them at `W2`; its arrays
    are split out of the unscoped buffers and put back at the exit contents; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`; its arrays
    are split out of the unscoped buffers and put back at the exit contents; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays
    are split out of the unscoped buffers and put back at the exit contents; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its arrays
    are split out of the unscoped buffers and put back at the exit contents; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`; its arrays
    are split out of the unscoped buffers and put back at the exit contents; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W9`, left with them at `W10`; its arrays
    are split out of the unscoped buffers and put back at the exit contents; nothing owed; no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W11`, left with them at `W12`; its arrays
    are split out of the unscoped buffers and put back at the exit contents; nothing owed; no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V11 m ρ) c)
    unfold Pipeline.ΦA
    iintro ⟨Hp, -, Hr⟩
    isplitl [Hr]; · iexact Hr
    iexact Hp
  hout c := by
    rw [Pipeline.ownSems0_none]
    refine BIBase.Entails.trans (hout6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ) ]

set_option backward.isDefEq.respectTransparency.types false in
/-- Every weakly fair execution of the program terminates without a fault, and the final state holds every unscoped
    buffer at the last fold `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Kept.lean ====
import proofs.«409148_j78477642432722_1_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! # What an item of the run leaves alone

A host stretch changes only the buffers its operations write; a region changes only its output arrays (an input
array is written back never). So a buffer read later holds what it held after the last item that may write it. -/

theorem keep1 (c : Dev nD) (b : Ref sig .tc) (h : b ∉ hostOps0_W) :
    W1 m ρ c (Proc.devRef .tc b) = W0 m ρ c (Proc.devRef .tc b) :=
  StableHlo.after_of_writes_sub hostOps0 _ hostOps0_writes h
theorem keep2 (c : Dev nD) (b : Ref sig .tc) (h : b ∉ ([main_call0_v12] : List (Ref sig .tc))) :
    W2 m ρ c (Proc.devRef .tc b) = W1 m ρ c (Proc.devRef .tc b) := by
  have hout : ∀ w : Fin cfg0.W, (cfg0.win w).isOut = true → Pipeline.arrRef spec0 w ∈ ([main_call0_v12] : List (Ref sig .tc)) := by decide
  by_cases hw : ∃ w, Pipeline.arrRef spec0 w = b
  · obtain ⟨w, rfl⟩ := hw
    have hin : (cfg0.win w).isOut = false := by
      cases hio : (cfg0.win w).isOut with
      | false => rfl
      | true => exact absurd (hout w hio) h
    exact (W2_arr m ρ c w).trans (((dat0 (V1 m ρ) c).arrAt_in w hin _).trans (A_eq0 (V1 m ρ) c w))
  · exact W2_of_ne m ρ c b fun w e => hw ⟨w, e⟩
theorem keep3 (c : Dev nD) (b : Ref sig .tc) (h : b ∉ hostOps1_W) :
    W3 m ρ c (Proc.devRef .tc b) = W2 m ρ c (Proc.devRef .tc b) :=
  StableHlo.after_of_writes_sub hostOps1 _ hostOps1_writes h
theorem keep4 (c : Dev nD) (b : Ref sig .tc) (h : b ∉ ([main_call0_v42] : List (Ref sig .tc))) :
    W4 m ρ c (Proc.devRef .tc b) = W3 m ρ c (Proc.devRef .tc b) := by
  have hout : ∀ w : Fin cfg1.W, (cfg1.win w).isOut = true → Pipeline.arrRef spec1 w ∈ ([main_call0_v42] : List (Ref sig .tc)) := by decide
  by_cases hw : ∃ w, Pipeline.arrRef spec1 w = b
  · obtain ⟨w, rfl⟩ := hw
    have hin : (cfg1.win w).isOut = false := by
      cases hio : (cfg1.win w).isOut with
      | false => rfl
      | true => exact absurd (hout w hio) h
    exact (W4_arr m ρ c w).trans (((dat1 (V3 m ρ) c).arrAt_in w hin _).trans (A_eq1 (V3 m ρ) c w))
  · exact W4_of_ne m ρ c b fun w e => hw ⟨w, e⟩
theorem keep5 (c : Dev nD) (b : Ref sig .tc) (h : b ∉ ([main_call0_v43] : List (Ref sig .tc))) :
    W5 m ρ c (Proc.devRef .tc b) = W4 m ρ c (Proc.devRef .tc b) := by
  have hout : ∀ w : Fin cfg2.W, (cfg2.win w).isOut = true → Pipeline.arrRef spec2 w ∈ ([main_call0_v43] : List (Ref sig .tc)) := by decide
  by_cases hw : ∃ w, Pipeline.arrRef spec2 w = b
  · obtain ⟨w, rfl⟩ := hw
    have hin : (cfg2.win w).isOut = false := by
      cases hio : (cfg2.win w).isOut with
      | false => rfl
      | true => exact absurd (hout w hio) h
    exact (W5_arr m ρ c w).trans (((dat2 (V4 m ρ) c).arrAt_in w hin _).trans (A_eq2 (V4 m ρ) c w))
  · exact W5_of_ne m ρ c b fun w e => hw ⟨w, e⟩
theorem keep6 (c : Dev nD) (b : Ref sig .tc) (h : b ∉ hostOps3_W) :
    W6 m ρ c (Proc.devRef .tc b) = W5 m ρ c (Proc.devRef .tc b) :=
  StableHlo.after_of_writes_sub hostOps3 _ hostOps3_writes h
theorem keep7 (c : Dev nD) (b : Ref sig .tc) (h : b ∉ ([main_call0_v73] : List (Ref sig .tc))) :
    W7 m ρ c (Proc.devRef .tc b) = W6 m ρ c (Proc.devRef .tc b) := by
  have hout : ∀ w : Fin cfg3.W, (cfg3.win w).isOut = true → Pipeline.arrRef spec3 w ∈ ([main_call0_v73] : List (Ref sig .tc)) := by decide
  by_cases hw : ∃ w, Pipeline.arrRef spec3 w = b
  · obtain ⟨w, rfl⟩ := hw
    have hin : (cfg3.win w).isOut = false := by
      cases hio : (cfg3.win w).isOut with
      | false => rfl
      | true => exact absurd (hout w hio) h
    exact (W7_arr m ρ c w).trans (((dat3 (V6 m ρ) c).arrAt_in w hin _).trans (A_eq3 (V6 m ρ) c w))
  · exact W7_of_ne m ρ c b fun w e => hw ⟨w, e⟩
theorem keep8 (c : Dev nD) (b : Ref sig .tc) (h : b ∉ ([main_call0_v74] : List (Ref sig .tc))) :
    W8 m ρ c (Proc.devRef .tc b) = W7 m ρ c (Proc.devRef .tc b) := by
  have hout : ∀ w : Fin cfg4.W, (cfg4.win w).isOut = true → Pipeline.arrRef spec4 w ∈ ([main_call0_v74] : List (Ref sig .tc)) := by decide
  by_cases hw : ∃ w, Pipeline.arrRef spec4 w = b
  · obtain ⟨w, rfl⟩ := hw
    have hin : (cfg4.win w).isOut = false := by
      cases hio : (cfg4.win w).isOut with
      | false => rfl
      | true => exact absurd (hout w hio) h
    exact (W8_arr m ρ c w).trans (((dat4 (V7 m ρ) c).arrAt_in w hin _).trans (A_eq4 (V7 m ρ) c w))
  · exact W8_of_ne m ρ c b fun w e => hw ⟨w, e⟩
theorem keep9 (c : Dev nD) (b : Ref sig .tc) (h : b ∉ hostOps5_W) :
    W9 m ρ c (Proc.devRef .tc b) = W8 m ρ c (Proc.devRef .tc b) :=
  StableHlo.after_of_writes_sub hostOps5 _ hostOps5_writes h
theorem keep10 (c : Dev nD) (b : Ref sig .tc) (h : b ∉ ([main_v0_0] : List (Ref sig .tc))) :
    W10 m ρ c (Proc.devRef .tc b) = W9 m ρ c (Proc.devRef .tc b) := by
  have hout : ∀ w : Fin cfg5.W, (cfg5.win w).isOut = true → Pipeline.arrRef spec5 w ∈ ([main_v0_0] : List (Ref sig .tc)) := by decide
  by_cases hw : ∃ w, Pipeline.arrRef spec5 w = b
  · obtain ⟨w, rfl⟩ := hw
    have hin : (cfg5.win w).isOut = false := by
      cases hio : (cfg5.win w).isOut with
      | false => rfl
      | true => exact absurd (hout w hio) h
    exact (W10_arr m ρ c w).trans (((dat5 (V9 m ρ) c).arrAt_in w hin _).trans (A_eq5 (V9 m ρ) c w))
  · exact W10_of_ne m ρ c b fun w e => hw ⟨w, e⟩
theorem keep11 (c : Dev nD) (b : Ref sig .tc) (h : b ∉ hostOps6_W) :
    W11 m ρ c (Proc.devRef .tc b) = W10 m ρ c (Proc.devRef .tc b) :=
  StableHlo.after_of_writes_sub hostOps6 _ hostOps6_writes h
theorem keep12 (c : Dev nD) (b : Ref sig .tc) (h : b ∉ ([main_v0_1, main_v0_2] : List (Ref sig .tc))) :
    W12 m ρ c (Proc.devRef .tc b) = W11 m ρ c (Proc.devRef .tc b) := by
  have hout : ∀ w : Fin cfg6.W, (cfg6.win w).isOut = true → Pipeline.arrRef spec6 w ∈ ([main_v0_1, main_v0_2] : List (Ref sig .tc)) := by decide
  by_cases hw : ∃ w, Pipeline.arrRef spec6 w = b
  · obtain ⟨w, rfl⟩ := hw
    have hin : (cfg6.win w).isOut = false := by
      cases hio : (cfg6.win w).isOut with
      | false => rfl
      | true => exact absurd (hout w hio) h
    exact (W12_arr m ρ c w).trans (((dat6 (V11 m ρ) c).arrAt_in w hin _).trans (A_eq6 (V11 m ρ) c w))
  · exact W12_of_ne m ρ c b fun w e => hw ⟨w, e⟩

/-- The boundary contents in order: position 0 is the launch, position J what item J leaves. -/
def Wseq : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | _ => W12 m ρ
/-- The buffers item J may write. -/
def wr : ℕ → List (Ref sig .tc)
  | 1 => hostOps0_W
  | 2 => [main_call0_v12]
  | 3 => hostOps1_W
  | 4 => [main_call0_v42]
  | 5 => [main_call0_v43]
  | 6 => hostOps3_W
  | 7 => [main_call0_v73]
  | 8 => [main_call0_v74]
  | 9 => hostOps5_W
  | 10 => [main_v0_0]
  | 11 => hostOps6_W
  | 12 => [main_v0_1, main_v0_2]
  | _ => []

theorem step (c : Dev nD) (b : Ref sig .tc) : ∀ J, b ∉ wr (J + 1) → Wseq m ρ (J + 1) c (Proc.devRef .tc b) = Wseq m ρ J c (Proc.devRef .tc b)
  | 0, h => keep1 m ρ c b h
  | 1, h => keep2 m ρ c b h
  | 2, h => keep3 m ρ c b h
  | 3, h => keep4 m ρ c b h
  | 4, h => keep5 m ρ c b h
  | 5, h => keep6 m ρ c b h
  | 6, h => keep7 m ρ c b h
  | 7, h => keep8 m ρ c b h
  | 8, h => keep9 m ρ c b h
  | 9, h => keep10 m ρ c b h
  | 10, h => keep11 m ρ c b h
  | 11, h => keep12 m ρ c b h
  | _ + 12, _ => rfl

/-- A buffer that none of the items I+1 … I+d may write holds after item I+d what it held after item I. -/
theorem kept (c : Dev nD) (b : Ref sig .tc) (I : ℕ) : ∀ d, (∀ k, k < d → b ∉ wr (I + k + 1)) →
    Wseq m ρ (I + d) c (Proc.devRef .tc b) = Wseq m ρ I c (Proc.devRef .tc b)
  | 0, _ => rfl
  | d + 1, h => (step m ρ c b (I + d) (h d (Nat.lt_succ_self d))).trans (kept c b I d fun k hk => h k (Nat.lt_succ_of_lt hk))

end Cert.Kernel.Hand

end
-- ==== Proof.KI.R0.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a row tile of the activations times the whole weight matrix

Window 0 is the activations' row tile of the point, window 1 the weight matrix (the same block at every point),
window 2 the product's row tile. The body reads the two input tiles and stores one product tile. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input tile's staging buffer holds the tile of the point whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

/-- The product tile the body stores, from the two input tiles: one store covering the whole buffer. -/
def out0_2 (x0 : Vec F S2000x128 .f32) (x1 : Vec F S128x256 .f32) : Vec F S2000x256 .f32 :=
  View.canon [⟨r0_2, k0_pay1 (View.ld x0 r0_0) (View.ld x1 r0_1)⟩]

theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

set_option maxHeartbeats 1000000 in
/-- The body on whole staging buffers: the inputs at `x0`, `x1`, the output at anything; it returns the inputs
    as they were and the output at the product tile. -/
theorem sound_kernel0 (c : Dev nD) (E : Set ℕ) (i : grid0.Coords) (arg0 : Memref sig .tc .vmem S2000x128 .f32) (harg0 : arg0.IsWhole) (arg1 : Memref sig .tc .vmem S128x256 .f32) (harg1 : arg1.IsWhole)
    (arg2 : Memref sig .tc .vmem S2000x256 .f32) (harg2 : arg2.IsWhole)
    (x0 : Vec F S2000x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input
    buffer at its tile and the output buffer at the product tile; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input tile's staging buffer holds the tile of the point whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2000x256 := Rect.unit (s := S2000x256) ![0, 0] S2000x256.size inb_S2000x256_S2000x256_0_0
abbrev r1_1 : Rect S2000x256 := Rect.unit (s := S2000x256) ![0, 0] S2000x256.size inb_S2000x256_S2000x256_0_0
abbrev r1_2 : Rect S2000x1 := Rect.unit (s := S2000x1) ![0, 0] S2000x1.size inb_S2000x1_S2000x1_0_0
abbrev r1_3 : Rect S1x256 := Rect.unit (s := S1x256) ![0, 0] S1x256.size inb_S1x256_S1x256_0_0
abbrev r1_4 : Rect S2000x256 := Rect.unit (s := S2000x256) ![0, 0] S2000x256.size inb_S2000x256_S2000x256_0_0

/-- The tile the body stores, from the four input tiles: one store covering the whole buffer. -/
def out1_4 (x0 : Vec F S2000x256 .f32) (x1 : Vec F S2000x256 .f32) (x2 : Vec F S2000x1 .f32) (x3 : Vec F S1x256 .f32) : Vec F S2000x256 .f32 :=
  View.canon [⟨r1_4, k1_pay1 (View.ld x2 r1_2) (View.ld x0 r1_0) (View.ld x1 r1_1) (View.ld x3 r1_3)⟩]

theorem cover1_4 (p0 : Vec F S2000x256 .f32) (y : S2000x256.Idx) :
    ∃ pc ∈ ([⟨r1_4, p0⟩] : List (View.Piece (Elt F) S2000x256 .f32)), y ∈ pc.1.set :=
  View.cover_of_tiled [⟨r1_4, p0⟩] S2000x256.size (by rfl) y

set_option maxHeartbeats 1000000 in
/-- The body on whole staging buffers: the inputs at `x0 … x3`, the output at anything; it returns the inputs as
    they were and the output at the finished tile. -/
theorem sound_kernel1 (c : Dev nD) (E : Set ℕ) (i : grid1.Coords) (arg0 : Memref sig .tc .vmem S2000x256 .f32) (harg0 : arg0.IsWhole) (arg1 : Memref sig .tc .vmem S2000x256 .f32) (harg1 : arg1.IsWhole)
    (arg2 : Memref sig .tc .vmem S2000x1 .f32) (harg2 : arg2.IsWhole) (arg3 : Memref sig .tc .vmem S1x256 .f32) (harg3 : arg3.IsWhole)
    (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__finalize_kernel i arg0 harg0 arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the region on core `c`: the arrays as the region finds them; after the body each input
    buffer at its tile and the output buffer at the finished tile; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a row tile of the activations times the whole weight matrix

Window 0 is the activations' row tile of the point, window 1 the weight matrix (the same block at every point),
window 2 the product's row tile. The body reads the two input tiles and stores one product tile. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input tile's staging buffer holds the tile of the point whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-- The product tile the body stores, from the two input tiles: one store covering the whole buffer. -/
def out2_2 (x0 : Vec F S2000x256 .f32) (x1 : Vec F S256x256 .f32) : Vec F S2000x256 .f32 :=
  View.canon [⟨r2_2, k2_pay1 (View.ld x0 r2_0) (View.ld x1 r2_1)⟩]

theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

set_option maxHeartbeats 1000000 in
/-- The body on whole staging buffers: the inputs at `x0`, `x1`, the output at anything; it returns the inputs
    as they were and the output at the product tile. -/
theorem sound_kernel2 (c : Dev nD) (E : Set ℕ) (i : grid2.Coords) (arg0 : Memref sig .tc .vmem S2000x256 .f32) (harg0 : arg0.IsWhole) (arg1 : Memref sig .tc .vmem S256x256 .f32) (harg1 : arg1.IsWhole)
    (arg2 : Memref sig .tc .vmem S2000x256 .f32) (harg2 : arg2.IsWhole)
    (x0 : Vec F S2000x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`: the arrays as the region finds them; after the body each input
    buffer at its tile and the output buffer at the product tile; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input tile's staging buffer holds the tile of the point whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x256 := Rect.unit (s := S2000x256) ![0, 0] S2000x256.size inb_S2000x256_S2000x256_0_0
abbrev r3_1 : Rect S2000x256 := Rect.unit (s := S2000x256) ![0, 0] S2000x256.size inb_S2000x256_S2000x256_0_0
abbrev r3_2 : Rect S2000x1 := Rect.unit (s := S2000x1) ![0, 0] S2000x1.size inb_S2000x1_S2000x1_0_0
abbrev r3_3 : Rect S1x256 := Rect.unit (s := S1x256) ![0, 0] S1x256.size inb_S1x256_S1x256_0_0
abbrev r3_4 : Rect S2000x256 := Rect.unit (s := S2000x256) ![0, 0] S2000x256.size inb_S2000x256_S2000x256_0_0

/-- The tile the body stores, from the four input tiles: one store covering the whole buffer. -/
def out3_4 (x0 : Vec F S2000x256 .f32) (x1 : Vec F S2000x256 .f32) (x2 : Vec F S2000x1 .f32) (x3 : Vec F S1x256 .f32) : Vec F S2000x256 .f32 :=
  View.canon [⟨r3_4, k3_pay1 (View.ld x2 r3_2) (View.ld x0 r3_0) (View.ld x1 r3_1) (View.ld x3 r3_3)⟩]

theorem cover3_4 (p0 : Vec F S2000x256 .f32) (y : S2000x256.Idx) :
    ∃ pc ∈ ([⟨r3_4, p0⟩] : List (View.Piece (Elt F) S2000x256 .f32)), y ∈ pc.1.set :=
  View.cover_of_tiled [⟨r3_4, p0⟩] S2000x256.size (by rfl) y

set_option maxHeartbeats 1000000 in
/-- The body on whole staging buffers: the inputs at `x0 … x3`, the output at anything; it returns the inputs as
    they were and the output at the finished tile. -/
theorem sound_kernel3 (c : Dev nD) (E : Set ℕ) (i : grid3.Coords) (arg0 : Memref sig .tc .vmem S2000x256 .f32) (harg0 : arg0.IsWhole) (arg1 : Memref sig .tc .vmem S2000x256 .f32) (harg1 : arg1.IsWhole)
    (arg2 : Memref sig .tc .vmem S2000x1 .f32) (harg2 : arg2.IsWhole) (arg3 : Memref sig .tc .vmem S1x256 .f32) (harg3 : arg3.IsWhole)
    (arg4 : Memref sig .tc .vmem S2000x256 .f32) (harg4 : arg4.IsWhole)
    (x0 : Vec F S2000x256 .f32) (x1 : Vec F S2000x256 .f32) (x2 : Vec F S2000x1 .f32) (x3 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__finalize_kernel i arg0 harg0 arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of the region on core `c`: the arrays as the region finds them; after the body each input
    buffer at its tile and the output buffer at the finished tile; nothing carried between points. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row tile of the activations times the whole weight matrix

Window 0 is the activations' row tile of the point, window 1 the weight matrix (the same block at every point),
window 2 the product's row tile. The body reads the two input tiles and stores one product tile. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input tile's staging buffer holds the tile of the point whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x256 := Rect.unit (s := S2000x256) ![0, 0] S2000x256.size inb_S2000x256_S2000x256_0_0
abbrev r4_1 : Rect S256x128 := Rect.unit (s := S256x128) ![0, 0] S256x128.size inb_S256x128_S256x128_0_0
abbrev r4_2 : Rect S2000x128 := Rect.unit (s := S2000x128) ![0, 0] S2000x128.size inb_S2000x128_S2000x128_0_0

/-- The product tile the body stores, from the two input tiles: one store covering the whole buffer. -/
def out4_2 (x0 : Vec F S2000x256 .f32) (x1 : Vec F S256x128 .f32) : Vec F S2000x128 .f32 :=
  View.canon [⟨r4_2, k4_pay1 (View.ld x0 r4_0) (View.ld x1 r4_1)⟩]

theorem cover4_2 (p0 : Vec F S2000x128 .f32) (y : S2000x128.Idx) :
    ∃ pc ∈ ([⟨r4_2, p0⟩] : List (View.Piece (Elt F) S2000x128 .f32)), y ∈ pc.1.set :=
  View.cover_of_tiled [⟨r4_2, p0⟩] S2000x128.size (by rfl) y

set_option maxHeartbeats 1000000 in
/-- The body on whole staging buffers: the inputs at `x0`, `x1`, the output at anything; it returns the inputs
    as they were and the output at the product tile. -/
theorem sound_kernel4 (c : Dev nD) (E : Set ℕ) (i : grid4.Coords) (arg0 : Memref sig .tc .vmem S2000x256 .f32) (harg0 : arg0.IsWhole) (arg1 : Memref sig .tc .vmem S256x128 .f32) (harg1 : arg1.IsWhole)
    (arg2 : Memref sig .tc .vmem S2000x128 .f32) (harg2 : arg2.IsWhole)
    (x0 : Vec F S2000x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`: the arrays as the region finds them; after the body each input
    buffer at its tile and the output buffer at the product tile; nothing carried between points. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the pointwise finish of a layer on a row tile

Windows 0 to 3 are the row tiles of the neighbour sum, of the projected features and of the degree scale, and the
bias row (the same block at every point); window 4 is the finished row tile. The body reads the four input tiles and
stores one output tile. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input tile's staging buffer holds the tile of the point whether or not the point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S2000x128 := Rect.unit (s := S2000x128) ![0, 0] S2000x128.size inb_S2000x128_S2000x128_0_0
abbrev r5_2 : Rect S2000x1 := Rect.unit (s := S2000x1) ![0, 0] S2000x1.size inb_S2000x1_S2000x1_0_0
abbrev r5_3 : Rect S1x128 := Rect.unit (s := S1x128) ![0, 0] S1x128.size inb_S1x128_S1x128_0_0
abbrev r5_4 : Rect S2000x128 := Rect.unit (s := S2000x128) ![0, 0] S2000x128.size inb_S2000x128_S2000x128_0_0

/-- The tile the body stores, from the four input tiles: one store covering the whole buffer. -/
def out5_4 (x0 : Vec F S2000x128 .f32) (x1 : Vec F S2000x128 .f32) (x2 : Vec F S2000x1 .f32) (x3 : Vec F S1x128 .f32) : Vec F S2000x128 .f32 :=
  View.canon [⟨r5_4, k5_pay1 (View.ld x2 r5_2) (View.ld x0 r5_0) (View.ld x1 r5_1) (View.ld x3 r5_3)⟩]

theorem cover5_4 (p0 : Vec F S2000x128 .f32) (y : S2000x128.Idx) :
    ∃ pc ∈ ([⟨r5_4, p0⟩] : List (View.Piece (Elt F) S2000x128 .f32)), y ∈ pc.1.set :=
  View.cover_of_tiled [⟨r5_4, p0⟩] S2000x128.size (by rfl) y

set_option maxHeartbeats 1000000 in
/-- The body on whole staging buffers: the inputs at `x0 … x3`, the output at anything; it returns the inputs as
    they were and the output at the finished tile. -/
theorem sound_kernel5 (c : Dev nD) (E : Set ℕ) (i : grid5.Coords) (arg0 : Memref sig .tc .vmem S2000x128 .f32) (harg0 : arg0.IsWhole) (arg1 : Memref sig .tc .vmem S2000x128 .f32) (harg1 : arg1.IsWhole)
    (arg2 : Memref sig .tc .vmem S2000x1 .f32) (harg2 : arg2.IsWhole) (arg3 : Memref sig .tc .vmem S1x128 .f32) (harg3 : arg3.IsWhole)
    (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out5_4 x0 x1 x2 x3)) -∗ K ⟨⟩))
      ⊢ wp frame (wpE (defs₀ (F := F)) Variants.none c none) E (cc5__finalize_kernel i arg0 harg0 arg1 harg1 arg2 harg2 arg3 harg3 arg4 harg4) K := by
  simp only [cc5__finalize_kernel_eq_skeleton]; unfold cc5__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of the region on core `c`: the arrays as the region finds them; after the body each input
    buffer at its tile and the output buffer at the finished tile; nothing carried between points. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6Runs.lean ====
import proofs.«409148_j78477642432722_1_alg».proof.Proof.Gen.KernelIdeal.Launch
import proofs.«409148_j78477642432722_1_alg».proof.Proof.Gen.KernelIdeal.Skeleton
import proofs.«409148_j78477642432722_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: mean pooling over the graphs and the classifier — what its three control cases share

Windows 0 and 1 are the row tiles of the node embeddings and of the graph ids; windows 2 and 3 the classifier's
weights and bias (the same block at every point); windows 4 and 5 the pooled graph embeddings and the logits, stored
at the last point only. Two scratch buffers, the per-graph sums and the per-graph counts, are reset at the first point
and carried from point to point. -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input tile's staging buffer holds the tile of the point whether or not the point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The two conditions, from the grid coordinate -/

/-- The first conditional (reset the two scratch buffers) is taken at the first point only. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

/-- The second conditional (divide the sums by the counts, classify, store both outputs) is taken at the last point only. -/
abbrev cond6_1 (i : grid6.Coords) : Prop := k6_cond2 i = 1#1
theorem hcond6_1 : ∀ t : Fin cfg6.N, cond6_1 (grid6.coords t) ↔ t.val = 19 :=
  (by decide +kernel : ∀ t : Fin grid6.N, cond6_1 (grid6.coords t) ↔ t.val = 19)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Away from the last point the two outputs are idle and not written back; at the last point they are live. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4 : ∀ t : Fin cfg6.N, cond6_1 (grid6.coords t) → cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5 : ∀ t : Fin cfg6.N, cond6_1 (grid6.coords t) → cfg6.idle 5 (grid6.coords t) = false := by decide +kernel

/-! ## The memrefs the body is called with -/

/-- One staging buffer of each output, through which its contents are stated. -/
abbrev VO6_4 : View sig .tc .vmem S64x128 .f32 := (Memref.whole cc6_stg4_0 : Memref sig .tc .vmem S64x128 .f32).view
abbrev VO6_5 : View sig .tc .vmem S64x2 .f32 := (Memref.whole cc6_stg5_0 : Memref sig .tc .vmem S64x2 .f32).view
/-- Each window's current staging memref at point `t`, and its wholeness. -/
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x2 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x2 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x2 .f32 := win6_5.stage (cfg6.slots t 5)
abbrev hs6_5 (t : Fin cfg6.N) : (ms6_5 t).IsWhole := hstage6_5 ((cfg6.slots t 5).cast nbuf6_5)
/-- The two scratch operands: whole scoped buffers of the kernel's own, and the views their contents are stated through. -/
abbrev scM6_0 : Memref sig .tc .vmem S64x128 .f32 := Memref.whole cc6_scratch0
abbrev scM6_1 : Memref sig .tc .vmem S64x1 .f32 := Memref.whole cc6_scratch1
abbrev VS6_0 : View sig .tc .vmem S64x128 .f32 := scM6_0.view
abbrev VS6_1 : View sig .tc .vmem S64x1 .f32 := scM6_1.view

/-- The other scoped buffers of the core, which the body never touches. -/
abbrev rest6 (c : Dev nD) : sProp 𝕄 :=
  Pipeline.scopedRestBut (Ix := Unit) (Name := ℕ) (U := UR sig nD τ) (Lvl := ℕ) (Val := Elt F) spec6 c [cc6_scratch0, cc6_scratch1]

/-- The region's invariant with the two scratch operands as memrefs owned at some contents: the scoped rest split at
    the two buffers, a whole buffer owned being the memref owned. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

end Cert.KernelIdeal.Hand

end
-- ==== Proof.KI.R6A.lean ====
import proofs.«409148_j78477642432722_1_alg».proof.Proof.KI.R6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, the first point: the body's run -/

set_option maxHeartbeats 1000000 in
/-- AT THE FIRST POINT (the reset taken, the finish not): the pieces the body's stores leave in the two scratch buffers
    (last first), with the triple they witness: on whole memrefs — the four inputs at their contents, the two outputs at
    any contents, handed back untouched, the two scratch buffers at anything — the body runs to the continuation holding
    the inputs and outputs as they were and each scratch buffer with its pieces written. -/
noncomputable def kernelRun6_A (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) :
    Σ' (LS0 : List (View.Piece (Elt F) S64x128 .f32)), { LS1 : List (View.Piece (Elt F) S64x1 .f32) //
      ∀ (xi4 : Vec F S64x128 .f32) (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, fun xi4 xi5 E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R6B.lean ====
import proofs.«409148_j78477642432722_1_alg».proof.Proof.KI.R6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, a point that is neither the first nor the last: the body's run -/

set_option maxHeartbeats 1000000 in
/-- AT A MIDDLE POINT (neither conditional taken): the pieces the body's stores leave in the two scratch buffers, with
    the triple they witness: the four inputs at their contents, the two outputs at any contents, handed back untouched,
    the two scratch buffers at what the point before left (`xs0`, `xs1`). -/
noncomputable def kernelRun6_B (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) :
    Σ' (LS0 : List (View.Piece (Elt F) S64x128 .f32)), { LS1 : List (View.Piece (Elt F) S64x1 .f32) //
      ∀ (xi4 : Vec F S64x128 .f32) (xi5 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, fun xi4 xi5 E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R6C.lean ====
import proofs.«409148_j78477642432722_1_alg».proof.Proof.KI.R6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6, the last point: the body's run -/

set_option maxHeartbeats 1000000 in
/-- AT THE LAST POINT (the reset not taken, the finish taken): the pieces the body's stores leave in the two outputs and
    in the two scratch buffers, with the triple they witness: the four inputs at their contents, the two outputs at
    anything, the two scratch buffers at what the point before left (`xs0`, `xs1`). -/
noncomputable def kernelRun6_C (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    Σ' (L4 : List (View.Piece (Elt F) S64x128 .f32)) (L5 : List (View.Piece (Elt F) S64x2 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__pool_cls_kernel i arg1 harg1 arg2 harg2 arg3 harg3 arg4 harg4 arg5 harg5 arg6 harg6 arg7 harg7 arg8 harg8) K } := by
  refine ⟨?_, ?_, ?_, ?_, fun E K => ?run⟩
  case run =>
    simp only [cc6__pool_cls_kernel_eq_skeleton]; unfold cc6__pool_cls_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.R6.lean ====
import proofs.«409148_j78477642432722_1_alg».proof.Proof.KI.R6A
import proofs.«409148_j78477642432722_1_alg».proof.Proof.KI.R6B
import proofs.«409148_j78477642432722_1_alg».proof.Proof.KI.R6C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the proof data, the body obligation, the invariant at entry and exit

The three runs (first point, middle point, last point) each name the pieces the body's stores leave. Here the pieces
are shown to cover their buffers, so that what a buffer holds afterwards is a function of the pieces alone; the two
scratch buffers' contents are then defined point by point, and the body obligation follows by cases on the point. -/

/-! ## The pieces cover -/

theorem scover6_A_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) (y : S64x128.Idx) :
    ∃ pc ∈ (kernelRun6_A c i arg1 harg1 arg2 harg2 arg3 harg3 arg4 harg4 arg5 harg5 arg6 harg6 arg7 harg7 arg8 harg8 hc0 hc1 x0 x1 x2 x3).1, y ∈ pc.1.set :=
  View.cover_of_tiledL (kernelRun6_A c i arg1 harg1 arg2 harg2 arg3 harg3 arg4 harg4 arg5 harg5 arg6 harg6 arg7 harg7 arg8 harg8 hc0 hc1 x0 x1 x2 x3).1 S64x128.size (by sl_kernel_rfl) y
theorem scover6_A_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) (y : S64x1.Idx) :
    ∃ pc ∈ (kernelRun6_A c i arg1 harg1 arg2 harg2 arg3 harg3 arg4 harg4 arg5 harg5 arg6 harg6 arg7 harg7 arg8 harg8 hc0 hc1 x0 x1 x2 x3).2.1, y ∈ pc.1.set :=
  View.cover_of_tiledL (kernelRun6_A c i arg1 harg1 arg2 harg2 arg3 harg3 arg4 harg4 arg5 harg5 arg6 harg6 arg7 harg7 arg8 harg8 hc0 hc1 x0 x1 x2 x3).2.1 S64x1.size (by sl_kernel_rfl) y
theorem scover6_B_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 x3 xs0 xs1).1 S64x128.size (by sl_kernel_rfl) y
theorem scover6_B_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x1.Idx) :
    ∃ pc ∈ (kernelRun6_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 x3 xs0 xs1).2.1 S64x1.size (by sl_kernel_rfl) y
theorem cover6_C_4 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).1 S64x128.size (by sl_kernel_rfl) y
theorem cover6_C_5 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x2.Idx) :
    ∃ pc ∈ (kernelRun6_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.1 S64x2.size (by sl_kernel_rfl) y
theorem scover6_C_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x128.Idx) :
    ∃ pc ∈ (kernelRun6_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.2.1 S64x128.size (by sl_kernel_rfl) y
theorem scover6_C_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) (y : S64x1.Idx) :
    ∃ pc ∈ (kernelRun6_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 x3 xs0 xs1).2.2.2.1 S64x1.size (by sl_kernel_rfl) y

/-! ## The runs at a point of the grid -/

/-- Pieces read back over arbitrary prior contents: what a buffer they cover holds. -/
abbrev rdS0 (L : List (View.Piece (Elt F) S64x128 .f32)) : Vec F S64x128 .f32 := VS6_0.read (Elt F) (VS6_0.writes (Elt F) VS6_0.junk L)
abbrev rdS1 (L : List (View.Piece (Elt F) S64x1 .f32)) : Vec F S64x1 .f32 := VS6_1.read (Elt F) (VS6_1.writes (Elt F) VS6_1.junk L)
abbrev rdO4 (L : List (View.Piece (Elt F) S64x128 .f32)) : Vec F S64x128 .f32 := VO6_4.read (Elt F) (VO6_4.writes (Elt F) VO6_4.junk L)
abbrev rdO5 (L : List (View.Piece (Elt F) S64x2 .f32)) : Vec F S64x2 .f32 := VO6_5.read (Elt F) (VO6_5.writes (Elt F) VO6_5.junk L)

/-- The first point's run at the point's memrefs and input tiles. -/
abbrev runA6 (c : Dev nD) (t : Fin cfg6.N) (h0 : t.val = 0) :=
  kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    ((hcond6_0 t).mpr h0) (fun h => by have := (hcond6_1 t).mp h; omega) (iblk6 V c 0 t) (iblk6 V c 1 t) (iblk6 V c 2 t) (iblk6 V c 3 t)
/-- A middle point's run, over what the point before left in the scratch buffers. -/
abbrev runB6 (c : Dev nD) (t : Fin cfg6.N) (h0 : t.val ≠ 0) (h1 : t.val ≠ 19) (xs0 : Vec F S64x128 .f32) (xs1 : Vec F S64x1 .f32) :=
  kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    (fun h => h0 ((hcond6_0 t).mp h)) (fun h => h1 ((hcond6_1 t).mp h)) (iblk6 V c 0 t) (iblk6 V c 1 t) (iblk6 V c 2 t) (iblk6 V c 3 t) xs0 xs1
/-- The last point's run, over what the point before left in the scratch buffers. -/
abbrev runC6 (c : Dev nD) (t : Fin cfg6.N) (h1 : t.val = 19) (xs0 : Vec F S64x128 .f32) (xs1 : Vec F S64x1 .f32) :=
  kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _)
    (fun h => by have := (hcond6_0 t).mp h; omega) ((hcond6_1 t).mpr h1) (iblk6 V c 0 t) (iblk6 V c 1 t) (iblk6 V c 2 t) (iblk6 V c 3 t) xs0 xs1

/-! ## What the scratch buffers hold after each point -/

/-- THE ACCUMULATION: the two scratch buffers after the body at point `n`: at the first point the first run's pieces,
    afterwards the middle (or last) run's pieces over what the point before left. -/
def scr6 (c : Dev nD) : (n : ℕ) → n < cfg6.N → Vec F S64x128 .f32 × Vec F S64x1 .f32
  | 0, hn => (rdS0 (runA6 V c ⟨0, hn⟩ rfl).1, rdS1 (runA6 V c ⟨0, hn⟩ rfl).2.1)
  | n + 1, hn =>
    if h1 : n + 1 = 19 then
      (rdS0 (runC6 V c ⟨n + 1, hn⟩ h1 (scr6 c n (Nat.lt_of_succ_lt hn)).1 (scr6 c n (Nat.lt_of_succ_lt hn)).2).2.2.1,
       rdS1 (runC6 V c ⟨n + 1, hn⟩ h1 (scr6 c n (Nat.lt_of_succ_lt hn)).1 (scr6 c n (Nat.lt_of_succ_lt hn)).2).2.2.2.1)
    else
      (rdS0 (runB6 V c ⟨n + 1, hn⟩ (Nat.succ_ne_zero n) h1 (scr6 c n (Nat.lt_of_succ_lt hn)).1 (scr6 c n (Nat.lt_of_succ_lt hn)).2).1,
       rdS1 (runB6 V c ⟨n + 1, hn⟩ (Nat.succ_ne_zero n) h1 (scr6 c n (Nat.lt_of_succ_lt hn)).1 (scr6 c n (Nat.lt_of_succ_lt hn)).2).2.1)

/-- What the point before `t` left in the scratch buffers (read only where `t` is not the first point). -/
abbrev prev6 (c : Dev nD) (t : Fin cfg6.N) : Vec F S64x128 .f32 × Vec F S64x1 .f32 :=
  scr6 V c (t.val - 1) (Nat.lt_of_le_of_lt (Nat.sub_le _ _) t.isLt)

theorem scr6_A (c : Dev nD) (t : Fin cfg6.N) (h0 : t.val = 0) :
    scr6 V c t.val t.isLt = (rdS0 (runA6 V c t h0).1, rdS1 (runA6 V c t h0).2.1) := by
  obtain ⟨n, hn⟩ := t
  cases n with
  | zero => exact rfl
  | succ n => exact absurd h0 (Nat.succ_ne_zero n)

theorem scr6_B (c : Dev nD) (t : Fin cfg6.N) (h0 : t.val ≠ 0) (h1 : t.val ≠ 19) :
    scr6 V c t.val t.isLt = (rdS0 (runB6 V c t h0 h1 (prev6 V c t).1 (prev6 V c t).2).1, rdS1 (runB6 V c t h0 h1 (prev6 V c t).1 (prev6 V c t).2).2.1) := by
  obtain ⟨n, hn⟩ := t
  cases n with
  | zero => exact absurd rfl h0
  | succ n => exact (dif_neg h1).trans rfl

theorem scr6_C (c : Dev nD) (t : Fin cfg6.N) (h1 : t.val = 19) :
    scr6 V c t.val t.isLt = (rdS0 (runC6 V c t h1 (prev6 V c t).1 (prev6 V c t).2).2.2.1, rdS1 (runC6 V c t h1 (prev6 V c t).1 (prev6 V c t).2).2.2.2.1) := by
  obtain ⟨n, hn⟩ := t
  cases n with
  | zero => exact absurd h1 (by dsimp only; omega)
  | succ n => exact (dif_pos h1).trans rfl

theorem scr6_A1 (c : Dev nD) (t : Fin cfg6.N) (h0 : t.val = 0) : (scr6 V c t.val t.isLt).1 = rdS0 (runA6 V c t h0).1 := by
  rw [scr6_A V c t h0]
theorem scr6_A2 (c : Dev nD) (t : Fin cfg6.N) (h0 : t.val = 0) : (scr6 V c t.val t.isLt).2 = rdS1 (runA6 V c t h0).2.1 := by
  rw [scr6_A V c t h0]
theorem scr6_B1 (c : Dev nD) (t : Fin cfg6.N) (h0 : t.val ≠ 0) (h1 : t.val ≠ 19) :
    (scr6 V c t.val t.isLt).1 = rdS0 (runB6 V c t h0 h1 (prev6 V c t).1 (prev6 V c t).2).1 := by
  rw [scr6_B V c t h0 h1]
theorem scr6_B2 (c : Dev nD) (t : Fin cfg6.N) (h0 : t.val ≠ 0) (h1 : t.val ≠ 19) :
    (scr6 V c t.val t.isLt).2 = rdS1 (runB6 V c t h0 h1 (prev6 V c t).1 (prev6 V c t).2).2.1 := by
  rw [scr6_B V c t h0 h1]
theorem scr6_C1 (c : Dev nD) (t : Fin cfg6.N) (h1 : t.val = 19) :
    (scr6 V c t.val t.isLt).1 = rdS0 (runC6 V c t h1 (prev6 V c t).1 (prev6 V c t).2).2.2.1 := by
  rw [scr6_C V c t h1]
theorem scr6_C2 (c : Dev nD) (t : Fin cfg6.N) (h1 : t.val = 19) :
    (scr6 V c t.val t.isLt).2 = rdS1 (runC6 V c t h1 (prev6 V c t).1 (prev6 V c t).2).2.2.2.1 := by
  rw [scr6_C V c t h1]

/-- The two outputs' staging buffers after the body at point `t`: at the last point the last run's pieces; elsewhere
    the body stores nothing there and the value is never consulted (the windows are idle and not written back). -/
def out6 (c : Dev nD) (t : Fin cfg6.N) : Vec F S64x128 .f32 × Vec F S64x2 .f32 :=
  if h1 : t.val = 19 then
    (rdO4 (runC6 V c t h1 (prev6 V c t).1 (prev6 V c t).2).1, rdO5 (runC6 V c t h1 (prev6 V c t).1 (prev6 V c t).2).2.1)
  else (rdO4 [], rdO5 [])

theorem out6_C (c : Dev nD) (t : Fin cfg6.N) (h1 : t.val = 19) :
    out6 V c t = (rdO4 (runC6 V c t h1 (prev6 V c t).1 (prev6 V c t).2).1, rdO5 (runC6 V c t h1 (prev6 V c t).1 (prev6 V c t).2).2.1) :=
  dif_pos h1

theorem out6_C1 (c : Dev nD) (t : Fin cfg6.N) (h1 : t.val = 19) :
    (out6 V c t).1 = rdO4 (runC6 V c t h1 (prev6 V c t).1 (prev6 V c t).2).1 := by
  rw [out6_C V c t h1]
theorem out6_C2 (c : Dev nD) (t : Fin cfg6.N) (h1 : t.val = 19) :
    (out6 V c t).2 = rdO5 (runC6 V c t h1 (prev6 V c t).1 (prev6 V c t).2).2.1 := by
  rw [out6_C V c t h1]

/-! ## The invariant -/

/-- The region's invariant before position `n`: before the first point what the launch hands over (every scratch buffer at anything);
    afterwards the two scratch buffers at what the point before left, the core's other scoped buffers and its generator
    register as they come. -/
def PhiS6 (c : Dev nD) : (n : ℕ) → n ≤ cfg6.N → sProp 𝕄
  | 0, _ => Pipeline.ΦA spec6 c
  | n + 1, hn => iprop(iprop(iprop(owns (c : Thread nD τ) scM6_0 fullShare (scr6 V c n hn).1 ∗ owns (c : Thread nD τ) scM6_1 fullShare (scr6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (scr6 V c n hn).1 ∗ owns (c : Thread nD τ) scM6_1 fullShare (scr6 V c n hn).2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (scr6 V c (n - 1) (by omega)).1 ∗ owns (c : Thread nD τ) scM6_1 fullShare (scr6 V c (n - 1) (by omega)).2) ∗ rest6 c) ∗ (∃ r, prngReg c r)) := by
  cases n with
  | zero => exact absurd rfl hz
  | succ n => rfl

/-! ## The proof data -/

/-- The proof data of the region on core `c`: the arrays as the region finds them; after the body each input buffer at
    its tile and the two outputs at `out6`; the invariant `PhiS6`; full shares, nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (out6 V c t).1
    | ⟨5, _⟩ => (out6 V c t).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (out6 V c t).1 := by dsimp only [dat6]
theorem after6_5 (c : Dev nD) (t : Fin cfg6.N) : (dat6 V c).after 5 t = (out6 V c t).2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point, by cases on the point: the inputs' memrefs hold their tiles; at the first point the invariant
    hands the scratch buffers at anything, afterwards at what the point before left; the case's run applies; the scratch
    buffers come back with the run's pieces written, which cover them; away from the last point the outputs are handed
    back as found, at the last point with the run's covering pieces written. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 20 := lt_of_lt_of_eq t.isLt (show cfg6.N = 20 from N_6)
  by_cases h0 : t.val = 0
  · have hn1 : ¬cond6_1 (grid6.coords t) := fun h => by have := (hcond6_1 t).mp h; omega
    rw [Dat.leavesExact_idle (dat6 V c) 4 t (idleAt6_4 t hn1) (noFlush6_4 t hn1), Dat.leavesExact_idle (dat6 V c) 5 t (idleAt6_5 t hn1) (noFlush6_5 t hn1)]
    rw [scr6_A1 V c t h0, scr6_A2 V c t h0]
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply ((runA6 V c t h0).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 (F := F) _ _ _ _ _ _ _ _ _ _ _ _ _ _ _ _ _ _ _ _ _ _ _ _)
          · unfold owns; iexists _; isplitr
            swap; · iexact HS1
            ipureintro; exact View.read_writes_of_cover _ _ _ _ _ (scover6_A_1 (F := F) _ _ _ _ _ _ _ _ _ _ _ _ _ _ _ _ _ _ _ _ _ _ _ _)
        · iexact Hr
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 19
    · have hc1 : cond6_1 (grid6.coords t) := (hcond6_1 t).mpr h1
      rw [show (dat6 V c).leavesExact 4 t = owns (c : Thread nD τ) (ms6_4 t) fullShare ((dat6 V c).after 4 t) from by
        unfold Dat.leavesExact; rw [liveAt6_4 t hc1], after6_4]
      rw [show (dat6 V c).leavesExact 5 t = owns (c : Thread nD τ) (ms6_5 t) fullShare ((dat6 V c).after 5 t) from by
        unfold Dat.leavesExact; rw [liveAt6_5 t hc1], after6_5]
      rw [scr6_C1 V c t h1, scr6_C2 V c t h1, out6_C1 V c t h1, out6_C2 V c t h1]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((runC6 V c t h1 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 (F := F) _ _ _ _ _ _ _ _ _ _ _ _ _ _ _ _ _ _ _ _ _ _ _ _ _ _)
            · unfold owns; iexists _; isplitr
              swap; · iexact HS1
              ipureintro; exact View.read_writes_of_cover _ _ _ _ _ (scover6_C_1 (F := F) _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover6_C_4 (F := F) _ _ _ _ _ _ _ _ _ _ _ _ _ _ _ _ _ _ _ _ _ _ _ _ _ _)
      unfold owns; iexists _; isplitr
      swap; · iexact H5
      ipureintro; exact View.read_writes_of_cover _ _ _ _ _ (cover6_C_5 (F := F) _ _ _ _ _ _ _ _ _ _ _ _ _ _ _ _ _ _ _ _ _ _ _ _ _ _)
    · have hn1 : ¬cond6_1 (grid6.coords t) := fun h => h1 ((hcond6_1 t).mp h)
      rw [Dat.leavesExact_idle (dat6 V c) 4 t (idleAt6_4 t hn1) (noFlush6_4 t hn1), Dat.leavesExact_idle (dat6 V c) 5 t (idleAt6_5 t hn1) (noFlush6_5 t hn1)]
      rw [scr6_B1 V c t h0 h1, scr6_B2 V c t h0 h1]
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((runB6 V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 (F := F) _ _ _ _ _ _ _ _ _ _ _ _ _ _ _ _ _ _ _ _ _ _ _ _ _ _)
            · unfold owns; iexists _; isplitr
              swap; · iexact HS1
              ipureintro; exact View.read_writes_of_cover _ _ _ _ _ (scover6_B_1 (F := F) _ _ _ _ _ _ _ _ _ _ _ _ _ _ _ _ _ _ _ _ _ _ _ _ _ _)
          · iexact Hr
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives back what the launch handed over: the scratch buffers' named contents are forgotten. -/
theorem Phi_out6 (c : Dev nD) (t : Fin (cfg6.N + 1)) (ht : t.val ≠ 0) : (dat6 V c).Φ t ⊢ (Pipeline.ΦA spec6 c : sProp 𝕄) := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  iexact Hg

theorem hout6 (c : Dev nD) : (dat6 V c).Φ (Fin.last cfg6.N) ⊢ (Pipeline.ΦA spec6 c : sProp 𝕄) :=
  Phi_out6 V c _ (by rw [Fin.val_last]; have : cfg6.N = 20 := N_6; omega)

end Cert.KernelIdeal.Hand

end
-- ==== Proof.KI.Run.lean ====
import proofs.«409148_j78477642432722_1_alg».proof.Proof.KI.R0
import proofs.«409148_j78477642432722_1_alg».proof.Proof.KI.R1
import proofs.«409148_j78477642432722_1_alg».proof.Proof.KI.R2
import proofs.«409148_j78477642432722_1_alg».proof.Proof.KI.R3
import proofs.«409148_j78477642432722_1_alg».proof.Proof.KI.R4
import proofs.«409148_j78477642432722_1_alg».proof.Proof.KI.R5
import proofs.«409148_j78477642432722_1_alg».proof.Proof.KI.R6
import proofs.«409148_j78477642432722_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: the program's seven regions among its host stretches

The buffer contents at every boundary between two items of the program are a fold from the launch memory: a host
stretch applies its operations, a region replaces its arrays by what its write-backs leave. Each region's proof data
is taken at the contents its entry finds. The final state holds every unscoped buffer at the last fold. -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After region 2: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its arrays at what the write-backs leave, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After region 4: its arrays at what the write-backs leave, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- After the host stretch `hostOps5`. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- After region 5: its arrays at what the write-backs leave, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- After the host stretch `hostOps6`. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- After region 6: its arrays at what the write-backs leave, every other buffer as entered. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-! ## The proof data family and the thread state -/

abbrev adm : (p : Fin 7) → (pcfgs (F := F) p).Adm := fun p => (cfgs p).toPCfg_adm
/-- Every region's proof data, each at its entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as items of the run -/

set_option backward.isDefEq.respectTransparency.types false in
/-- Region 0 over the thread state: entered with every unscoped buffer at `W1`, left with them at `W2`; its arrays
    are split out of the unscoped buffers and put back at the exit contents; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`; its arrays
    are split out of the unscoped buffers and put back at the exit contents; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays
    are split out of the unscoped buffers and put back at the exit contents; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its arrays
    are split out of the unscoped buffers and put back at the exit contents; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`; its arrays
    are split out of the unscoped buffers and put back at the exit contents; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W9`, left with them at `W10`; its arrays
    are split out of the unscoped buffers and put back at the exit contents; nothing owed; no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered with every unscoped buffer at `W11`, left with them at `W12`; its arrays
    are split out of the unscoped buffers and put back at the exit contents; nothing owed; no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V11 m ρ) c)
    unfold Pipeline.ΦA
    iintro ⟨Hp, -, Hr⟩
    isplitl [Hr]; · iexact Hr
    iexact Hp
  hout c := by
    rw [Pipeline.ownSems0_none]
    refine BIBase.Entails.trans (hout6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V11 m ρ c) (V12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ) ]

set_option backward.isDefEq.respectTransparency.types false in
/-- Every weakly fair execution of the program terminates without a fault, and the final state holds every unscoped
    buffer at the last fold `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Kept.lean ====
import proofs.«409148_j78477642432722_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! # What an item of the run leaves alone

A host stretch changes only the buffers its operations write; a region changes only its output arrays (an input
array is written back never). So a buffer read later holds what it held after the last item that may write it. -/

theorem keep1 (c : Dev nD) (b : Ref sig .tc) (h : b ∉ hostOps0_W) :
    W1 m ρ c (Proc.devRef .tc b) = W0 m ρ c (Proc.devRef .tc b) :=
  StableHlo.after_of_writes_sub hostOps0 _ hostOps0_writes h
theorem keep2 (c : Dev nD) (b : Ref sig .tc) (h : b ∉ ([main_call0_v12] : List (Ref sig .tc))) :
    W2 m ρ c (Proc.devRef .tc b) = W1 m ρ c (Proc.devRef .tc b) := by
  have hout : ∀ w : Fin cfg0.W, (cfg0.win w).isOut = true → Pipeline.arrRef spec0 w ∈ ([main_call0_v12] : List (Ref sig .tc)) := by decide
  by_cases hw : ∃ w, Pipeline.arrRef spec0 w = b
  · obtain ⟨w, rfl⟩ := hw
    have hin : (cfg0.win w).isOut = false := by
      cases hio : (cfg0.win w).isOut with
      | false => rfl
      | true => exact absurd (hout w hio) h
    exact (W2_arr m ρ c w).trans (((dat0 (V1 m ρ) c).arrAt_in w hin _).trans (A_eq0 (V1 m ρ) c w))
  · exact W2_of_ne m ρ c b fun w e => hw ⟨w, e⟩
theorem keep3 (c : Dev nD) (b : Ref sig .tc) (h : b ∉ hostOps1_W) :
    W3 m ρ c (Proc.devRef .tc b) = W2 m ρ c (Proc.devRef .tc b) :=
  StableHlo.after_of_writes_sub hostOps1 _ hostOps1_writes h
theorem keep4 (c : Dev nD) (b : Ref sig .tc) (h : b ∉ ([main_call0_v42] : List (Ref sig .tc))) :
    W4 m ρ c (Proc.devRef .tc b) = W3 m ρ c (Proc.devRef .tc b) := by
  have hout : ∀ w : Fin cfg1.W, (cfg1.win w).isOut = true → Pipeline.arrRef spec1 w ∈ ([main_call0_v42] : List (Ref sig .tc)) := by decide
  by_cases hw : ∃ w, Pipeline.arrRef spec1 w = b
  · obtain ⟨w, rfl⟩ := hw
    have hin : (cfg1.win w).isOut = false := by
      cases hio : (cfg1.win w).isOut with
      | false => rfl
      | true => exact absurd (hout w hio) h
    exact (W4_arr m ρ c w).trans (((dat1 (V3 m ρ) c).arrAt_in w hin _).trans (A_eq1 (V3 m ρ) c w))
  · exact W4_of_ne m ρ c b fun w e => hw ⟨w, e⟩
theorem keep5 (c : Dev nD) (b : Ref sig .tc) (h : b ∉ ([main_call0_v43] : List (Ref sig .tc))) :
    W5 m ρ c (Proc.devRef .tc b) = W4 m ρ c (Proc.devRef .tc b) := by
  have hout : ∀ w : Fin cfg2.W, (cfg2.win w).isOut = true → Pipeline.arrRef spec2 w ∈ ([main_call0_v43] : List (Ref sig .tc)) := by decide
  by_cases hw : ∃ w, Pipeline.arrRef spec2 w = b
  · obtain ⟨w, rfl⟩ := hw
    have hin : (cfg2.win w).isOut = false := by
      cases hio : (cfg2.win w).isOut with
      | false => rfl
      | true => exact absurd (hout w hio) h
    exact (W5_arr m ρ c w).trans (((dat2 (V4 m ρ) c).arrAt_in w hin _).trans (A_eq2 (V4 m ρ) c w))
  · exact W5_of_ne m ρ c b fun w e => hw ⟨w, e⟩
theorem keep6 (c : Dev nD) (b : Ref sig .tc) (h : b ∉ hostOps3_W) :
    W6 m ρ c (Proc.devRef .tc b) = W5 m ρ c (Proc.devRef .tc b) :=
  StableHlo.after_of_writes_sub hostOps3 _ hostOps3_writes h
theorem keep7 (c : Dev nD) (b : Ref sig .tc) (h : b ∉ ([main_call0_v73] : List (Ref sig .tc))) :
    W7 m ρ c (Proc.devRef .tc b) = W6 m ρ c (Proc.devRef .tc b) := by
  have hout : ∀ w : Fin cfg3.W, (cfg3.win w).isOut = true → Pipeline.arrRef spec3 w ∈ ([main_call0_v73] : List (Ref sig .tc)) := by decide
  by_cases hw : ∃ w, Pipeline.arrRef spec3 w = b
  · obtain ⟨w, rfl⟩ := hw
    have hin : (cfg3.win w).isOut = false := by
      cases hio : (cfg3.win w).isOut with
      | false => rfl
      | true => exact absurd (hout w hio) h
    exact (W7_arr m ρ c w).trans (((dat3 (V6 m ρ) c).arrAt_in w hin _).trans (A_eq3 (V6 m ρ) c w))
  · exact W7_of_ne m ρ c b fun w e => hw ⟨w, e⟩
theorem keep8 (c : Dev nD) (b : Ref sig .tc) (h : b ∉ ([main_call0_v74] : List (Ref sig .tc))) :
    W8 m ρ c (Proc.devRef .tc b) = W7 m ρ c (Proc.devRef .tc b) := by
  have hout : ∀ w : Fin cfg4.W, (cfg4.win w).isOut = true → Pipeline.arrRef spec4 w ∈ ([main_call0_v74] : List (Ref sig .tc)) := by decide
  by_cases hw : ∃ w, Pipeline.arrRef spec4 w = b
  · obtain ⟨w, rfl⟩ := hw
    have hin : (cfg4.win w).isOut = false := by
      cases hio : (cfg4.win w).isOut with
      | false => rfl
      | true => exact absurd (hout w hio) h
    exact (W8_arr m ρ c w).trans (((dat4 (V7 m ρ) c).arrAt_in w hin _).trans (A_eq4 (V7 m ρ) c w))
  · exact W8_of_ne m ρ c b fun w e => hw ⟨w, e⟩
theorem keep9 (c : Dev nD) (b : Ref sig .tc) (h : b ∉ hostOps5_W) :
    W9 m ρ c (Proc.devRef .tc b) = W8 m ρ c (Proc.devRef .tc b) :=
  StableHlo.after_of_writes_sub hostOps5 _ hostOps5_writes h
theorem keep10 (c : Dev nD) (b : Ref sig .tc) (h : b ∉ ([main_v0_0] : List (Ref sig .tc))) :
    W10 m ρ c (Proc.devRef .tc b) = W9 m ρ c (Proc.devRef .tc b) := by
  have hout : ∀ w : Fin cfg5.W, (cfg5.win w).isOut = true → Pipeline.arrRef spec5 w ∈ ([main_v0_0] : List (Ref sig .tc)) := by decide
  by_cases hw : ∃ w, Pipeline.arrRef spec5 w = b
  · obtain ⟨w, rfl⟩ := hw
    have hin : (cfg5.win w).isOut = false := by
      cases hio : (cfg5.win w).isOut with
      | false => rfl
      | true => exact absurd (hout w hio) h
    exact (W10_arr m ρ c w).trans (((dat5 (V9 m ρ) c).arrAt_in w hin _).trans (A_eq5 (V9 m ρ) c w))
  · exact W10_of_ne m ρ c b fun w e => hw ⟨w, e⟩
theorem keep11 (c : Dev nD) (b : Ref sig .tc) (h : b ∉ hostOps6_W) :
    W11 m ρ c (Proc.devRef .tc b) = W10 m ρ c (Proc.devRef .tc b) :=
  StableHlo.after_of_writes_sub hostOps6 _ hostOps6_writes h
theorem keep12 (c : Dev nD) (b : Ref sig .tc) (h : b ∉ ([main_v0_1, main_v0_2] : List (Ref sig .tc))) :
    W12 m ρ c (Proc.devRef .tc b) = W11 m ρ c (Proc.devRef .tc b) := by
  have hout : ∀ w : Fin cfg6.W, (cfg6.win w).isOut = true → Pipeline.arrRef spec6 w ∈ ([main_v0_1, main_v0_2] : List (Ref sig .tc)) := by decide
  by_cases hw : ∃ w, Pipeline.arrRef spec6 w = b
  · obtain ⟨w, rfl⟩ := hw
    have hin : (cfg6.win w).isOut = false := by
      cases hio : (cfg6.win w).isOut with
      | false => rfl
      | true => exact absurd (hout w hio) h
    exact (W12_arr m ρ c w).trans (((dat6 (V11 m ρ) c).arrAt_in w hin _).trans (A_eq6 (V11 m ρ) c w))
  · exact W12_of_ne m ρ c b fun w e => hw ⟨w, e⟩

/-- The boundary contents in order: position 0 is the launch, position J what item J leaves. -/
def Wseq : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | _ => W12 m ρ
/-- The buffers item J may write. -/
def wr : ℕ → List (Ref sig .tc)
  | 1 => hostOps0_W
  | 2 => [main_call0_v12]
  | 3 => hostOps1_W
  | 4 => [main_call0_v42]
  | 5 => [main_call0_v43]
  | 6 => hostOps3_W
  | 7 => [main_call0_v73]
  | 8 => [main_call0_v74]
  | 9 => hostOps5_W
  | 10 => [main_v0_0]
  | 11 => hostOps6_W
  | 12 => [main_v0_1, main_v0_2]
  | _ => []

theorem step (c : Dev nD) (b : Ref sig .tc) : ∀ J, b ∉ wr (J + 1) → Wseq m ρ (J + 1) c (Proc.devRef .tc b) = Wseq m ρ J c (Proc.devRef .tc b)
  | 0, h => keep1 m ρ c b h
  | 1, h => keep2 m ρ c b h
  | 2, h => keep3 m ρ c b h
  | 3, h => keep4 m ρ c b h
  | 4, h => keep5 m ρ c b h
  | 5, h => keep6 m ρ c b h
  | 6, h => keep7 m ρ c b h
  | 7, h => keep8 m ρ c b h
  | 8, h => keep9 m ρ c b h
  | 9, h => keep10 m ρ c b h
  | 10, h => keep11 m ρ c b h
  | 11, h => keep12 m ρ c b h
  | _ + 12, _ => rfl

/-- A buffer that none of the items I+1 … I+d may write holds after item I+d what it held after item I. -/
theorem kept (c : Dev nD) (b : Ref sig .tc) (I : ℕ) : ∀ d, (∀ k, k < d → b ∉ wr (I + k + 1)) →
    Wseq m ρ (I + d) c (Proc.devRef .tc b) = Wseq m ρ I c (Proc.devRef .tc b)
  | 0, _ => rfl
  | d + 1, h => (step m ρ c b (I + d) (h d (Nat.lt_succ_self d))).trans (kept c b I d fun k hk => h k (Nat.lt_succ_of_lt hk))

end Cert.KernelIdeal.Hand

end
-- ==== Proof.Val.MM0.lean ====
import proofs.«409148_j78477642432722_1_alg».proof.Proof.KI.R0
import proofs.«409148_j78477642432722_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 0 at the ideal values: the row-tiled product is the whole product

Each point multiplies one tile of 2000 rows of the left matrix by the whole right matrix and writes the tile of the
product back. Entry (r, q) of the product is the sum over k of left (r, k) times right (k, q), and row r lies in tile
r / 2000: so after the last write-back the output array is the whole matrix product. -/

variable (V : (c : Dev nD) → (b : Ref sig .tc) → Buf (Elt Ideal) ((c : Thread nD τ).loc b))

namespace MM0

theorem hz : (![0, 0] : Fin 2 → Nat) = fun _ => 0 := funext fun a => by fin_cases a <;> rfl

/-! ## The tile's product at an index -/

/-- The left tile's entry a term of the tile product reads: the output's row, column `k`. -/
abbrev lidxT (j : S2000x256.Idx) (k : Fin 128) : S2000x128.Idx := fun a => match a with
  | ⟨0, _⟩ => ⟨(j 0).val, (j 0).isLt⟩
  | ⟨1, _⟩ => ⟨k.val, k.isLt⟩
/-- The right matrix's entry it reads: row `k`, the output's column. -/
abbrev ridxT (j : S2000x256.Idx) (k : Fin 128) : S128x256.Idx := fun a => match a with
  | ⟨0, _⟩ => ⟨k.val, k.isLt⟩
  | ⟨1, _⟩ => ⟨(j 1).val, (j 1).isLt⟩

theorem lhsT_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhsT_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhsT_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhsT_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The payload at an index: rounding to the narrow format is the identity at the ideal values and the accumulator
    is zero, so the entry is the plain sum of products over the contracted axis. -/
theorem pay_apply (x0 : Vec Ideal S2000x128 .f32) (x1 : Vec Ideal S128x256 .f32) (j : S2000x256.Idx) :
    k0_pay1 x0 x1 j = ∑ k : Fin 128, x0 (lidxT j k) * x1 (ridxT j k) := by
  unfold k0_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lidxT j k := funext fun a => Fin.ext (by
    match a with
    | ⟨0, _⟩ => exact lhsT_0 _ _
    | ⟨1, _⟩ => exact (lhsT_1 _ _).trans hk)
  have er : dot_S2000x128_S128x256_S2000x256_1_0_0_1_n_n.rhsIdx j ((ValueIdx.contrEquiv1 dot_S2000x128_S128x256_S2000x256_1_0_0_1_n_n 128 rfl rfl).symm k) = ridxT j k := funext fun a => Fin.ext (by
    match a with
    | ⟨0, _⟩ => exact (rhsT_0 _ _).trans hk
    | ⟨1, _⟩ => exact rhsT_1 _ _)
  rw [el, er]
  simp only [ValueIdx.truncf_apply, shapeCast_self]

/-! ## The whole product at an index -/

/-- The host's product of any two matrices of these shapes, at an index: the same sum. -/
theorem whole_apply (a : FVec Ideal S40000x128 .f32) (b : FVec Ideal S128x256 .f32) (i : S40000x256.Idx) :
    Host.dotGeneral (F := Ideal) (φ₁ := .f32) (φ₂ := .f32) Cert.ReferenceIdeal.dot_S40000x128_S128x256_S40000x256_1_0_0_1_n_n none a b i
      = ∑ k : Fin 128, a (Cert.ReferenceIdeal.Read.lidx_main_v11 i k) * b (Cert.ReferenceIdeal.Read.ridx_main_v11 i k) := by
  simp only [Host.dotGeneral]
  rw [Ideal.dotGeneral_apply, ← Equiv.sum_comp (ValueIdx.contrEquiv1 Cert.ReferenceIdeal.dot_S40000x128_S128x256_S40000x256_1_0_0_1_n_n 128 rfl rfl).symm]
  refine Finset.sum_congr rfl fun k _ => ?_
  have hk := ValueIdx.contrEquiv1_symm_val Cert.ReferenceIdeal.dot_S40000x128_S128x256_S40000x256_1_0_0_1_n_n 128 rfl rfl k
  have el : Cert.ReferenceIdeal.dot_S40000x128_S128x256_S40000x256_1_0_0_1_n_n.lhsIdx i ((ValueIdx.contrEquiv1 Cert.ReferenceIdeal.dot_S40000x128_S128x256_S40000x256_1_0_0_1_n_n 128 rfl rfl).symm k) = Cert.ReferenceIdeal.Read.lidx_main_v11 i k := funext fun a => Fin.ext (by
    match a with
    | ⟨0, _⟩ => exact Cert.ReferenceIdeal.Read.lhs_main_v11_0 _ _
    | ⟨1, _⟩ => exact (Cert.ReferenceIdeal.Read.lhs_main_v11_1 _ _).trans hk)
  have er : Cert.ReferenceIdeal.dot_S40000x128_S128x256_S40000x256_1_0_0_1_n_n.rhsIdx i ((ValueIdx.contrEquiv1 Cert.ReferenceIdeal.dot_S40000x128_S128x256_S40000x256_1_0_0_1_n_n 128 rfl rfl).symm k) = Cert.ReferenceIdeal.Read.ridx_main_v11 i k := funext fun a => Fin.ext (by
    match a with
    | ⟨0, _⟩ => exact (Cert.ReferenceIdeal.Read.rhs_main_v11_0 _ _).trans hk
    | ⟨1, _⟩ => exact Cert.ReferenceIdeal.Read.rhs_main_v11_1 _ _)
  rw [el, er]

/-! ## Which tile each window holds at a point -/

/-- The index maps, decided over the grid: the left and output tiles are tile `t` of the rows, whole in the columns;
    the right matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left tile at point `t` is rows `2000 t …` of the left matrix. -/
theorem left_tile (c : Dev nD) (t : Fin cfg0.N) (y : S2000x128.Idx) (i : S40000x128.Idx)
    (h0 : (i 0).val = t.val * 2000 + (y 0).val) (h1 : (i 1).val = (y 1).val) :
    iblk0 V c 0 t y = V c (Pipeline.arrRef spec0 0) i := by
  obtain ⟨e0, e1, -, -, -, -⟩ := idx_facts t
  unfold iblk0
  show V c (Pipeline.arrRef spec0 0) (((cfg0.win 0).blk t).view.emb y) = V c (Pipeline.arrRef spec0 0) i
  congr 1
  funext a; apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The right block at every point is the whole right matrix. -/
theorem right_block (c : Dev nD) (t : Fin cfg0.N) (y : S128x256.Idx) (i : S128x256.Idx)
    (h0 : (i 0).val = (y 0).val) (h1 : (i 1).val = (y 1).val) :
    iblk0 V c 1 t y = V c (Pipeline.arrRef spec0 1) i := by
  obtain ⟨-, -, e0, e1, -, -⟩ := idx_facts t
  unfold iblk0
  show V c (Pipeline.arrRef spec0 1) (((cfg0.win 1).blk t).view.emb y) = V c (Pipeline.arrRef spec0 1) i
  congr 1
  funext a; apply Fin.ext
  match a with
  | ⟨0, _⟩ => show win0_1.index t (0 : Fin 2) * 128 + 1 * (y 0).val = (i 0).val; omega
  | ⟨1, _⟩ => show win0_1.index t (1 : Fin 2) * 256 + 1 * (y 1).val = (i 1).val; omega

/-! ## What a point writes back, and the array after the last point -/

/-- The whole product of the two arrays as the region finds them. -/
abbrev whole (c : Dev nD) : FVec Ideal S40000x256 .f32 :=
  Host.dotGeneral (F := Ideal) (φ₁ := .f32) (φ₂ := .f32) Cert.ReferenceIdeal.dot_S40000x128_S128x256_S40000x256_1_0_0_1_n_n none
    (V c (Pipeline.arrRef spec0 0)) (V c (Pipeline.arrRef spec0 1))

/-- What point `t` writes back is tile `t` of the whole product: the same sum, term by term. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨-, -, -, -, e0, e1⟩ := idx_facts t
  funext j
  show k0_pay1 (iblk0 V c 0 t) (iblk0 V c 1 t) j = whole V c (((cfg0.win 2).blk t).view.emb j)
  refine (pay_apply _ _ j).trans (Eq.trans ?_ (whole_apply _ _ _).symm)
  refine Finset.sum_congr rfl fun k _ => ?_
  have ej0 : ((((cfg0.win 2).blk t).view.emb j) 0).val = win0_2.index t (0 : Fin 2) * 2000 + 1 * (j 0).val := rfl
  have ej1 : ((((cfg0.win 2).blk t).view.emb j) 1).val = win0_2.index t (1 : Fin 2) * 256 + 1 * (j 1).val := rfl
  rw [left_tile V c t (lidxT j k) (Cert.ReferenceIdeal.Read.lidx_main_v11 (((cfg0.win 2).blk t).view.emb j) k)
        (by show ((((cfg0.win 2).blk t).view.emb j) 0).val = t.val * 2000 + (j 0).val; omega) rfl,
    right_block V c t (ridxT j k) (Cert.ReferenceIdeal.Read.ridx_main_v11 (((cfg0.win 2).blk t).view.emb j) k)
        rfl (by show ((((cfg0.win 2).blk t).view.emb j) 1).val = (j 1).val; omega)]

/-- An index of the output array is in point `t`'s tile iff each coordinate is in the tile's range on its axis. -/
theorem mem_blk (t : Fin cfg0.N) (i : S40000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole (Pipeline.arrRef spec0 2)).slice (win0_2.rect t)).set ↔ _
  rw [View.set_slice_whole, Rect.mem_set_unit]
  exact Iff.rfl

/-- Row `r` lies in tile `r / 2000`: the tiles cover the output array. -/
theorem cover (i : S40000x256.Idx) :
    ∃ t : Fin cfg0.N, (cfg0.win 2).flush t = true ∧ i ∈ ((cfg0.win 2).blk t).view.set := by
  have hi0 : (i 0).val < 40000 := (i 0).isLt
  have hi1 : (i 1).val < 256 := (i 1).isLt
  have ht : (i 0).val / 2000 < 20 := by omega
  refine ⟨⟨(i 0).val / 2000, ht⟩, flush0_2 _, ?_⟩
  obtain ⟨-, -, -, -, e0, e1⟩ := idx_facts ⟨(i 0).val / 2000, ht⟩
  have e0' : win0_2.index ⟨(i 0).val / 2000, ht⟩ (0 : Fin 2) = (i 0).val / 2000 := e0
  rw [mem_blk]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 256 ≤ (i 1).val ∧ (i 1).val < win0_2.index ⟨(i 0).val / 2000, ht⟩ (1 : Fin 2) * 256 + 256; omega

end MM0

/-- After the region's write-backs the output array is the whole product of the two arrays the region found. -/
theorem mm0_final (c : Dev nD) :
    (dat0 (F := Ideal) V c).arrAt 2 cfg0.N
      = Host.dotGeneral (F := Ideal) (φ₁ := .f32) (φ₂ := .f32) Cert.ReferenceIdeal.dot_S40000x128_S128x256_S40000x256_1_0_0_1_n_n none
          (V c (Pipeline.arrRef spec0 0)) (V c (Pipeline.arrRef spec0 1)) :=
  (dat0 (F := Ideal) V c).arrAt_eq_of_cover 2 (MM0.whole V c) (fun t _ => MM0.flushed_eq V c t) MM0.cover

end Cert.KernelIdeal.Val

end
-- ==== Proof.Val.MM2.lean ====
import proofs.«409148_j78477642432722_1_alg».proof.Proof.KI.R2
import proofs.«409148_j78477642432722_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 2 at the ideal values: the row-tiled product is the whole product

Each point multiplies one tile of 2000 rows of the left matrix by the whole right matrix and writes the tile of the
product back. Entry (r, q) of the product is the sum over k of left (r, k) times right (k, q), and row r lies in tile
r / 2000: so after the last write-back the output array is the whole matrix product. -/

variable (V : (c : Dev nD) → (b : Ref sig .tc) → Buf (Elt Ideal) ((c : Thread nD τ).loc b))

namespace MM2

theorem hz : (![0, 0] : Fin 2 → Nat) = fun _ => 0 := funext fun a => by fin_cases a <;> rfl

/-! ## The tile's product at an index -/

/-- The left tile's entry a term of the tile product reads: the output's row, column `k`. -/
abbrev lidxT (j : S2000x256.Idx) (k : Fin 256) : S2000x256.Idx := fun a => match a with
  | ⟨0, _⟩ => ⟨(j 0).val, (j 0).isLt⟩
  | ⟨1, _⟩ => ⟨k.val, k.isLt⟩
/-- The right matrix's entry it reads: row `k`, the output's column. -/
abbrev ridxT (j : S2000x256.Idx) (k : Fin 256) : S256x256.Idx := fun a => match a with
  | ⟨0, _⟩ => ⟨k.val, k.isLt⟩
  | ⟨1, _⟩ => ⟨(j 1).val, (j 1).isLt⟩

theorem lhsT_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsT_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhsT_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhsT_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The payload at an index: rounding to the narrow format is the identity at the ideal values and the accumulator
    is zero, so the entry is the plain sum of products over the contracted axis. -/
theorem pay_apply (x0 : Vec Ideal S2000x256 .f32) (x1 : Vec Ideal S256x256 .f32) (j : S2000x256.Idx) :
    k2_pay1 x0 x1 j = ∑ k : Fin 256, x0 (lidxT j k) * x1 (ridxT j k) := by
  unfold k2_pay1
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lidxT j k := funext fun a => Fin.ext (by
    match a with
    | ⟨0, _⟩ => exact lhsT_0 _ _
    | ⟨1, _⟩ => exact (lhsT_1 _ _).trans hk)
  have er : dot_S2000x256_S256x256_S2000x256_1_0_0_1_n_n.rhsIdx j ((ValueIdx.contrEquiv1 dot_S2000x256_S256x256_S2000x256_1_0_0_1_n_n 256 rfl rfl).symm k) = ridxT j k := funext fun a => Fin.ext (by
    match a with
    | ⟨0, _⟩ => exact (rhsT_0 _ _).trans hk
    | ⟨1, _⟩ => exact rhsT_1 _ _)
  rw [el, er]
  simp only [ValueIdx.truncf_apply, shapeCast_self]

/-! ## The whole product at an index -/

/-- The host's product of any two matrices of these shapes, at an index: the same sum. -/
theorem whole_apply (a : FVec Ideal S40000x256 .f32) (b : FVec Ideal S256x256 .f32) (i : S40000x256.Idx) :
    Host.dotGeneral (F := Ideal) (φ₁ := .f32) (φ₂ := .f32) Cert.ReferenceIdeal.dot_S40000x256_S256x256_S40000x256_1_0_0_1_n_n none a b i
      = ∑ k : Fin 256, a (Cert.ReferenceIdeal.Read.lidx_main_v49 i k) * b (Cert.ReferenceIdeal.Read.ridx_main_v49 i k) := by
  simp only [Host.dotGeneral]
  rw [Ideal.dotGeneral_apply, ← Equiv.sum_comp (ValueIdx.contrEquiv1 Cert.ReferenceIdeal.dot_S40000x256_S256x256_S40000x256_1_0_0_1_n_n 256 rfl rfl).symm]
  refine Finset.sum_congr rfl fun k _ => ?_
  have hk := ValueIdx.contrEquiv1_symm_val Cert.ReferenceIdeal.dot_S40000x256_S256x256_S40000x256_1_0_0_1_n_n 256 rfl rfl k
  have el : Cert.ReferenceIdeal.dot_S40000x256_S256x256_S40000x256_1_0_0_1_n_n.lhsIdx i ((ValueIdx.contrEquiv1 Cert.ReferenceIdeal.dot_S40000x256_S256x256_S40000x256_1_0_0_1_n_n 256 rfl rfl).symm k) = Cert.ReferenceIdeal.Read.lidx_main_v49 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S40000x256_S256x256_S40000x256_1_0_0_1_n_n.rhsIdx i ((ValueIdx.contrEquiv1 Cert.ReferenceIdeal.dot_S40000x256_S256x256_S40000x256_1_0_0_1_n_n 256 rfl rfl).symm k) = Cert.ReferenceIdeal.Read.ridx_main_v49 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## Which tile each window holds at a point -/

/-- The index maps, decided over the grid: the left and output tiles are tile `t` of the rows, whole in the columns;
    the right matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left tile at point `t` is rows `2000 t …` of the left matrix. -/
theorem left_tile (c : Dev nD) (t : Fin cfg2.N) (y : S2000x256.Idx) (i : S40000x256.Idx)
    (h0 : (i 0).val = t.val * 2000 + (y 0).val) (h1 : (i 1).val = (y 1).val) :
    iblk2 V c 0 t y = V c (Pipeline.arrRef spec2 0) i := by
  obtain ⟨e0, e1, -, -, -, -⟩ := idx_facts t
  unfold iblk2
  show V c (Pipeline.arrRef spec2 0) (((cfg2.win 0).blk t).view.emb y) = V c (Pipeline.arrRef spec2 0) i
  congr 1
  funext a; apply Fin.ext
  match a with
  | ⟨0, _⟩ => show win2_0.index t (0 : Fin 2) * 2000 + 1 * (y 0).val = (i 0).val; omega
  | ⟨1, _⟩ => show win2_0.index t (1 : Fin 2) * 256 + 1 * (y 1).val = (i 1).val; omega

/-- The right block at every point is the whole right matrix. -/
theorem right_block (c : Dev nD) (t : Fin cfg2.N) (y : S256x256.Idx) (i : S256x256.Idx)
    (h0 : (i 0).val = (y 0).val) (h1 : (i 1).val = (y 1).val) :
    iblk2 V c 1 t y = V c (Pipeline.arrRef spec2 1) i := by
  obtain ⟨-, -, e0, e1, -, -⟩ := idx_facts t
  unfold iblk2
  show V c (Pipeline.arrRef spec2 1) (((cfg2.win 1).blk t).view.emb y) = V c (Pipeline.arrRef spec2 1) i
  congr 1
  funext a; apply Fin.ext
  match a with
  | ⟨0, _⟩ => show win2_1.index t (0 : Fin 2) * 256 + 1 * (y 0).val = (i 0).val; omega
  | ⟨1, _⟩ => show win2_1.index t (1 : Fin 2) * 256 + 1 * (y 1).val = (i 1).val; omega

/-! ## What a point writes back, and the array after the last point -/

/-- The whole product of the two arrays as the region finds them. -/
abbrev whole (c : Dev nD) : FVec Ideal S40000x256 .f32 :=
  Host.dotGeneral (F := Ideal) (φ₁ := .f32) (φ₂ := .f32) Cert.ReferenceIdeal.dot_S40000x256_S256x256_S40000x256_1_0_0_1_n_n none
    (V c (Pipeline.arrRef spec2 0)) (V c (Pipeline.arrRef spec2 1))

/-- What point `t` writes back is tile `t` of the whole product: the same sum, term by term. -/
theorem flushed_eq (c : Dev nD) (t : Fin cfg2.N) :
    (dat2 (F := Ideal) V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  obtain ⟨-, -, -, -, e0, e1⟩ := idx_facts t
  funext j
  show k2_pay1 (iblk2 V c 0 t) (iblk2 V c 1 t) j = whole V c (((cfg2.win 2).blk t).view.emb j)
  refine (pay_apply _ _ j).trans (Eq.trans ?_ (whole_apply _ _ _).symm)
  refine Finset.sum_congr rfl fun k _ => ?_
  have ej0 : ((((cfg2.win 2).blk t).view.emb j) 0).val = win2_2.index t (0 : Fin 2) * 2000 + 1 * (j 0).val := rfl
  have ej1 : ((((cfg2.win 2).blk t).view.emb j) 1).val = win2_2.index t (1 : Fin 2) * 256 + 1 * (j 1).val := rfl
  rw [left_tile V c t (lidxT j k) (Cert.ReferenceIdeal.Read.lidx_main_v49 (((cfg2.win 2).blk t).view.emb j) k)
        (by show ((((cfg2.win 2).blk t).view.emb j) 0).val = t.val * 2000 + (j 0).val; omega) rfl,
    right_block V c t (ridxT j k) (Cert.ReferenceIdeal.Read.ridx_main_v49 (((cfg2.win 2).blk t).view.emb j) k)
        rfl (by show ((((cfg2.win 2).blk t).view.emb j) 1).val = (j 1).val; omega)]

/-- An index of the output array is in point `t`'s tile iff each coordinate is in the tile's range on its axis. -/
theorem mem_blk (t : Fin cfg2.N) (i : S40000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole (Pipeline.arrRef spec2 2)).slice (win2_2.rect t)).set ↔ _
  rw [View.set_slice_whole, Rect.mem_set_unit]
  exact Iff.rfl

/-- Row `r` lies in tile `r / 2000`: the tiles cover the output array. -/
theorem cover (i : S40000x256.Idx) :
    ∃ t : Fin cfg2.N, (cfg2.win 2).flush t = true ∧ i ∈ ((cfg2.win 2).blk t).view.set := by
  have hi0 : (i 0).val < 40000 := (i 0).isLt
  have hi1 : (i 1).val < 256 := (i 1).isLt
  have ht : (i 0).val / 2000 < 20 := by omega
  refine ⟨⟨(i 0).val / 2000, ht⟩, flush2_2 _, ?_⟩
  obtain ⟨-, -, -, -, e0, e1⟩ := idx_facts ⟨(i 0).val / 2000, ht⟩
  have e0' : win2_2.index ⟨(i 0).val / 2000, ht⟩ (0 : Fin 2) = (i 0).val / 2000 := e0
  rw [mem_blk]
  intro a
  match a with
  | ⟨0, _⟩ => show win2_2.index ⟨(i 0).val / 2000, ht⟩ (0 : Fin 2) * 2000 ≤ (i 0).val ∧ (i 0).val < win2_2.index ⟨(i 0).val / 2000, ht⟩ (0 : Fin 2) * 2000 + 2000; omega
  | ⟨1, _⟩ => show win2_2.index ⟨(i 0).val / 2000, ht⟩ (1 : Fin 2) * 256 ≤ (i 1).val ∧ (i 1).val < win2_2.index ⟨(i 0).val / 2000, ht⟩ (1 : Fin 2) * 256 + 256; omega

end MM2

/-- After the region's write-backs the output array is the whole product of the two arrays the region found. -/
theorem mm2_final (c : Dev nD) :
    (dat2 (F := Ideal) V c).arrAt 2 cfg2.N
      = Host.dotGeneral (F := Ideal) (φ₁ := .f32) (φ₂ := .f32) Cert.ReferenceIdeal.dot_S40000x256_S256x256_S40000x256_1_0_0_1_n_n none
          (V c (Pipeline.arrRef spec2 0)) (V c (Pipeline.arrRef spec2 1)) :=
  (dat2 (F := Ideal) V c).arrAt_eq_of_cover 2 (MM2.whole V c) (fun t _ => MM2.flushed_eq V c t) MM2.cover

end Cert.KernelIdeal.Val

end
-- ==== Proof.Val.MM4.lean ====
import proofs.«409148_j78477642432722_1_alg».proof.Proof.KI.R4
import proofs.«409148_j78477642432722_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 4 at the ideal values: the row-tiled product is the whole product

Each point multiplies one tile of 2000 rows of the left matrix by the whole right matrix and writes the tile of the
product back. Entry (r, q) of the product is the sum over k of left (r, k) times right (k, q), and row r lies in tile
r / 2000: so after the last write-back the output array is the whole matrix product. -/

variable (V : (c : Dev nD) → (b : Ref sig .tc) → Buf (Elt Ideal) ((c : Thread nD τ).loc b))

namespace MM4

theorem hz : (![0, 0] : Fin 2 → Nat) = fun _ => 0 := funext fun a => by fin_cases a <;> rfl

/-! ## The tile's product at an index -/

/-- The left tile's entry a term of the tile product reads: the output's row, column `k`. -/
abbrev lidxT (j : S2000x128.Idx) (k : Fin 256) : S2000x256.Idx := fun a => match a with
  | ⟨0, _⟩ => ⟨(j 0).val, (j 0).isLt⟩
  | ⟨1, _⟩ => ⟨k.val, k.isLt⟩
/-- The right matrix's entry it reads: row `k`, the output's column. -/
abbrev ridxT (j : S2000x128.Idx) (k : Fin 256) : S256x128.Idx := fun a => match a with
  | ⟨0, _⟩ => ⟨k.val, k.isLt⟩
  | ⟨1, _⟩ => ⟨(j 1).val, (j 1).isLt⟩

theorem lhsT_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsT_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsT_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsT_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The payload at an index: rounding to the narrow format is the identity at the ideal values and the accumulator
    is zero, so the entry is the plain sum of products over the contracted axis. -/
theorem pay_apply (x0 : Vec Ideal S2000x256 .f32) (x1 : Vec Ideal S256x128 .f32) (j : S2000x128.Idx) :
    k4_pay1 x0 x1 j = ∑ k : Fin 256, x0 (lidxT j k) * x1 (ridxT j k) := by
  unfold k4_pay1
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lidxT j k := funext fun a => Fin.ext (by
    match a with
    | ⟨0, _⟩ => exact lhsT_0 _ _
    | ⟨1, _⟩ => exact (lhsT_1 _ _).trans hk)
  have er : dot_S2000x256_S256x128_S2000x128_1_0_0_1_n_n.rhsIdx j ((ValueIdx.contrEquiv1 dot_S2000x256_S256x128_S2000x128_1_0_0_1_n_n 256 rfl rfl).symm k) = ridxT j k := funext fun a => Fin.ext (by
    match a with
    | ⟨0, _⟩ => exact (rhsT_0 _ _).trans hk
    | ⟨1, _⟩ => exact rhsT_1 _ _)
  rw [el, er]
  simp only [ValueIdx.truncf_apply, shapeCast_self]

/-! ## The whole product at an index -/

/-- The host's product of any two matrices of these shapes, at an index: the same sum. -/
theorem whole_apply (a : FVec Ideal S40000x256 .f32) (b : FVec Ideal S256x128 .f32) (i : S40000x128.Idx) :
    Host.dotGeneral (F := Ideal) (φ₁ := .f32) (φ₂ := .f32) Cert.ReferenceIdeal.dot_S40000x256_S256x128_S40000x128_1_0_0_1_n_n none a b i
      = ∑ k : Fin 256, a (Cert.ReferenceIdeal.Read.lidx_main_v87 i k) * b (Cert.ReferenceIdeal.Read.ridx_main_v87 i k) := by
  simp only [Host.dotGeneral]
  rw [Ideal.dotGeneral_apply, ← Equiv.sum_comp (ValueIdx.contrEquiv1 Cert.ReferenceIdeal.dot_S40000x256_S256x128_S40000x128_1_0_0_1_n_n 256 rfl rfl).symm]
  refine Finset.sum_congr rfl fun k _ => ?_
  have hk := ValueIdx.contrEquiv1_symm_val Cert.ReferenceIdeal.dot_S40000x256_S256x128_S40000x128_1_0_0_1_n_n 256 rfl rfl k
  have el : Cert.ReferenceIdeal.dot_S40000x256_S256x128_S40000x128_1_0_0_1_n_n.lhsIdx i ((ValueIdx.contrEquiv1 Cert.ReferenceIdeal.dot_S40000x256_S256x128_S40000x128_1_0_0_1_n_n 256 rfl rfl).symm k) = Cert.ReferenceIdeal.Read.lidx_main_v87 i k := funext fun a => Fin.ext (by
    match a with
    | ⟨0, _⟩ => exact Cert.ReferenceIdeal.Read.lhs_main_v87_0 _ _
    | ⟨1, _⟩ => exact (Cert.ReferenceIdeal.Read.lhs_main_v87_1 _ _).trans hk)
  have er : Cert.ReferenceIdeal.dot_S40000x256_S256x128_S40000x128_1_0_0_1_n_n.rhsIdx i ((ValueIdx.contrEquiv1 Cert.ReferenceIdeal.dot_S40000x256_S256x128_S40000x128_1_0_0_1_n_n 256 rfl rfl).symm k) = Cert.ReferenceIdeal.Read.ridx_main_v87 i k := funext fun a => Fin.ext (by
    match a with
    | ⟨0, _⟩ => exact (Cert.ReferenceIdeal.Read.rhs_main_v87_0 _ _).trans hk
    | ⟨1, _⟩ => exact Cert.ReferenceIdeal.Read.rhs_main_v87_1 _ _)
  rw [el, er]

/-! ## Which tile each window holds at a point -/

/-- The index maps, decided over the grid: the left and output tiles are tile `t` of the rows, whole in the columns;
    the right matrix is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left tile at point `t` is rows `2000 t …` of the left matrix. -/
theorem left_tile (c : Dev nD) (t : Fin cfg4.N) (y : S2000x256.Idx) (i : S40000x256.Idx)
    (h0 : (i 0).val = t.val * 2000 + (y 0).val) (h1 : (i 1).val = (y 1).val) :
    iblk4 V c 0 t y = V c (Pipeline.arrRef spec4 0) i := by
  obtain ⟨e0, e1, -, -, -, -⟩ := idx_facts t
  unfold iblk4
  show V c (Pipeline.arrRef spec4 0) (((cfg4.win 0).blk t).view.emb y) = V c (Pipeline.arrRef spec4 0) i
  congr 1
  funext a; apply Fin.ext
  match a with
  | ⟨0, _⟩ => show win4_0.index t (0 : Fin 2) * 2000 + 1 * (y 0).val = (i 0).val; omega
  | ⟨1, _⟩ => show win4_0.index t (1 : Fin 2) * 256 + 1 * (y 1).val = (i 1).val; omega

/-- The right block at every point is the whole right matrix. -/
theorem right_block (c : Dev nD) (t : Fin cfg4.N) (y : S256x128.Idx) (i : S256x128.Idx)
    (h0 : (i 0).val = (y 0).val) (h1 : (i 1).val = (y 1).val) :
    iblk4 V c 1 t y = V c (Pipeline.arrRef spec4 1) i := by
  obtain ⟨-, -, e0, e1, -, -⟩ := idx_facts t
  unfold iblk4
  show V c (Pipeline.arrRef spec4 1) (((cfg4.win 1).blk t).view.emb y) = V c (Pipeline.arrRef spec4 1) i
  congr 1
  funext a; apply Fin.ext
  match a with
  | ⟨0, _⟩ => show win4_1.index t (0 : Fin 2) * 256 + 1 * (y 0).val = (i 0).val; omega
  | ⟨1, _⟩ => show win4_1.index t (1 : Fin 2) * 128 + 1 * (y 1).val = (i 1).val; omega

/-! ## What a point writes back, and the array after the last point -/

/-- The whole product of the two arrays as the region finds them. -/
abbrev whole (c : Dev nD) : FVec Ideal S40000x128 .f32 :=
  Host.dotGeneral (F := Ideal) (φ₁ := .f32) (φ₂ := .f32) Cert.ReferenceIdeal.dot_S40000x256_S256x128_S40000x128_1_0_0_1_n_n none
    (V c (Pipeline.arrRef spec4 0)) (V c (Pipeline.arrRef spec4 1))

/-- What point `t` writes back is tile `t` of the whole product: the same sum, term by term. -/
theorem flushed_eq (c : Dev nD) (t : Fin cfg4.N) :
    (dat4 (F := Ideal) V c).flushed 2 t = ((cfg4.win 2).blk t).view.read (Elt Ideal) (whole V c) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x128) hz]
  obtain ⟨-, -, -, -, e0, e1⟩ := idx_facts t
  funext j
  show k4_pay1 (iblk4 V c 0 t) (iblk4 V c 1 t) j = whole V c (((cfg4.win 2).blk t).view.emb j)
  refine (pay_apply _ _ j).trans (Eq.trans ?_ (whole_apply _ _ _).symm)
  refine Finset.sum_congr rfl fun k _ => ?_
  have ej0 : ((((cfg4.win 2).blk t).view.emb j) 0).val = win4_2.index t (0 : Fin 2) * 2000 + 1 * (j 0).val := rfl
  have ej1 : ((((cfg4.win 2).blk t).view.emb j) 1).val = win4_2.index t (1 : Fin 2) * 128 + 1 * (j 1).val := rfl
  rw [left_tile V c t (lidxT j k) (Cert.ReferenceIdeal.Read.lidx_main_v87 (((cfg4.win 2).blk t).view.emb j) k)
        (by show ((((cfg4.win 2).blk t).view.emb j) 0).val = t.val * 2000 + (j 0).val; omega) rfl,
    right_block V c t (ridxT j k) (Cert.ReferenceIdeal.Read.ridx_main_v87 (((cfg4.win 2).blk t).view.emb j) k)
        rfl (by show ((((cfg4.win 2).blk t).view.emb j) 1).val = (j 1).val; omega)]

/-- An index of the output array is in point `t`'s tile iff each coordinate is in the tile's range on its axis. -/
theorem mem_blk (t : Fin cfg4.N) (i : S40000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- Row `r` lies in tile `r / 2000`: the tiles cover the output array. -/
theorem cover (i : S40000x128.Idx) :
    ∃ t : Fin cfg4.N, (cfg4.win 2).flush t = true ∧ i ∈ ((cfg4.win 2).blk t).view.set := by
  have hi0 : (i 0).val < 40000 := (i 0).isLt
  have hi1 : (i 1).val < 128 := (i 1).isLt
  have ht : (i 0).val / 2000 < 20 := by omega
  refine ⟨⟨(i 0).val / 2000, ht⟩, flush4_2 _, ?_⟩
  obtain ⟨-, -, -, -, e0, e1⟩ := idx_facts ⟨(i 0).val / 2000, ht⟩
  have e0' : win4_2.index ⟨(i 0).val / 2000, ht⟩ (0 : Fin 2) = (i 0).val / 2000 := e0
  rw [mem_blk]
  intro a
  match a with
  | ⟨0, _⟩ => show win4_2.index ⟨(i 0).val / 2000, ht⟩ (0 : Fin 2) * 2000 ≤ (i 0).val ∧ (i 0).val < win4_2.index ⟨(i 0).val / 2000, ht⟩ (0 : Fin 2) * 2000 + 2000; omega
  | ⟨1, _⟩ => show win4_2.index ⟨(i 0).val / 2000, ht⟩ (1 : Fin 2) * 128 ≤ (i 1).val ∧ (i 1).val < win4_2.index ⟨(i 0).val / 2000, ht⟩ (1 : Fin 2) * 128 + 128; omega

end MM4

/-- After the region's write-backs the output array is the whole product of the two arrays the region found. -/
theorem mm4_final (c : Dev nD) :
    (dat4 (F := Ideal) V c).arrAt 2 cfg4.N
      = Host.dotGeneral (F := Ideal) (φ₁ := .f32) (φ₂ := .f32) Cert.ReferenceIdeal.dot_S40000x256_S256x128_S40000x128_1_0_0_1_n_n none
          (V c (Pipeline.arrRef spec4 0)) (V c (Pipeline.arrRef spec4 1)) :=
  (dat4 (F := Ideal) V c).arrAt_eq_of_cover 2 (MM4.whole V c) (fun t _ => MM4.flushed_eq V c t) MM4.cover

end Cert.KernelIdeal.Val

end
-- ==== Proof.Val.Fin1.lean ====
import proofs.«409148_j78477642432722_1_alg».proof.Proof.KI.R1
import proofs.«409148_j78477642432722_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! # Region 1 at the extended reals: the finished layer, index by index

At row r and feature j the region leaves agg r j + (dis r · dis r) · h r j + b j, cut below at zero: the same sum, in
the same order, as the reference's host operations. -/

/-- The layer's closing operation: the maximum with zero. -/
abbrev closing1 (x : EReal) : EReal := max x (Ideal.ofBits .f32 0x00000000#32)

theorem hz1 : (![0, 0] : Fin 2 → Nat) = fun _ => 0 := funext fun a => by fin_cases a <;> rfl

/-- A column of a rows broadcast over b features reads, at (p, q), the column's entry of row p. -/
theorem col_bcast1_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- The tile the body stores, at row p and feature q of the tile. -/
theorem pay1_apply (d : Vec Ideal S2000x1 .f32) (g : Vec Ideal S2000x256 .f32) (h : Vec Ideal S2000x256 .f32)
    (b : Vec Ideal S1x256 .f32) (p : Fin 2000) (q : Fin 256) :
    k1_pay1 d g h b (ix2 p q)
      = closing1 (g (ix2 p q) + (d (ix2 p (0 : Fin 1)) * d (ix2 p (0 : Fin 1))) * h (ix2 p q) + b (ix2 (0 : Fin 1) q)) := by
  unfold k1_pay1
  simp only [shapeCast_self]
  rw [maximumf_apply, addf_apply, addf_apply, mulf_apply, broadcast_apply, col_bcast1_apply,
    broadcastTo_1b_ab_apply, mulf_apply]; rfl

/-- What the region leaves in its output array, as one function of the four arrays it reads: at row r and feature j
    the neighbour sum plus the squared degree scale times the projected feature, plus the bias, cut below at zero. -/
def G1 (AGG H : S40000x256.Idx → EReal) (DIS : S40000x1.Idx → EReal) (B : S1x256.Idx → EReal) : S40000x256.Idx → EReal :=
  fun i => closing1 (AGG i + (DIS (ix2 (i 0) (0 : Fin 1)) * DIS (ix2 (i 0) (0 : Fin 1))) * H i + B (ix2 (0 : Fin 1) (i 1)))

/-- G1 at an index, from the four reads and where they are taken. -/
theorem G1_at (AGG H : S40000x256.Idx → EReal) (DIS : S40000x1.Idx → EReal) (B : S1x256.Idx → EReal)
    (i : S40000x256.Idx) (i2 : S40000x1.Idx) (i3 : S1x256.Idx) (h2 : i2 = ix2 (i 0) (0 : Fin 1)) (h3 : i3 = ix2 (0 : Fin 1) (i 1))
    (i0 i1 : S40000x256.Idx) (h0 : i0 = i) (h1 : i1 = i) :
    closing1 (AGG i0 + DIS i2 * DIS i2 * H i1 + B i3) = G1 AGG H DIS B i := by
  subst h0 h1 h2 h3; rfl

/-- The block index maps over the grid: the row tiles move with the point, the feature axis and the bias row stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1000000 in
/-- What point t writes back is block t of G1 of the four arrays as the region finds them. -/
theorem flushed1_eq (c : Dev nD) (t : Fin cfg1.N) :
    (dat1 (F := Ideal) V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero hz1]
  simp only [View.ld_unit_zero (S := S2000x256) hz1, View.ld_unit_zero (S := S2000x1) hz1, View.ld_unit_zero (S := S1x256) hz1]
  obtain ⟨e00, e01, e10, e11, e20, e21, e30, e31, e40, e41⟩ := idx_facts1 t
  funext j
  obtain ⟨p, q, rfl⟩ : ∃ (p : Fin 2000) (q : Fin 256), j = ix2 p q := ⟨j 0, j 1, eq_ix2 j⟩
  refine (pay1_apply _ _ _ _ p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * q.val = win1_4.index t (1 : Fin 2) * 256 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 256 + 1 * q.val = win1_4.index t (1 : Fin 2) * 256 + 1 * q.val; omega
  have h2 : ((cfg1.win 2).blk t).view.emb (ix2 p (0 : Fin 1))
      = ix2 (n0 := 40000) (n1 := 1) ((((cfg1.win 4).blk t).view.emb (ix2 p q)) 0) (0 : Fin 1) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q)
      = ix2 (n0 := 1) (n1 := 256) (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega
  exact G1_at (V c (Pipeline.arrRef spec1 0)) (V c (Pipeline.arrRef spec1 1)) (V c (Pipeline.arrRef spec1 2)) (V c (Pipeline.arrRef spec1 3))
    (((cfg1.win 4).blk t).view.emb (ix2 p q)) (((cfg1.win 2).blk t).view.emb (ix2 p (0 : Fin 1))) (((cfg1.win 3).blk t).view.emb (ix2 (0 : Fin 1) q)) h2 h3
    (((cfg1.win 0).blk t).view.emb (ix2 p q)) (((cfg1.win 1).blk t).view.emb (ix2 p q)) h0 h1

/-- An index of the array is in point t's block iff each coordinate is in the block's range on its axis. -/
theorem mem_blk1 (t : Fin cfg1.N) (i : S40000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_call0_v42).slice (win1_4.rect t)).set ↔ _
  rw [View.set_slice_whole, Rect.mem_set_unit]
  exact Iff.rfl

/-- The row tiles cover the array: row r is in the tile of point r / 2000. -/
theorem cover1 (i : S40000x256.Idx) : ∃ t : Fin cfg1.N, (cfg1.win 4).flush t = true ∧ i ∈ ((cfg1.win 4).blk t).view.set := by
  have hi0 : (i 0).val < 40000 := (i 0).isLt
  have hi1 : (i 1).val < 256 := (i 1).isLt
  have hN : (i 0).val / 2000 < cfg1.N := by show (i 0).val / 2000 < 20; omega
  refine ⟨⟨(i 0).val / 2000, hN⟩, flush1_4 _, ?_⟩
  rw [mem_blk1]
  obtain ⟨e00, e01, e10, e11, e20, e21, e30, e31, e40, e41⟩ := idx_facts1 ⟨(i 0).val / 2000, hN⟩
  intro a
  match a with
  | ⟨0, _⟩ =>
    show win1_4.index ⟨(i 0).val / 2000, hN⟩ (0 : Fin 2) * 2000 ≤ (i 0).val ∧ (i 0).val < win1_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win1_4.index ⟨(i 0).val / 2000, hN⟩ (1 : Fin 2) * 256 ≤ (i 1).val ∧ (i 1).val < win1_4.index ⟨(i 0).val / 2000, hN⟩ (1 : Fin 2) * 256 + 256
    rw [e41]; omega

/-- The array after the region: G1 of the four arrays it read. -/
theorem final1 (c : Dev nD) : (dat1 (F := Ideal) V c).arrAt 4 cfg1.N
    = G1 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1_eq V c t) cover1

/-! ## The reference's value, index by index -/

/-- The reference's finished layer at row i 0 and feature i 1: the same operations on the same reads. -/
theorem ref48_apply (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) (i : Cert.ReferenceIdeal.S40000x256.Idx) :
    Cert.ReferenceIdeal.Read.val_main_v48 (F := Ideal) x0 x1 x3 x4 i
      = closing1 (Cert.ReferenceIdeal.Read.val_main_v39 (F := Ideal) x0 x1 x3 i
          + (Cert.ReferenceIdeal.Read.val_main_v10 (F := Ideal) x1 (ix1 (i 0)) * Cert.ReferenceIdeal.Read.val_main_v10 (F := Ideal) x1 (ix1 (i 0)))
            * Cert.ReferenceIdeal.Read.val_main_v11 (F := Ideal) x0 x3 i
          + x4 (ix1 (i 1))) := by
  rw [Cert.ReferenceIdeal.Read.val_main_v48_apply, Cert.ReferenceIdeal.Read.val_main_v47_apply,
    Cert.ReferenceIdeal.Read.val_main_v44_apply, Cert.ReferenceIdeal.Read.val_main_v43_apply,
    Cert.ReferenceIdeal.Read.val_main_v42_apply, Cert.ReferenceIdeal.Read.val_main_v41_apply,
    Cert.ReferenceIdeal.Read.val_main_v40_apply, Cert.ReferenceIdeal.Read.val_main_v46_apply,
    Cert.ReferenceIdeal.Read.val_main_v45_apply, Cert.ReferenceIdeal.Read.val_main_call0_v0_apply, Cert.ReferenceIdeal.Read.val_main_call0_cst_apply]
  have ed : Cert.ReferenceIdeal.Read.idx_main_v41 (Cert.ReferenceIdeal.Read.idx_main_v42 i) = ix1 (i 0) := by
    funext a; match a with | ⟨0, _⟩ => rfl
  have eb : Cert.ReferenceIdeal.Read.idx_main_v45 (Cert.ReferenceIdeal.Read.idx_main_v46 i) = ix1 (i 1) := by
    funext a; match a with | ⟨0, _⟩ => rfl
  rw [ed, eb]
  rfl

/-! ## The two joined -/

/-- After region 1 its output array holds the reference's finished layer, when the four arrays it reads hold
    the reference's neighbour sum, projected features, degree scale (as a column) and bias (as a row). -/
theorem fin1_final (c : Dev nD) (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (hagg : V c (Pipeline.arrRef spec1 0) = Cert.ReferenceIdeal.Read.val_main_v39 (F := Ideal) x0 x1 x3)
    (hh : V c (Pipeline.arrRef spec1 1) = Cert.ReferenceIdeal.Read.val_main_v11 (F := Ideal) x0 x3)
    (hdis : ∀ r : Fin 40000, V c (Pipeline.arrRef spec1 2) (ValueIdx.ix2 r 0) = Cert.ReferenceIdeal.Read.val_main_v10 (F := Ideal) x1 (ValueIdx.ix1 r))
    (hb : ∀ j : Fin 256, V c (Pipeline.arrRef spec1 3) (ValueIdx.ix2 0 j) = x4 (ValueIdx.ix1 j)) :
    (dat1 (F := Ideal) V c).arrAt 4 cfg1.N = Cert.ReferenceIdeal.Read.val_main_v48 (F := Ideal) x0 x1 x3 x4 := by
  rw [final1]
  funext i
  rw [ref48_apply]
  unfold G1
  rw [hagg, hh]
  have e2 := hdis (i 0)
  have e3 := hb (i 1)
  rw [e2, e3]

end Cert.KernelIdeal.Val

end
-- ==== Proof.Val.Fin3.lean ====
import proofs.«409148_j78477642432722_1_alg».proof.Proof.KI.R3
import proofs.«409148_j78477642432722_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! # Region 3 at the extended reals: the finished layer, index by index

At row r and feature j the region leaves agg r j + (dis r · dis r) · h r j + b j, cut below at zero: the same sum, in
the same order, as the reference's host operations. -/

/-- The layer's closing operation: the maximum with zero. -/
abbrev closing3 (x : EReal) : EReal := max x (Ideal.ofBits .f32 0x00000000#32)

theorem hz3 : (![0, 0] : Fin 2 → Nat) = fun _ => 0 := funext fun a => by fin_cases a <;> rfl

/-- A column of a rows broadcast over b features reads, at (p, q), the column's entry of row p. -/
theorem col_bcast3_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- The tile the body stores, at row p and feature q of the tile. -/
theorem pay3_apply (d : Vec Ideal S2000x1 .f32) (g : Vec Ideal S2000x256 .f32) (h : Vec Ideal S2000x256 .f32)
    (b : Vec Ideal S1x256 .f32) (p : Fin 2000) (q : Fin 256) :
    k3_pay1 d g h b (ix2 p q)
      = closing3 (g (ix2 p q) + (d (ix2 p (0 : Fin 1)) * d (ix2 p (0 : Fin 1))) * h (ix2 p q) + b (ix2 (0 : Fin 1) q)) := by
  unfold k3_pay1
  simp only [shapeCast_self]
  rw [maximumf_apply, addf_apply, addf_apply, mulf_apply, broadcast_apply, col_bcast3_apply,
    broadcastTo_1b_ab_apply, mulf_apply]; rfl

/-- What the region leaves in its output array, as one function of the four arrays it reads: at row r and feature j
    the neighbour sum plus the squared degree scale times the projected feature, plus the bias, cut below at zero. -/
def G3 (AGG H : S40000x256.Idx → EReal) (DIS : S40000x1.Idx → EReal) (B : S1x256.Idx → EReal) : S40000x256.Idx → EReal :=
  fun i => closing3 (AGG i + (DIS (ix2 (i 0) (0 : Fin 1)) * DIS (ix2 (i 0) (0 : Fin 1))) * H i + B (ix2 (0 : Fin 1) (i 1)))

/-- G3 at an index, from the four reads and where they are taken. -/
theorem G3_at (AGG H : S40000x256.Idx → EReal) (DIS : S40000x1.Idx → EReal) (B : S1x256.Idx → EReal)
    (i : S40000x256.Idx) (i2 : S40000x1.Idx) (i3 : S1x256.Idx) (h2 : i2 = ix2 (i 0) (0 : Fin 1)) (h3 : i3 = ix2 (0 : Fin 1) (i 1))
    (i0 i1 : S40000x256.Idx) (h0 : i0 = i) (h1 : i1 = i) :
    closing3 (AGG i0 + DIS i2 * DIS i2 * H i1 + B i3) = G3 AGG H DIS B i := by
  subst h0 h1 h2 h3; rfl

/-- The block index maps over the grid: the row tiles move with the point, the feature axis and the bias row stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1000000 in
/-- What point t writes back is block t of G3 of the four arrays as the region finds them. -/
theorem flushed3_eq (c : Dev nD) (t : Fin cfg3.N) :
    (dat3 (F := Ideal) V c).flushed 4 t = ((cfg3.win 4).blk t).view.read (Elt Ideal)
      (G3 (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero hz3]
  simp only [View.ld_unit_zero (S := S2000x256) hz3, View.ld_unit_zero (S := S2000x1) hz3, View.ld_unit_zero (S := S1x256) hz3]
  obtain ⟨e00, e01, e10, e11, e20, e21, e30, e31, e40, e41⟩ := idx_facts3 t
  funext j
  obtain ⟨p, q, rfl⟩ : ∃ (p : Fin 2000) (q : Fin 256), j = ix2 p q := ⟨j 0, j 1, eq_ix2 j⟩
  refine (pay3_apply _ _ _ _ p q).trans ?_
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 256 + 1 * q.val = win3_4.index t (1 : Fin 2) * 256 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 256 + 1 * q.val = win3_4.index t (1 : Fin 2) * 256 + 1 * q.val; omega
  have h2 : ((cfg3.win 2).blk t).view.emb (ix2 p (0 : Fin 1))
      = ix2 (n0 := 40000) (n1 := 1) ((((cfg3.win 4).blk t).view.emb (ix2 p q)) 0) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q)
      = ix2 (n0 := 1) (n1 := 256) (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 256 + 1 * q.val = win3_4.index t (1 : Fin 2) * 256 + 1 * q.val; omega
  exact G3_at (V c (Pipeline.arrRef spec3 0)) (V c (Pipeline.arrRef spec3 1)) (V c (Pipeline.arrRef spec3 2)) (V c (Pipeline.arrRef spec3 3))
    (((cfg3.win 4).blk t).view.emb (ix2 p q)) (((cfg3.win 2).blk t).view.emb (ix2 p (0 : Fin 1))) (((cfg3.win 3).blk t).view.emb (ix2 (0 : Fin 1) q)) h2 h3
    (((cfg3.win 0).blk t).view.emb (ix2 p q)) (((cfg3.win 1).blk t).view.emb (ix2 p q)) h0 h1

/-- An index of the array is in point t's block iff each coordinate is in the block's range on its axis. -/
theorem mem_blk3 (t : Fin cfg3.N) (i : S40000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_call0_v73).slice (win3_4.rect t)).set ↔ _
  rw [View.set_slice_whole, Rect.mem_set_unit]
  exact Iff.rfl

/-- The row tiles cover the array: row r is in the tile of point r / 2000. -/
theorem cover3 (i : S40000x256.Idx) : ∃ t : Fin cfg3.N, (cfg3.win 4).flush t = true ∧ i ∈ ((cfg3.win 4).blk t).view.set := by
  have hi0 : (i 0).val < 40000 := (i 0).isLt
  have hi1 : (i 1).val < 256 := (i 1).isLt
  have hN : (i 0).val / 2000 < cfg3.N := by show (i 0).val / 2000 < 20; omega
  refine ⟨⟨(i 0).val / 2000, hN⟩, flush3_4 _, ?_⟩
  rw [mem_blk3]
  obtain ⟨e00, e01, e10, e11, e20, e21, e30, e31, e40, e41⟩ := idx_facts3 ⟨(i 0).val / 2000, hN⟩
  intro a
  match a with
  | ⟨0, _⟩ =>
    show win3_4.index ⟨(i 0).val / 2000, hN⟩ (0 : Fin 2) * 2000 ≤ (i 0).val ∧ (i 0).val < win3_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win3_4.index ⟨(i 0).val / 2000, hN⟩ (1 : Fin 2) * 256 ≤ (i 1).val ∧ (i 1).val < win3_4.index ⟨(i 0).val / 2000, hN⟩ (1 : Fin 2) * 256 + 256
    rw [e41]; omega

/-- The array after the region: G3 of the four arrays it read. -/
theorem final3 (c : Dev nD) : (dat3 (F := Ideal) V c).arrAt 4 cfg3.N
    = G3 (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed3_eq V c t) cover3

/-! ## The reference's value, index by index -/

/-- The reference's finished layer at row i 0 and feature i 1: the same operations on the same reads. -/
theorem ref86_apply (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (i : Cert.ReferenceIdeal.S40000x256.Idx) :
    Cert.ReferenceIdeal.Read.val_main_v86 (F := Ideal) x0 x1 x3 x4 x5 x6 i
      = closing3 (Cert.ReferenceIdeal.Read.val_main_v77 (F := Ideal) x0 x1 x3 x4 x5 i
          + (Cert.ReferenceIdeal.Read.val_main_v10 (F := Ideal) x1 (ix1 (i 0)) * Cert.ReferenceIdeal.Read.val_main_v10 (F := Ideal) x1 (ix1 (i 0)))
            * Cert.ReferenceIdeal.Read.val_main_v49 (F := Ideal) x0 x1 x3 x4 x5 i
          + x6 (ix1 (i 1))) := by
  rw [Cert.ReferenceIdeal.Read.val_main_v86_apply, Cert.ReferenceIdeal.Read.val_main_v85_apply,
    Cert.ReferenceIdeal.Read.val_main_v82_apply, Cert.ReferenceIdeal.Read.val_main_v81_apply,
    Cert.ReferenceIdeal.Read.val_main_v80_apply, Cert.ReferenceIdeal.Read.val_main_v79_apply,
    Cert.ReferenceIdeal.Read.val_main_v78_apply, Cert.ReferenceIdeal.Read.val_main_v84_apply,
    Cert.ReferenceIdeal.Read.val_main_v83_apply, Cert.ReferenceIdeal.Read.val_main_call1_v0_apply, Cert.ReferenceIdeal.Read.val_main_call1_cst_apply]
  have ed : Cert.ReferenceIdeal.Read.idx_main_v79 (Cert.ReferenceIdeal.Read.idx_main_v80 i) = ix1 (i 0) := by
    funext a; match a with | ⟨0, _⟩ => rfl
  have eb : Cert.ReferenceIdeal.Read.idx_main_v83 (Cert.ReferenceIdeal.Read.idx_main_v84 i) = ix1 (i 1) := by
    funext a; match a with | ⟨0, _⟩ => rfl
  rw [ed, eb]
  rfl

/-! ## The two joined -/

/-- After region 3 its output array holds the reference's finished layer, when the four arrays it reads hold
    the reference's neighbour sum, projected features, degree scale (as a column) and bias (as a row). -/
theorem fin3_final (c : Dev nD) (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal))
    (hagg : V c (Pipeline.arrRef spec3 0) = Cert.ReferenceIdeal.Read.val_main_v77 (F := Ideal) x0 x1 x3 x4 x5)
    (hh : V c (Pipeline.arrRef spec3 1) = Cert.ReferenceIdeal.Read.val_main_v49 (F := Ideal) x0 x1 x3 x4 x5)
    (hdis : ∀ r : Fin 40000, V c (Pipeline.arrRef spec3 2) (ValueIdx.ix2 r 0) = Cert.ReferenceIdeal.Read.val_main_v10 (F := Ideal) x1 (ValueIdx.ix1 r))
    (hb : ∀ j : Fin 256, V c (Pipeline.arrRef spec3 3) (ValueIdx.ix2 0 j) = x6 (ValueIdx.ix1 j)) :
    (dat3 (F := Ideal) V c).arrAt 4 cfg3.N = Cert.ReferenceIdeal.Read.val_main_v86 (F := Ideal) x0 x1 x3 x4 x5 x6 := by
  rw [final3]
  funext i
  rw [ref86_apply]
  unfold G3
  rw [hagg, hh]
  have e2 := hdis (i 0)
  have e3 := hb (i 1)
  rw [e2, e3]

end Cert.KernelIdeal.Val

end
-- ==== Proof.Val.Fin5.lean ====
import proofs.«409148_j78477642432722_1_alg».proof.Proof.KI.R5
import proofs.«409148_j78477642432722_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! # Region 5 at the extended reals: the finished layer, index by index

At row r and feature j the region leaves agg r j + (dis r · dis r) · h r j + b j: the same sum, in
the same order, as the reference's host operations. -/

/-- The layer's closing operation: none, the sum is left as it stands. -/
abbrev closing5 (x : EReal) : EReal := x

theorem hz5 : (![0, 0] : Fin 2 → Nat) = fun _ => 0 := funext fun a => by fin_cases a <;> rfl

/-- A column of a rows broadcast over b features reads, at (p, q), the column's entry of row p. -/
theorem col_bcast5_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- The tile the body stores, at row p and feature q of the tile. -/
theorem pay5_apply (d : Vec Ideal S2000x1 .f32) (g : Vec Ideal S2000x128 .f32) (h : Vec Ideal S2000x128 .f32)
    (b : Vec Ideal S1x128 .f32) (p : Fin 2000) (q : Fin 128) :
    k5_pay1 d g h b (ix2 p q)
      = closing5 (g (ix2 p q) + (d (ix2 p (0 : Fin 1)) * d (ix2 p (0 : Fin 1))) * h (ix2 p q) + b (ix2 (0 : Fin 1) q)) := by
  unfold k5_pay1
  simp only [shapeCast_self]
  rw [addf_apply, addf_apply, mulf_apply, col_bcast5_apply,
    broadcastTo_1b_ab_apply, mulf_apply]

/-- What the region leaves in its output array, as one function of the four arrays it reads: at row r and feature j
    the neighbour sum plus the squared degree scale times the projected feature, plus the bias. -/
def G5 (AGG H : S40000x128.Idx → EReal) (DIS : S40000x1.Idx → EReal) (B : S1x128.Idx → EReal) : S40000x128.Idx → EReal :=
  fun i => closing5 (AGG i + (DIS (ix2 (i 0) (0 : Fin 1)) * DIS (ix2 (i 0) (0 : Fin 1))) * H i + B (ix2 (0 : Fin 1) (i 1)))

/-- G5 at an index, from the four reads and where they are taken. -/
theorem G5_at (AGG H : S40000x128.Idx → EReal) (DIS : S40000x1.Idx → EReal) (B : S1x128.Idx → EReal)
    (i : S40000x128.Idx) (i2 : S40000x1.Idx) (i3 : S1x128.Idx) (h2 : i2 = ix2 (i 0) (0 : Fin 1)) (h3 : i3 = ix2 (0 : Fin 1) (i 1))
    (i0 i1 : S40000x128.Idx) (h0 : i0 = i) (h1 : i1 = i) :
    closing5 (AGG i0 + DIS i2 * DIS i2 * H i1 + B i3) = G5 AGG H DIS B i := by
  subst h0 h1 h2 h3; rfl

/-- The block index maps over the grid: the row tiles move with the point, the feature axis and the bias row stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 1000000 in
/-- What point t writes back is block t of G5 of the four arrays as the region finds them. -/
theorem flushed5_eq (c : Dev nD) (t : Fin cfg5.N) :
    (dat5 (F := Ideal) V c).flushed 4 t = ((cfg5.win 4).blk t).view.read (Elt Ideal)
      (G5 (V c (Pipeline.arrRef spec5 0)) (V c (Pipeline.arrRef spec5 1)) (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero hz5]
  simp only [View.ld_unit_zero (S := S2000x128) hz5, View.ld_unit_zero (S := S2000x1) hz5, View.ld_unit_zero (S := S1x128) hz5]
  obtain ⟨e00, e01, e10, e11, e20, e21, e30, e31, e40, e41⟩ := idx_facts5 t
  funext j
  obtain ⟨p, q, rfl⟩ : ∃ (p : Fin 2000) (q : Fin 128), j = ix2 p q := ⟨j 0, j 1, eq_ix2 j⟩
  refine (pay5_apply _ _ _ _ p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 2000 + 1 * p.val = win5_4.index t (0 : Fin 2) * 2000 + 1 * p.val; omega
    | ⟨1, _⟩ => show win5_0.index t (1 : Fin 2) * 128 + 1 * q.val = win5_4.index t (1 : Fin 2) * 128 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 2000 + 1 * p.val = win5_4.index t (0 : Fin 2) * 2000 + 1 * p.val; omega
    | ⟨1, _⟩ => show win5_1.index t (1 : Fin 2) * 128 + 1 * q.val = win5_4.index t (1 : Fin 2) * 128 + 1 * q.val; omega
  have h2 : ((cfg5.win 2).blk t).view.emb (ix2 p (0 : Fin 1))
      = ix2 (n0 := 40000) (n1 := 1) ((((cfg5.win 4).blk t).view.emb (ix2 p q)) 0) (0 : Fin 1) := by
    funext a; apply Fin.ext
    match a with
    | ⟨0, _⟩ => show win5_2.index t (0 : Fin 2) * 2000 + 1 * p.val = win5_4.index t (0 : Fin 2) * 2000 + 1 * p.val; omega
    | ⟨1, _⟩ => show win5_2.index t (1 : Fin 2) * 1 + 1 * 0 = 0; omega
  have h3 : ((cfg5.win 3).blk t).view.emb (ix2 (0 : Fin 1) q)
      = ix2 (n0 := 1) (n1 := 128) (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  exact G5_at (V c (Pipeline.arrRef spec5 0)) (V c (Pipeline.arrRef spec5 1)) (V c (Pipeline.arrRef spec5 2)) (V c (Pipeline.arrRef spec5 3))
    (((cfg5.win 4).blk t).view.emb (ix2 p q)) (((cfg5.win 2).blk t).view.emb (ix2 p (0 : Fin 1))) (((cfg5.win 3).blk t).view.emb (ix2 (0 : Fin 1) q)) h2 h3
    (((cfg5.win 0).blk t).view.emb (ix2 p q)) (((cfg5.win 1).blk t).view.emb (ix2 p q)) h0 h1

/-- An index of the array is in point t's block iff each coordinate is in the block's range on its axis. -/
theorem mem_blk5 (t : Fin cfg5.N) (i : S40000x128.Idx) :
    i ∈ ((cfg5.win 4).blk t).view.set ↔ ∀ a : Fin 2, win5_4.index t a * S2000x128.size a ≤ (i a).val ∧ (i a).val < win5_4.index t a * S2000x128.size a + S2000x128.size a := by
  show i ∈ ((View.whole main_v0_0).slice (win5_4.rect t)).set ↔ _
  rw [View.set_slice_whole, Rect.mem_set_unit]
  exact Iff.rfl

/-- The row tiles cover the array: row r is in the tile of point r / 2000. -/
theorem cover5 (i : S40000x128.Idx) : ∃ t : Fin cfg5.N, (cfg5.win 4).flush t = true ∧ i ∈ ((cfg5.win 4).blk t).view.set := by
  have hi0 : (i 0).val < 40000 := (i 0).isLt
  have hi1 : (i 1).val < 128 := (i 1).isLt
  have hN : (i 0).val / 2000 < cfg5.N := by show (i 0).val / 2000 < 20; omega
  refine ⟨⟨(i 0).val / 2000, hN⟩, flush5_4 _, ?_⟩
  rw [mem_blk5]
  obtain ⟨e00, e01, e10, e11, e20, e21, e30, e31, e40, e41⟩ := idx_facts5 ⟨(i 0).val / 2000, hN⟩
  intro a
  match a with
  | ⟨0, _⟩ =>
    show win5_4.index ⟨(i 0).val / 2000, hN⟩ (0 : Fin 2) * 2000 ≤ (i 0).val ∧ (i 0).val < win5_4.index ⟨(i 0).val / 2000, hN⟩ (0 : Fin 2) * 2000 + 2000
    rw [e40]; show (i 0).val / 2000 * 2000 ≤ (i 0).val ∧ (i 0).val < (i 0).val / 2000 * 2000 + 2000; omega
  | ⟨1, _⟩ =>
    show win5_4.index ⟨(i 0).val / 2000, hN⟩ (1 : Fin 2) * 128 ≤ (i 1).val ∧ (i 1).val < win5_4.index ⟨(i 0).val / 2000, hN⟩ (1 : Fin 2) * 128 + 128
    rw [e41]; omega

/-- The array after the region: G5 of the four arrays it read. -/
theorem final5 (c : Dev nD) : (dat5 (F := Ideal) V c).arrAt 4 cfg5.N
    = G5 (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => flushed5_eq V c t) cover5

/-! ## The reference's value, index by index -/

/-- The reference's finished layer at row i 0 and feature i 1: the same operations on the same reads. -/
theorem ref123_apply (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (i : Cert.ReferenceIdeal.S40000x128.Idx) :
    Cert.ReferenceIdeal.Read.val_main_v123 (F := Ideal) x0 x1 x3 x4 x5 x6 x7 x8 i
      = closing5 (Cert.ReferenceIdeal.Read.val_main_v115 (F := Ideal) x0 x1 x3 x4 x5 x6 x7 i
          + (Cert.ReferenceIdeal.Read.val_main_v10 (F := Ideal) x1 (ix1 (i 0)) * Cert.ReferenceIdeal.Read.val_main_v10 (F := Ideal) x1 (ix1 (i 0)))
            * Cert.ReferenceIdeal.Read.val_main_v87 (F := Ideal) x0 x1 x3 x4 x5 x6 x7 i
          + x8 (ix1 (i 1))) := by
  rw [Cert.ReferenceIdeal.Read.val_main_v123_apply,
    Cert.ReferenceIdeal.Read.val_main_v120_apply, Cert.ReferenceIdeal.Read.val_main_v119_apply,
    Cert.ReferenceIdeal.Read.val_main_v118_apply, Cert.ReferenceIdeal.Read.val_main_v117_apply,
    Cert.ReferenceIdeal.Read.val_main_v116_apply, Cert.ReferenceIdeal.Read.val_main_v122_apply,
    Cert.ReferenceIdeal.Read.val_main_v121_apply]
  have ed : Cert.ReferenceIdeal.Read.idx_main_v117 (Cert.ReferenceIdeal.Read.idx_main_v118 i) = ix1 (i 0) := by
    funext a; match a with | ⟨0, _⟩ => rfl
  have eb : Cert.ReferenceIdeal.Read.idx_main_v121 (Cert.ReferenceIdeal.Read.idx_main_v122 i) = ix1 (i 1) := by
    funext a; match a with | ⟨0, _⟩ => rfl
  rw [ed, eb]
  rfl

/-! ## The two joined -/

/-- After region 5 its output array holds the reference's finished layer, when the four arrays it reads hold
    the reference's neighbour sum, projected features, degree scale (as a column) and bias (as a row). -/
theorem fin5_final (c : Dev nD) (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal))
    (hagg : V c (Pipeline.arrRef spec5 0) = Cert.ReferenceIdeal.Read.val_main_v115 (F := Ideal) x0 x1 x3 x4 x5 x6 x7)
    (hh : V c (Pipeline.arrRef spec5 1) = Cert.ReferenceIdeal.Read.val_main_v87 (F := Ideal) x0 x1 x3 x4 x5 x6 x7)
    (hdis : ∀ r : Fin 40000, V c (Pipeline.arrRef spec5 2) (ValueIdx.ix2 r 0) = Cert.ReferenceIdeal.Read.val_main_v10 (F := Ideal) x1 (ValueIdx.ix1 r))
    (hb : ∀ j : Fin 128, V c (Pipeline.arrRef spec5 3) (ValueIdx.ix2 0 j) = x8 (ValueIdx.ix1 j)) :
    (dat5 (F := Ideal) V c).arrAt 4 cfg5.N = Cert.ReferenceIdeal.Read.val_main_v123 (F := Ideal) x0 x1 x3 x4 x5 x6 x7 x8 := by
  rw [final5]
  funext i
  rw [ref123_apply]
  unfold G5
  rw [hagg, hh]
  have e2 := hdis (i 0)
  have e3 := hb (i 1)
  rw [e2, e3]

end Cert.KernelIdeal.Val

end
-- ==== Proof.KI.R6Val.lean ====
import proofs.«409148_j78477642432722_1_alg».proof.Proof.KI.R6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: what the scratch buffers and the outputs hold, as the body's arithmetic

Each run's pieces are one whole-buffer store per buffer (at the first point two, the later covering the earlier), so a
buffer read back is the last store's payload; a load through the whole-buffer rectangle reads the contents, and a load of
a scratch buffer stored just before reads the stored value. -/

theorem hz2 : (![0, 0] : Fin 2 → Nat) = fun _ => 0 := funext fun a => by fin_cases a <;> rfl

/-! ## One lemma per piece list, on any memrefs -/

/-- First point, the sums: the tile's contribution added to the reset value. -/
theorem sA6_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) :
    rdS0 (kernelRun6_A c i arg1 harg1 arg2 harg2 arg3 harg3 arg4 harg4 arg5 harg5 arg6 harg6 arg7 harg7 arg8 harg8 hc0 hc1 x0 x1 x2 x3).1 = k6_pay4 x0 x1 (k6_pay1 (F := F)) := by
  unfold rdS0
  rw [View.read_writes_eq_canon _ _ _ (scover6_A_0 c i arg1 harg1 arg2 harg2 arg3 harg3 arg4 harg4 arg5 harg5 arg6 harg6 arg7 harg7 arg8 harg8 hc0 hc1 x0 x1 x2 x3)]
  unfold kernelRun6_A; dsimp only; sl_unfold_words
  rw [View.canon_cons_unit_zero (S := S64x128) hz2, View.readCov_unit_zero (S := S64x128) _ hz2]
  simp only [View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
/-- First point, the counts. -/
theorem sA6_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : cond6_0 i) (hc1 : ¬cond6_1 i) (x0 : Vec F S2000x128 .f32) (x1 : Vec F S2000x1 .i32) (x2 : Vec F S128x2 .f32) (x3 : Vec F S1x2 .f32) :
    rdS1 (kernelRun6_A c i arg1 harg1 arg2 harg2 arg3 harg3 arg4 harg4 arg5 harg5 arg6 harg6 arg7 harg7 arg8 harg8 hc0 hc1 x0 x1 x2 x3).2.1 = k6_pay5 x1 (k6_pay2 (F := F)) := by
  unfold rdS1
  rw [View.read_writes_eq_canon _ _ _ (scover6_A_1 c i arg1 harg1 arg2 harg2 arg3 harg3 arg4 harg4 arg5 harg5 arg6 harg6 arg7 harg7 arg8 harg8 hc0 hc1 x0 x1 x2 x3)]
  unfold kernelRun6_A; dsimp only; sl_unfold_words
  rw [View.canon_cons_unit_zero (S := S64x1) hz2, View.readCov_unit_zero (S := S64x1) _ hz2]
  simp only [View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
/-- A middle point: the tile's contribution added to what the point before left. -/
theorem sB6_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdS0 (kernelRun6_B c i arg1 harg1 arg2 harg2 arg3 harg3 arg4 harg4 arg5 harg5 arg6 harg6 arg7 harg7 arg8 harg8 hc0 hc1 x0 x1 x2 x3 xs0 xs1).1 = k6_pay4 x0 x1 xs0 := by
  unfold rdS0
  rw [View.read_writes_eq_canon _ _ _ (scover6_B_0 c i arg1 harg1 arg2 harg2 arg3 harg3 arg4 harg4 arg5 harg5 arg6 harg6 arg7 harg7 arg8 harg8 hc0 hc1 x0 x1 x2 x3 xs0 xs1)]
  unfold kernelRun6_B; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
theorem sB6_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : ¬cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdS1 (kernelRun6_B c i arg1 harg1 arg2 harg2 arg3 harg3 arg4 harg4 arg5 harg5 arg6 harg6 arg7 harg7 arg8 harg8 hc0 hc1 x0 x1 x2 x3 xs0 xs1).2.1 = k6_pay5 x1 xs1 := by
  unfold rdS1
  rw [View.read_writes_eq_canon _ _ _ (scover6_B_1 c i arg1 harg1 arg2 harg2 arg3 harg3 arg4 harg4 arg5 harg5 arg6 harg6 arg7 harg7 arg8 harg8 hc0 hc1 x0 x1 x2 x3 xs0 xs1)]
  unfold kernelRun6_B; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
/-- The last point: the same accumulation, then the two outputs from the finished sums and counts. -/
theorem sC6_0 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdS0 (kernelRun6_C c i arg1 harg1 arg2 harg2 arg3 harg3 arg4 harg4 arg5 harg5 arg6 harg6 arg7 harg7 arg8 harg8 hc0 hc1 x0 x1 x2 x3 xs0 xs1).2.2.1 = k6_pay4 x0 x1 xs0 := by
  unfold rdS0
  rw [View.read_writes_eq_canon _ _ _ (scover6_C_0 c i arg1 harg1 arg2 harg2 arg3 harg3 arg4 harg4 arg5 harg5 arg6 harg6 arg7 harg7 arg8 harg8 hc0 hc1 x0 x1 x2 x3 xs0 xs1)]
  unfold kernelRun6_C; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
theorem sC6_1 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdS1 (kernelRun6_C c i arg1 harg1 arg2 harg2 arg3 harg3 arg4 harg4 arg5 harg5 arg6 harg6 arg7 harg7 arg8 harg8 hc0 hc1 x0 x1 x2 x3 xs0 xs1).2.2.2.1 = k6_pay5 x1 xs1 := by
  unfold rdS1
  rw [View.read_writes_eq_canon _ _ _ (scover6_C_1 c i arg1 harg1 arg2 harg2 arg3 harg3 arg4 harg4 arg5 harg5 arg6 harg6 arg7 harg7 arg8 harg8 hc0 hc1 x0 x1 x2 x3 xs0 xs1)]
  unfold kernelRun6_C; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
theorem oC6_4 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdO4 (kernelRun6_C c i arg1 harg1 arg2 harg2 arg3 harg3 arg4 harg4 arg5 harg5 arg6 harg6 arg7 harg7 arg8 harg8 hc0 hc1 x0 x1 x2 x3 xs0 xs1).1 = k6_pay6 (k6_pay4 x0 x1 xs0) (k6_pay5 x1 xs1) := by
  unfold rdO4
  rw [View.read_writes_eq_canon _ _ _ (cover6_C_4 c i arg1 harg1 arg2 harg2 arg3 harg3 arg4 harg4 arg5 harg5 arg6 harg6 arg7 harg7 arg8 harg8 hc0 hc1 x0 x1 x2 x3 xs0 xs1)]
  unfold kernelRun6_C; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]
theorem oC6_5 (c : Dev nD) (i : grid6.Coords) (arg1 : Memref sig .tc .vmem S2000x128 .f32) (harg1 : arg1.IsWhole) (arg2 : Memref sig .tc .vmem S2000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S64x128 .f32) (harg5 : arg5.IsWhole) (arg6 : Memref sig .tc .vmem S64x2 .f32) (harg6 : arg6.IsWhole)
    (arg7 : Memref sig .tc .vmem S64x128 .f32) (harg7 : arg7.IsWhole) (arg8 : Memref sig .tc .vmem S64x1 .f32) (harg8 : arg8.IsWhole)
    (hc0 : ¬cond6_0 i) (hc1 : cond6_1 i) (x0 : Vec F S2000x128 .f32) (x1 : Vec F S2000x1 .i32) (x2 : Vec F S128x2 .f32) (x3 : Vec F S1x2 .f32) (xs0 : Vec F S64x128 .f32) (xs1 : Vec F S64x1 .f32) :
    rdO5 (kernelRun6_C c i arg1 harg1 arg2 harg2 arg3 harg3 arg4 harg4 arg5 harg5 arg6 harg6 arg7 harg7 arg8 harg8 hc0 hc1 x0 x1 x2 x3 xs0 xs1).2.1 = k6_pay7 (k6_pay4 x0 x1 xs0) (k6_pay5 x1 xs1) x2 x3 := by
  unfold rdO5
  rw [View.read_writes_eq_canon _ _ _ (cover6_C_5 c i arg1 harg1 arg2 harg2 arg3 harg3 arg4 harg4 arg5 harg5 arg6 harg6 arg7 harg7 arg8 harg8 hc0 hc1 x0 x1 x2 x3 xs0 xs1)]
  unfold kernelRun6_C; dsimp only; sl_unfold_words
  rw [View.canon_unit_zero hz2]
  simp only [View.readCov_unit_zero (S := S64x128) _ hz2, View.readCov_unit_zero (S := S64x1) _ hz2, View.readAt_eq_ld, harg1.read_unread, harg2.read_unread, harg3.read_unread, harg4.read_unread, harg7.read_unread, harg8.read_unread, View.ld_unit_zero (S := S2000x128) hz2, View.ld_unit_zero (S := S2000x1) hz2, View.ld_unit_zero (S := S128x2) hz2, View.ld_unit_zero (S := S1x2) hz2, View.ld_unit_zero (S := S64x128) hz2, View.ld_unit_zero (S := S64x1) hz2]

/-! ## The same at a point of the grid -/

theorem runA6_0 (c : Dev nD) (t : Fin cfg6.N) (h0 : t.val = 0) :
    rdS0 (runA6 V c t h0).1 = k6_pay4 (iblk6 V c 0 t) (iblk6 V c 1 t) (k6_pay1 (F := F)) :=
  sA6_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t)
theorem runA6_1 (c : Dev nD) (t : Fin cfg6.N) (h0 : t.val = 0) :
    rdS1 (runA6 V c t h0).2.1 = k6_pay5 (iblk6 V c 1 t) (k6_pay2 (F := F)) :=
  sA6_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t)
theorem runB6_0 (c : Dev nD) (t : Fin cfg6.N) (h0 : t.val ≠ 0) (h1 : t.val ≠ 19) (xs0 : Vec F S64x128 .f32) (xs1 : Vec F S64x1 .f32) :
    rdS0 (runB6 V c t h0 h1 xs0 xs1).1 = k6_pay4 (iblk6 V c 0 t) (iblk6 V c 1 t) xs0 :=
  sB6_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1
theorem runB6_1 (c : Dev nD) (t : Fin cfg6.N) (h0 : t.val ≠ 0) (h1 : t.val ≠ 19) (xs0 : Vec F S64x128 .f32) (xs1 : Vec F S64x1 .f32) :
    rdS1 (runB6 V c t h0 h1 xs0 xs1).2.1 = k6_pay5 (iblk6 V c 1 t) xs1 :=
  sB6_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1
theorem runC6_0 (c : Dev nD) (t : Fin cfg6.N) (h1 : t.val = 19) (xs0 : Vec F S64x128 .f32) (xs1 : Vec F S64x1 .f32) :
    rdS0 (runC6 V c t h1 xs0 xs1).2.2.1 = k6_pay4 (iblk6 V c 0 t) (iblk6 V c 1 t) xs0 :=
  sC6_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1
theorem runC6_1 (c : Dev nD) (t : Fin cfg6.N) (h1 : t.val = 19) (xs0 : Vec F S64x128 .f32) (xs1 : Vec F S64x1 .f32) :
    rdS1 (runC6 V c t h1 xs0 xs1).2.2.2.1 = k6_pay5 (iblk6 V c 1 t) xs1 :=
  sC6_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1
theorem runC6_4 (c : Dev nD) (t : Fin cfg6.N) (h1 : t.val = 19) (xs0 : Vec F S64x128 .f32) (xs1 : Vec F S64x1 .f32) :
    rdO4 (runC6 V c t h1 xs0 xs1).1 = k6_pay6 (k6_pay4 (iblk6 V c 0 t) (iblk6 V c 1 t) xs0) (k6_pay5 (iblk6 V c 1 t) xs1) :=
  oC6_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1
theorem runC6_5 (c : Dev nD) (t : Fin cfg6.N) (h1 : t.val = 19) (xs0 : Vec F S64x128 .f32) (xs1 : Vec F S64x1 .f32) :
    rdO5 (runC6 V c t h1 xs0 xs1).2.1 = k6_pay7 (k6_pay4 (iblk6 V c 0 t) (iblk6 V c 1 t) xs0) (k6_pay5 (iblk6 V c 1 t) xs1) (iblk6 V c 2 t) (iblk6 V c 3 t) :=
  oC6_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) _ _ (iblk6 V c 0 t) (iblk6 V c 1 t) (iblk6 V c 2 t) (iblk6 V c 3 t) xs0 xs1

/-! ## The accumulation, point by point -/

/-- The per-graph sums and counts (the two scratch buffers) after point `n`. -/
def acc6 (c : Dev nD) (n : ℕ) (h : n < cfg6.N) : Vec F S64x128 .f32 × Vec F S64x1 .f32 := scr6 V c n h

/-- After the first point: the reset value, then the first tile's contribution. -/
theorem acc6_zero (c : Dev nD) (h : 0 < cfg6.N) :
    acc6 V c 0 h = (k6_pay4 (iblk6 V c 0 ⟨0, h⟩) (iblk6 V c 1 ⟨0, h⟩) (k6_pay1 (F := F)), k6_pay5 (iblk6 V c 1 ⟨0, h⟩) (k6_pay2 (F := F))) := by
  unfold acc6
  exact (scr6_A V c ⟨0, h⟩ rfl).trans (congrArg₂ Prod.mk (runA6_0 V c ⟨0, h⟩ rfl) (runA6_1 V c ⟨0, h⟩ rfl))

/-- After a later point: the point's tile's contribution added to what the point before left (the last point
    accumulates like any other before it finishes). -/
theorem acc6_succ (c : Dev nD) (n : ℕ) (h : n + 1 < cfg6.N) :
    acc6 V c (n + 1) h = (k6_pay4 (iblk6 V c 0 ⟨n + 1, h⟩) (iblk6 V c 1 ⟨n + 1, h⟩) (acc6 V c n (Nat.lt_of_succ_lt h)).1,
      k6_pay5 (iblk6 V c 1 ⟨n + 1, h⟩) (acc6 V c n (Nat.lt_of_succ_lt h)).2) := by
  unfold acc6
  by_cases h1 : n + 1 = 19
  · exact (scr6_C V c ⟨n + 1, h⟩ h1).trans (congrArg₂ Prod.mk
      (runC6_0 V c ⟨n + 1, h⟩ h1 (prev6 V c ⟨n + 1, h⟩).1 (prev6 V c ⟨n + 1, h⟩).2)
      (runC6_1 V c ⟨n + 1, h⟩ h1 (prev6 V c ⟨n + 1, h⟩).1 (prev6 V c ⟨n + 1, h⟩).2))
  · exact (scr6_B V c ⟨n + 1, h⟩ (Nat.succ_ne_zero n) h1).trans (congrArg₂ Prod.mk
      (runB6_0 V c ⟨n + 1, h⟩ (Nat.succ_ne_zero n) h1 (prev6 V c ⟨n + 1, h⟩).1 (prev6 V c ⟨n + 1, h⟩).2)
      (runB6_1 V c ⟨n + 1, h⟩ (Nat.succ_ne_zero n) h1 (prev6 V c ⟨n + 1, h⟩).1 (prev6 V c ⟨n + 1, h⟩).2))

/-! ## The two outputs at the last point -/

theorem acc6_19_1 (c : Dev nD) (h19 : 19 < cfg6.N) :
    (acc6 V c 19 h19).1 = k6_pay4 (iblk6 V c 0 ⟨19, h19⟩) (iblk6 V c 1 ⟨19, h19⟩) (acc6 V c 18 (Nat.lt_of_succ_lt h19)).1 :=
  congrArg Prod.fst (acc6_succ V c 18 h19)
theorem acc6_19_2 (c : Dev nD) (h19 : 19 < cfg6.N) :
    (acc6 V c 19 h19).2 = k6_pay5 (iblk6 V c 1 ⟨19, h19⟩) (acc6 V c 18 (Nat.lt_of_succ_lt h19)).2 :=
  congrArg Prod.snd (acc6_succ V c 18 h19)

/-- The pooled graph embeddings: the finished sums divided by the finished counts (bounded below by one). -/
theorem after6_4_at (c : Dev nD) (h19 : 19 < cfg6.N) :
    (dat6 V c).after 4 ⟨19, h19⟩ = k6_pay6 (acc6 V c 19 h19).1 (acc6 V c 19 h19).2 := by
  rw [acc6_19_1 V c h19, acc6_19_2 V c h19]
  exact (after6_4 V c ⟨19, h19⟩).trans ((out6_C1 V c ⟨19, h19⟩ rfl).trans
    (runC6_4 V c ⟨19, h19⟩ rfl (prev6 V c ⟨19, h19⟩).1 (prev6 V c ⟨19, h19⟩).2))

/-- The logits: the pooled embeddings times the classifier's weights, plus its bias. -/
theorem after6_5_at (c : Dev nD) (h19 : 19 < cfg6.N) :
    (dat6 V c).after 5 ⟨19, h19⟩ = k6_pay7 (acc6 V c 19 h19).1 (acc6 V c 19 h19).2 (iblk6 V c 2 ⟨19, h19⟩) (iblk6 V c 3 ⟨19, h19⟩) := by
  rw [acc6_19_1 V c h19, acc6_19_2 V c h19]
  exact (after6_5 V c ⟨19, h19⟩).trans ((out6_C2 V c ⟨19, h19⟩ rfl).trans
    (runC6_5 V c ⟨19, h19⟩ rfl (prev6 V c ⟨19, h19⟩).1 (prev6 V c ⟨19, h19⟩).2))

theorem after6_4_last (c : Dev nD) :
    (dat6 V c).after 4 ⟨19, by decide⟩ = k6_pay6 (acc6 V c 19 (by decide)).1 (acc6 V c 19 (by decide)).2 :=
  after6_4_at V c (by decide)

theorem after6_5_last (c : Dev nD) :
    (dat6 V c).after 5 ⟨19, by decide⟩ = k6_pay7 (acc6 V c 19 (by decide)).1 (acc6 V c 19 (by decide)).2 (iblk6 V c 2 ⟨19, by decide⟩) (iblk6 V c 3 ⟨19, by decide⟩) :=
  after6_5_at V c (by decide)

end Cert.KernelIdeal.Hand

end
-- ==== Proof.Val.PoolMath.lean ====
import proofs.«409148_j78477642432722_1_alg».proof.Proof.Gen.KernelIdeal.Skeleton
import proofs.«409148_j78477642432722_1_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Algebra.BigOperators.Fin
import Mathlib.Logic.Equiv.Fin.Basic

set_option maxRecDepth 16384

noncomputable section

namespace Cert.KernelIdeal.Val

namespace Pool

open Cert.KernelIdeal Cert.KernelIdeal.Gen
open Idealize.ShloMosaic Idealize.ShloMosaic.ValueIdx Idealize.SL.Sem

/-! # Mean pooling over graphs: a one-hot product accumulated over row tiles is a segment sum

The pooling region multiplies, tile by tile, the transposed one-hot matrix of the rows' graph ids (row r, column g is
one exactly when row r belongs to graph g) into the tile of node embeddings and into a column of ones, and adds the
products into two accumulators. Over the extended reals zero times anything is zero and sums commute and associate,
so after the last tile the accumulators hold, per graph, the sum of its rows and the number of its rows: what an
accumulating scatter by graph id computes, a row whose id names no graph contributing to neither. The mean is the
quotient of the two, the count raised to one where it is less, and the classifier is a product with the weights plus
the bias row. -/

/-! ## Where a scattered update lands -/

abbrev dS := Cert.ReferenceIdeal.scatter_S64x128_S40000x1_S40000x128_1_0_0_1
abbrev dC := Cert.ReferenceIdeal.scatter_S64_S40000x1_S40000_n_0_0_1

theorem dS_siIdx {c} (j : S40000x128.Idx) : dS.siIdx j c = ix2 (j 0) (0 : Fin 1) := by
  funext a
  match a with
  | ⟨0, _⟩ => rfl
  | ⟨1, _⟩ =>
    have h1 : c.val < 1 := c.isLt
    refine Fin.ext ?_
    show (dS.siIdx j c ⟨1, _⟩).val = 0
    unfold ScatterDims.siIdx
    split
    · show c.val = 0
      omega
    · rename_i hb
      exact absurd rfl hb

theorem dS_start0 {w : Nat} (j : S40000x128.Idx) (idx : IVec S40000x1 w) : dS.start j idx 0 = (idx (ix2 (j 0) 0)).toInt := by
  unfold ScatterDims.start
  rw [dif_pos (show (0 : Fin S64x128.rank) ∈ dS.scatterDimsToOperandDims by decide), dS_siIdx]
  rfl
theorem dS_start1 {w : Nat} (j : S40000x128.Idx) (idx : IVec S40000x1 w) : dS.start j idx 1 = 0 := by
  unfold ScatterDims.start
  rw [dif_neg (show ¬ (1 : Fin S64x128.rank) ∈ dS.scatterDimsToOperandDims by decide)]
theorem dS_window0 (j : S40000x128.Idx) : dS.window j 0 = 0 := by
  unfold ScatterDims.window
  rw [dif_neg (show ¬ (0 : Fin S64x128.rank) ∈ dS.sKept by decide)]
theorem dS_window1 (j : S40000x128.Idx) : dS.window j 1 = (j 1).val := by
  unfold ScatterDims.window
  rw [dif_pos (show (1 : Fin S64x128.rank) ∈ dS.sKept by decide)]
  rfl

/-- An update element lands on an operand element exactly when its row's graph id is that element's row and
    the columns agree. -/
theorem dS_resultIdx_iff {w : Nat} (j : S40000x128.Idx) (idx : IVec S40000x1 w) (g : Fin 64) (d : Fin 128) :
    dS.resultIdx? j idx = some (ix2 g d) ↔ (idx (ix2 (j 0) 0)).toInt = (g.val : ℤ) ∧ j 1 = d := by
  unfold ScatterDims.resultIdx?
  constructor
  · intro h
    split at h
    · rename_i hh
      have e := Option.some.inj h
      have e0 := congrArg (fun f => (f 0).val) e
      have e1 := congrArg (fun f => (f 1).val) e
      have h0 := hh 0
      rw [dS_start0, dS_window0] at h0
      refine ⟨?_, Fin.ext ?_⟩
      · have e0' : (dS.start j idx 0 + dS.window j 0).toNat = g.val := e0
        rw [dS_start0, dS_window0] at e0'
        omega
      · have e1' : (dS.start j idx 1 + dS.window j 1).toNat = d.val := e1
        rw [dS_start1, dS_window1] at e1'
        omega
    · exact absurd h (by simp)
  · rintro ⟨h0, h1⟩
    have hh : ∀ a, 0 ≤ dS.start j idx a + dS.window j a ∧ dS.start j idx a + dS.window j a < S64x128.size a := fun a => by
      match a with
      | ⟨0, _⟩ =>
        show 0 ≤ dS.start j idx 0 + dS.window j 0 ∧ dS.start j idx 0 + dS.window j 0 < ((64 : ℕ) : ℤ)
        rw [dS_start0, dS_window0, h0]; have := g.isLt; omega
      | ⟨1, _⟩ =>
        show 0 ≤ dS.start j idx 1 + dS.window j 1 ∧ dS.start j idx 1 + dS.window j 1 < ((128 : ℕ) : ℤ)
        rw [dS_start1, dS_window1]; have : (j 1).val < 128 := (j 1).isLt; omega
    rw [dif_pos hh]
    refine congrArg some (funext fun a => Fin.ext ?_)
    match a with
    | ⟨0, _⟩ =>
      show (dS.start j idx 0 + dS.window j 0).toNat = g.val
      rw [dS_start0, dS_window0, h0]; omega
    | ⟨1, _⟩ =>
      show (dS.start j idx 1 + dS.window j 1).toNat = d.val
      rw [dS_start1, dS_window1, ← h1]; omega

/-! ## Sums over rows, tile by tile -/

/-- Row r of tile t, as a row of the whole array. -/
def row (t : Fin 20) (r : Fin 2000) : Fin 40000 := ⟨2000 * t.val + r.val, by have := t.isLt; have := r.isLt; omega⟩

/-- A sum over the 40000 rows is the sum over the 20 tiles of the sums over each tile's 2000 rows. -/
theorem sum_rows {M : Type*} [AddCommMonoid M] (f : Fin 40000 → M) :
    ∑ n : Fin 40000, f n = ∑ t : Fin 20, ∑ r : Fin 2000, f (row t r) := by
  rw [← Equiv.sum_comp (finProdFinEquiv (m := 20) (n := 2000)) f, Fintype.sum_prod_type]
  refine Finset.sum_congr rfl fun t _ => Finset.sum_congr rfl fun r _ => congrArg f (Fin.ext ?_)
  show r.val + 2000 * t.val = 2000 * t.val + r.val
  omega

/-- An accumulator that starts at zero plus the first term and adds one term per point holds, after point n, the sum of
    the terms of the points up to n. -/
theorem acc_closed {M : Type*} [AddCommMonoid M] (a : (n : ℕ) → n < 20 → M) (T : Fin 20 → M)
    (h0 : ∀ h, a 0 h = 0 + T ⟨0, h⟩) (hs : ∀ n (h : n + 1 < 20), a (n + 1) h = a n (by omega) + T ⟨n + 1, h⟩) :
    ∀ n (h : n < 20), a n h = ∑ t ∈ Finset.range (n + 1), if ht : t < 20 then T ⟨t, ht⟩ else 0 := by
  intro n
  induction n with
  | zero => intro h; rw [h0, zero_add, Finset.sum_range_one, dif_pos h]
  | succ n ih => intro h; rw [hs n h, ih (by omega), Finset.sum_range_succ _ (n + 1), dif_pos h]

theorem acc_final {M : Type*} [AddCommMonoid M] (a : (n : ℕ) → n < 20 → M) (T : Fin 20 → M)
    (h0 : ∀ h, a 0 h = 0 + T ⟨0, h⟩) (hs : ∀ n (h : n + 1 < 20), a (n + 1) h = a n (by omega) + T ⟨n + 1, h⟩) :
    a 19 (by decide) = ∑ t : Fin 20, T t := by
  rw [acc_closed a T h0 hs 19 (by decide), Finset.sum_fin_eq_sum_range]

/-- A 32-bit word read signed is the small natural g exactly when it is the word g. -/
theorem toInt_eq_iff (x : BitVec 32) (g : Fin 64) : x.toInt = (g.val : ℤ) ↔ x = BitVec.ofNat 32 g.val := by
  have hg : (BitVec.ofNat 32 g.val).toInt = (g.val : ℤ) := by
    have := g.isLt
    rw [BitVec.toInt_eq_toNat_cond, BitVec.toNat_ofNat]
    have e : g.val % 2 ^ 32 = g.val := Nat.mod_eq_of_lt (by omega)
    rw [e, if_pos (by omega)]
  constructor
  · intro h; exact BitVec.eq_of_toInt_eq (h.trans hg.symm)
  · rintro rfl; exact hg

/-! ## The region's payloads at an index -/

abbrev dotS := dot_S2000x64_S2000x128_S64x128_0_0_1_1_n_n
abbrev dotC := dot_S2000x64_S2000x1_S64x1_0_0_1_1_n_n

/-- The one-hot tile: row r, column g is one when row r's graph id is the word g, else zero. -/
theorem pay3_apply (ids : Vec Ideal S2000x1 .i32) (r : Fin 2000) (g : Fin 64) :
    k6_pay3 (F := Ideal) ids (ix2 r g) = if ids (ix2 r (0 : Fin 1)) = BitVec.ofNat 32 g.val then 1 else 0 := by
  unfold k6_pay3
  simp only [shapeCast_self]
  rw [sitofp_apply, extui_apply]
  show FloatOps.sitofp .f32 ((IntOp.cmpi .eq (broadcastTo S2000x64 ids broadcasts_S2000x1_S2000x64 (ix2 r g)) (iota .tc S2000x64 32 [1] iota_S2000x64_d1_w32 (ix2 r g))).setWidth 32) = _
  rw [broadcastTo_apply ids broadcasts_S2000x1_S2000x64 (ix2 r g) (ix2 r (0 : Fin 1)) (fun a => by
      match a with
      | ⟨0, _⟩ => show r.val = if (2000 : ℕ) = 1 then 0 else r.val; rw [if_neg (by decide)]
      | ⟨1, _⟩ => show 0 = if (1 : ℕ) = 1 then 0 else _; rw [if_pos rfl]),
    iota_single_apply]
  show FloatOps.sitofp .f32 ((IntOp.cmpi .eq (ids (ix2 r (0 : Fin 1))) (BitVec.ofNat 32 g.val)).setWidth 32) = _
  by_cases h : ids (ix2 r (0 : Fin 1)) = BitVec.ofNat 32 g.val
  · rw [if_pos h, StableHlo.Predicate.cmpi_eq_iff.mpr h]
    show (((((1#1 : BitVec 1).setWidth 32).toInt : ℝ)) : EReal) = 1
    rw [show ((1#1 : BitVec 1).setWidth 32).toInt = 1 by decide]; simp
  · rw [if_neg h, eq_zero_of_ne_one (mt StableHlo.Predicate.cmpi_eq_iff.mp h)]
    show (((((0#1 : BitVec 1).setWidth 32).toInt : ℝ)) : EReal) = 0
    rw [show ((0#1 : BitVec 1).setWidth 32).toInt = 0 by decide]; simp

theorem lhs_dotS_0 (i : S64x128.Idx) (q : dot_S2000x64_S2000x128_S64x128_0_0_1_1_n_n.contr.Idx) :
    (dot_S2000x64_S2000x128_S64x128_0_0_1_1_n_n.lhsIdx i q 0).val = (q ⟨0, by decide⟩).val :=
  dot_S2000x64_S2000x128_S64x128_0_0_1_1_n_n.lhsIdx_val_of_single rfl i q
theorem lhs_dotS_1 (i : S64x128.Idx) (q : dot_S2000x64_S2000x128_S64x128_0_0_1_1_n_n.contr.Idx) :
    (dot_S2000x64_S2000x128_S64x128_0_0_1_1_n_n.lhsIdx i q 1).val = (i 0).val := by
  unfold DotDims.lhsIdx
  rw [dif_neg (show ¬(1 : Fin S2000x64.rank) ∈ dot_S2000x64_S2000x128_S64x128_0_0_1_1_n_n.lhsBatch by decide), dif_pos (show (1 : Fin S2000x64.rank) ∈ dot_S2000x64_S2000x128_S64x128_0_0_1_1_n_n.lhsNonContracting by decide)]
  rfl
theorem rhs_dotS_0 (i : S64x128.Idx) (q : dot_S2000x64_S2000x128_S64x128_0_0_1_1_n_n.contr.Idx) :
    (dot_S2000x64_S2000x128_S64x128_0_0_1_1_n_n.rhsIdx i q 0).val = (q ⟨0, by decide⟩).val :=
  dot_S2000x64_S2000x128_S64x128_0_0_1_1_n_n.rhsIdx_val_of_single rfl i q
theorem rhs_dotS_1 (i : S64x128.Idx) (q : dot_S2000x64_S2000x128_S64x128_0_0_1_1_n_n.contr.Idx) :
    (dot_S2000x64_S2000x128_S64x128_0_0_1_1_n_n.rhsIdx i q 1).val = (i 1).val := by
  unfold DotDims.rhsIdx
  rw [dif_neg (show ¬(1 : Fin S2000x128.rank) ∈ dot_S2000x64_S2000x128_S64x128_0_0_1_1_n_n.rhsBatch by decide), dif_pos (show (1 : Fin S2000x128.rank) ∈ dot_S2000x64_S2000x128_S64x128_0_0_1_1_n_n.rhsNonContracting by decide)]
  rfl

/-- One tile's contribution to the feature sums: the accumulator plus, per graph and feature, the sum of the tile's
    rows of that graph. -/
theorem pay4_apply (emb : Vec Ideal S2000x128 .f32) (ids : Vec Ideal S2000x1 .i32) (acc : Vec Ideal S64x128 .f32) (g : Fin 64) (d : Fin 128) :
    k6_pay4 (F := Ideal) emb ids acc (ix2 g d)
      = acc (ix2 g d) + ∑ r : Fin 2000, (if ids (ix2 r (0 : Fin 1)) = BitVec.ofNat 32 g.val then (1 : EReal) else 0) * emb (ix2 r d) := by
  unfold k6_pay4
  simp only [shapeCast_self]
  rw [addf_apply]
  refine congrArg (acc (ix2 g d) + ·) ?_
  simp only [matmul]
  rw [Ideal.matmul_constant_zero_apply, ← Equiv.sum_comp (ValueIdx.contrEquiv1 dot_S2000x64_S2000x128_S64x128_0_0_1_1_n_n 2000 rfl rfl).symm]
  refine Finset.sum_congr rfl fun k _ => ?_
  have hk := ValueIdx.contrEquiv1_symm_val dot_S2000x64_S2000x128_S64x128_0_0_1_1_n_n 2000 rfl rfl k
  have el : dot_S2000x64_S2000x128_S64x128_0_0_1_1_n_n.lhsIdx (ix2 g d) ((ValueIdx.contrEquiv1 dot_S2000x64_S2000x128_S64x128_0_0_1_1_n_n 2000 rfl rfl).symm k) = ix2 k g := funext fun a => Fin.ext (by
    match a with
    | ⟨0, _⟩ => exact (lhs_dotS_0 _ _).trans hk
    | ⟨1, _⟩ => exact lhs_dotS_1 _ _)
  have er : dot_S2000x64_S2000x128_S64x128_0_0_1_1_n_n.rhsIdx (ix2 g d) ((ValueIdx.contrEquiv1 dot_S2000x64_S2000x128_S64x128_0_0_1_1_n_n 2000 rfl rfl).symm k) = ix2 k d := funext fun a => Fin.ext (by
    match a with
    | ⟨0, _⟩ => exact (rhs_dotS_0 _ _).trans hk
    | ⟨1, _⟩ => exact rhs_dotS_1 _ _)
  rw [el, er, pay3_apply]

theorem lhs_dotC_0 (i : S64x1.Idx) (q : dot_S2000x64_S2000x1_S64x1_0_0_1_1_n_n.contr.Idx) :
    (dot_S2000x64_S2000x1_S64x1_0_0_1_1_n_n.lhsIdx i q 0).val = (q ⟨0, by decide⟩).val :=
  dot_S2000x64_S2000x1_S64x1_0_0_1_1_n_n.lhsIdx_val_of_single rfl i q
theorem lhs_dotC_1 (i : S64x1.Idx) (q : dot_S2000x64_S2000x1_S64x1_0_0_1_1_n_n.contr.Idx) :
    (dot_S2000x64_S2000x1_S64x1_0_0_1_1_n_n.lhsIdx i q 1).val = (i 0).val := by
  unfold DotDims.lhsIdx
  rw [dif_neg (show ¬(1 : Fin S2000x64.rank) ∈ dot_S2000x64_S2000x1_S64x1_0_0_1_1_n_n.lhsBatch by decide), dif_pos (show (1 : Fin S2000x64.rank) ∈ dot_S2000x64_S2000x1_S64x1_0_0_1_1_n_n.lhsNonContracting by decide)]
  rfl
theorem rhs_dotC_0 (i : S64x1.Idx) (q : dot_S2000x64_S2000x1_S64x1_0_0_1_1_n_n.contr.Idx) :
    (dot_S2000x64_S2000x1_S64x1_0_0_1_1_n_n.rhsIdx i q 0).val = (q ⟨0, by decide⟩).val :=
  dot_S2000x64_S2000x1_S64x1_0_0_1_1_n_n.rhsIdx_val_of_single rfl i q
theorem rhs_dotC_1 (i : S64x1.Idx) (q : dot_S2000x64_S2000x1_S64x1_0_0_1_1_n_n.contr.Idx) :
    (dot_S2000x64_S2000x1_S64x1_0_0_1_1_n_n.rhsIdx i q 1).val = (i 1).val := by
  unfold DotDims.rhsIdx
  rw [dif_neg (show ¬(1 : Fin S2000x1.rank) ∈ dot_S2000x64_S2000x1_S64x1_0_0_1_1_n_n.rhsBatch by decide), dif_pos (show (1 : Fin S2000x1.rank) ∈ dot_S2000x64_S2000x1_S64x1_0_0_1_1_n_n.rhsNonContracting by decide)]
  rfl

/-- The float the kernel and the reference both write for one. -/
abbrev one32 : EReal := Ideal.ofBits .f32 0x3F800000#32

/-- One tile's contribution to the node counts: the accumulator plus, per graph, one for each of the tile's rows of
    that graph. -/
theorem pay5_apply (ids : Vec Ideal S2000x1 .i32) (acc : Vec Ideal S64x1 .f32) (g : Fin 64) :
    k6_pay5 (F := Ideal) ids acc (ix2 g (0 : Fin 1))
      = acc (ix2 g (0 : Fin 1)) + ∑ r : Fin 2000, (if ids (ix2 r (0 : Fin 1)) = BitVec.ofNat 32 g.val then (1 : EReal) else 0) * one32 := by
  unfold k6_pay5
  simp only [shapeCast_self]
  rw [addf_apply]
  refine congrArg (acc (ix2 g (0 : Fin 1)) + ·) ?_
  simp only [matmul]
  rw [Ideal.matmul_constant_zero_apply, ← Equiv.sum_comp (ValueIdx.contrEquiv1 dot_S2000x64_S2000x1_S64x1_0_0_1_1_n_n 2000 rfl rfl).symm]
  refine Finset.sum_congr rfl fun k _ => ?_
  have hk := ValueIdx.contrEquiv1_symm_val dot_S2000x64_S2000x1_S64x1_0_0_1_1_n_n 2000 rfl rfl k
  have el : dot_S2000x64_S2000x1_S64x1_0_0_1_1_n_n.lhsIdx (ix2 g (0 : Fin 1)) ((ValueIdx.contrEquiv1 dot_S2000x64_S2000x1_S64x1_0_0_1_1_n_n 2000 rfl rfl).symm k) = ix2 k g := funext fun a => Fin.ext (by
    match a with
    | ⟨0, _⟩ => exact (lhs_dotC_0 _ _).trans hk
    | ⟨1, _⟩ => exact lhs_dotC_1 _ _)
  rw [el, pay3_apply]
  rfl

/-- The mean: the feature sum over the count, the count raised to one where it is less. -/
theorem pay6_apply (S : Vec Ideal S64x128 .f32) (C : Vec Ideal S64x1 .f32) (g : Fin 64) (d : Fin 128) :
    k6_pay6 (F := Ideal) S C (ix2 g d) = Ideal.div (S (ix2 g d)) (max (C (ix2 g (0 : Fin 1))) one32) := by
  unfold k6_pay6
  rw [divf_apply]
  rw [broadcastTo_apply _ broadcasts_S64x1_S64x128 (ix2 g d) (ix2 g (0 : Fin 1)) (fun a => by
      match a with
      | ⟨0, _⟩ => show g.val = if (64 : ℕ) = 1 then 0 else g.val; rw [if_neg (by decide)]
      | ⟨1, _⟩ => show 0 = if (1 : ℕ) = 1 then 0 else _; rw [if_pos rfl])]
  rfl

theorem lhs_dotW_0 (i : S64x2.Idx) (q : dot_S64x128_S128x2_S64x2_1_0_0_1_n_n.contr.Idx) :
    (dot_S64x128_S128x2_S64x2_1_0_0_1_n_n.lhsIdx i q 0).val = (i 0).val := by
  unfold DotDims.lhsIdx
  rw [dif_neg (show ¬(0 : Fin S64x128.rank) ∈ dot_S64x128_S128x2_S64x2_1_0_0_1_n_n.lhsBatch by decide), dif_pos (show (0 : Fin S64x128.rank) ∈ dot_S64x128_S128x2_S64x2_1_0_0_1_n_n.lhsNonContracting by decide)]
  rfl
theorem lhs_dotW_1 (i : S64x2.Idx) (q : dot_S64x128_S128x2_S64x2_1_0_0_1_n_n.contr.Idx) :
    (dot_S64x128_S128x2_S64x2_1_0_0_1_n_n.lhsIdx i q 1).val = (q ⟨0, by decide⟩).val :=
  dot_S64x128_S128x2_S64x2_1_0_0_1_n_n.lhsIdx_val_of_single rfl i q
theorem rhs_dotW_0 (i : S64x2.Idx) (q : dot_S64x128_S128x2_S64x2_1_0_0_1_n_n.contr.Idx) :
    (dot_S64x128_S128x2_S64x2_1_0_0_1_n_n.rhsIdx i q 0).val = (q ⟨0, by decide⟩).val :=
  dot_S64x128_S128x2_S64x2_1_0_0_1_n_n.rhsIdx_val_of_single rfl i q
theorem rhs_dotW_1 (i : S64x2.Idx) (q : dot_S64x128_S128x2_S64x2_1_0_0_1_n_n.contr.Idx) :
    (dot_S64x128_S128x2_S64x2_1_0_0_1_n_n.rhsIdx i q 1).val = (i 1).val := by
  unfold DotDims.rhsIdx
  rw [dif_neg (show ¬(1 : Fin S128x2.rank) ∈ dot_S64x128_S128x2_S64x2_1_0_0_1_n_n.rhsBatch by decide), dif_pos (show (1 : Fin S128x2.rank) ∈ dot_S64x128_S128x2_S64x2_1_0_0_1_n_n.rhsNonContracting by decide)]
  rfl

/-- The classifier: the means times the weights, plus the bias row. -/
theorem pay7_apply (S : Vec Ideal S64x128 .f32) (C : Vec Ideal S64x1 .f32) (W : Vec Ideal S128x2 .f32) (b : Vec Ideal S1x2 .f32) (g : Fin 64) (j : Fin 2) :
    k6_pay7 (F := Ideal) S C W b (ix2 g j)
      = (∑ k : Fin 128, k6_pay6 (F := Ideal) S C (ix2 g k) * W (ix2 k j)) + b (ix2 (0 : Fin 1) j) := by
  unfold k6_pay7
  simp only [shapeCast_self]
  rw [addf_apply, broadcastTo_1b_ab_apply]
  refine congrArg (· + b (ix2 (0 : Fin 1) j)) ?_
  simp only [matmul]
  rw [Ideal.matmul_constant_zero_apply, ← Equiv.sum_comp (ValueIdx.contrEquiv1 dot_S64x128_S128x2_S64x2_1_0_0_1_n_n 128 rfl rfl).symm]
  refine Finset.sum_congr rfl fun k _ => ?_
  have hk := ValueIdx.contrEquiv1_symm_val dot_S64x128_S128x2_S64x2_1_0_0_1_n_n 128 rfl rfl k
  have el : dot_S64x128_S128x2_S64x2_1_0_0_1_n_n.lhsIdx (ix2 g j) ((ValueIdx.contrEquiv1 dot_S64x128_S128x2_S64x2_1_0_0_1_n_n 128 rfl rfl).symm k) = ix2 g k := funext fun a => Fin.ext (by
    match a with
    | ⟨0, _⟩ => exact lhs_dotW_0 _ _
    | ⟨1, _⟩ => exact (lhs_dotW_1 _ _).trans hk)
  have er : dot_S64x128_S128x2_S64x2_1_0_0_1_n_n.rhsIdx (ix2 g j) ((ValueIdx.contrEquiv1 dot_S64x128_S128x2_S64x2_1_0_0_1_n_n 128 rfl rfl).symm k) = ix2 k j := funext fun a => Fin.ext (by
    match a with
    | ⟨0, _⟩ => exact (rhs_dotW_0 _ _).trans hk
    | ⟨1, _⟩ => exact rhs_dotW_1 _ _)
  rw [el, er]

/-! ## The two scatters at an index -/

theorem dC_siIdx {c} (j : Cert.ReferenceIdeal.S40000.Idx) : dC.siIdx j c = ix2 (j 0) (0 : Fin 1) := by
  funext a
  match a with
  | ⟨0, _⟩ => rfl
  | ⟨1, _⟩ =>
    have h1 : c.val < 1 := c.isLt
    refine Fin.ext ?_
    show (dC.siIdx j c ⟨1, _⟩).val = 0
    unfold ScatterDims.siIdx
    split
    · show c.val = 0
      omega
    · rename_i hb
      exact absurd rfl hb

theorem dC_start0 {w : Nat} (j : Cert.ReferenceIdeal.S40000.Idx) (idx : IVec S40000x1 w) : dC.start j idx 0 = (idx (ix2 (j 0) 0)).toInt := by
  unfold ScatterDims.start
  rw [dif_pos (show (0 : Fin Cert.ReferenceIdeal.S64.rank) ∈ dC.scatterDimsToOperandDims by decide), dC_siIdx]
  rfl
theorem dC_window0 (j : Cert.ReferenceIdeal.S40000.Idx) : dC.window j 0 = 0 := by
  unfold ScatterDims.window
  rw [dif_neg (show ¬ (0 : Fin Cert.ReferenceIdeal.S64.rank) ∈ dC.sKept by decide)]

/-- A unit update lands on a count exactly when its row's graph id is that count's graph. -/
theorem dC_resultIdx_iff {w : Nat} (j : Cert.ReferenceIdeal.S40000.Idx) (idx : IVec S40000x1 w) (g : Fin 64) :
    dC.resultIdx? j idx = some (ix1 g) ↔ (idx (ix2 (j 0) 0)).toInt = (g.val : ℤ) := by
  unfold ScatterDims.resultIdx?
  constructor
  · intro h
    split at h
    · rename_i hh
      have e := Option.some.inj h
      have e0 := congrArg (fun f => (f 0).val) e
      have h0 := hh 0
      rw [dC_start0, dC_window0] at h0
      have e0' : (dC.start j idx 0 + dC.window j 0).toNat = g.val := e0
      rw [dC_start0, dC_window0] at e0'
      omega
    · exact absurd h (by simp)
  · intro h0
    have hh : ∀ a, 0 ≤ dC.start j idx a + dC.window j a ∧ dC.start j idx a + dC.window j a < Cert.ReferenceIdeal.S64.size a := fun a => by
      match a with
      | ⟨0, _⟩ =>
        show 0 ≤ dC.start j idx 0 + dC.window j 0 ∧ dC.start j idx 0 + dC.window j 0 < ((64 : ℕ) : ℤ)
        rw [dC_start0, dC_window0, h0]; have := g.isLt; omega
    rw [dif_pos hh]
    refine congrArg some (funext fun a => Fin.ext ?_)
    match a with
    | ⟨0, _⟩ =>
      show (dC.start j idx 0 + dC.window j 0).toNat = g.val
      rw [dC_start0, dC_window0, h0]; omega

/-- The feature scatter at one element: the operand there plus the sum, over the rows whose graph id is the element's
    row, of the update's entry in the element's column. -/
theorem scatterS_apply (X : Vec Ideal S64x128 .f32) (IDS : IVec S40000x1 32) (emb : Vec Ideal S40000x128 .f32) (g : Fin 64) (d : Fin 128) :
    Ideal.hostScatterAdd dS X IDS emb (ix2 g d)
      = X (ix2 g d) + ∑ n : Fin 40000, (if IDS (ix2 n (0 : Fin 1)) = BitVec.ofNat 32 g.val then (1 : EReal) else 0) * emb (ix2 n d) := by
  classical
  unfold Ideal.hostScatterAdd
  refine congrArg (X (ix2 g d) + ·) ?_
  rw [Finset.filter_congr (fun j _ => dS_resultIdx_iff j IDS g d), Finset.sum_filter, sum_idx2]
  refine Finset.sum_congr rfl fun n _ => ?_
  rw [Finset.sum_eq_single d]
  · by_cases h : IDS (ix2 n (0 : Fin 1)) = BitVec.ofNat 32 g.val
    · rw [if_pos h, one_mul]; exact if_pos ⟨(toInt_eq_iff _ g).mpr h, rfl⟩
    · rw [if_neg h, zero_mul]; exact if_neg (fun hh => h ((toInt_eq_iff _ g).mp hh.1))
  · intro b _ hb
    exact if_neg (fun hh => hb hh.2)
  · intro hd; exact absurd (Finset.mem_univ d) hd

/-- The count scatter at one element: the operand there plus the sum, over the rows whose graph id is the element, of
    the unit updates. -/
theorem scatterC_apply (X : Vec Ideal Cert.ReferenceIdeal.S64 .f32) (IDS : IVec S40000x1 32) (u : Vec Ideal Cert.ReferenceIdeal.S40000 .f32) (g : Fin 64) :
    Ideal.hostScatterAdd dC X IDS u (ix1 g)
      = X (ix1 g) + ∑ n : Fin 40000, (if IDS (ix2 n (0 : Fin 1)) = BitVec.ofNat 32 g.val then (1 : EReal) else 0) * u (ix1 n) := by
  classical
  unfold Ideal.hostScatterAdd
  refine congrArg (X (ix1 g) + ·) ?_
  rw [Finset.filter_congr (fun j _ => dC_resultIdx_iff j IDS g), Finset.sum_filter]
  have e : ∀ f : Cert.ReferenceIdeal.S40000.Idx → EReal, ∑ i, f i = ∑ n : Fin 40000, f (ix1 n) := fun f => by
    refine (Equiv.sum_comp (⟨fun n => ix1 n, fun i => i 0, fun n => rfl, fun i => (eq_ix1 i).symm⟩ : Fin 40000 ≃ Cert.ReferenceIdeal.S40000.Idx) f).symm
  rw [e]
  refine Finset.sum_congr rfl fun n _ => ?_
  by_cases h : IDS (ix2 n (0 : Fin 1)) = BitVec.ofNat 32 g.val
  · rw [if_pos h, one_mul]; exact if_pos ((toInt_eq_iff _ g).mpr h)
  · rw [if_neg h, zero_mul]; exact if_neg (fun hh => h ((toInt_eq_iff _ g).mp hh))

/-! ## The accumulators after the last tile, and the two results -/

open Cert.ReferenceIdeal.Read in
theorem idx_133_134 (g : Fin 64) (d : Fin 128) : idx_main_v133 (idx_main_v134 (ix2 g d)) = ix1 g :=
  funext fun a => Fin.ext (by match a with | ⟨0, _⟩ => rfl)
open Cert.ReferenceIdeal.Read in
theorem idx_126 (n : Fin 40000) : idx_main_v126 (ix2 n (0 : Fin 1)) = ix1 n :=
  funext fun a => Fin.ext (by match a with | ⟨0, _⟩ => rfl)
open Cert.ReferenceIdeal.Read in
theorem idx_129 (n : Fin 40000) : idx_main_v129 (ix2 n (0 : Fin 1)) = ix1 n :=
  funext fun a => Fin.ext (by match a with | ⟨0, _⟩ => rfl)

theorem pay1_apply (i : S64x128.Idx) : k6_pay1 (F := Ideal) i = 0 := by
  unfold k6_pay1
  simp only [shapeCast_self]
  exact Ideal.ofBits_zero_f32
theorem pay2_apply (i : S64x1.Idx) : k6_pay2 (F := Ideal) i = 0 := by
  unfold k6_pay2
  simp only [shapeCast_self]
  exact Ideal.ofBits_zero_f32

/-- Row r's indicator for graph g, as an extended real. -/
def ind (w : BitVec 32) (g : Fin 64) : EReal := if w = BitVec.ofNat 32 g.val then 1 else 0

section Main

variable (x2 : (⟨Cert.ReferenceIdeal.S40000, .i32⟩ : BufTy).Contents (Elt Ideal)) (emb : Vec Ideal S40000x128 .f32)
  (embT : Fin 20 → Vec Ideal S2000x128 .f32) (idsT : Fin 20 → Vec Ideal S2000x1 .i32)
  (hemb : ∀ t r d, embT t (ix2 r d) = emb (ix2 (row t r) d))
  (hids : ∀ t r, idsT t (ix2 r (0 : Fin 1)) = x2 (ix1 (row t r)))
  (A : (n : ℕ) → n < 20 → Vec Ideal S64x128 .f32 × Vec Ideal S64x1 .f32)
  (hA0 : ∀ h, A 0 h = (k6_pay4 (F := Ideal) (embT ⟨0, h⟩) (idsT ⟨0, h⟩) (k6_pay1 (F := Ideal)), k6_pay5 (F := Ideal) (idsT ⟨0, h⟩) (k6_pay2 (F := Ideal))))
  (hAS : ∀ n (h : n + 1 < 20), A (n + 1) h = (k6_pay4 (F := Ideal) (embT ⟨n + 1, h⟩) (idsT ⟨n + 1, h⟩) (A n (by omega)).1, k6_pay5 (F := Ideal) (idsT ⟨n + 1, h⟩) (A n (by omega)).2))

include hemb hids hA0 hAS

/-- After the last tile the feature accumulator holds each graph's feature sums over all rows. -/
theorem accS_final (g : Fin 64) (d : Fin 128) :
    (A 19 (by decide)).1 (ix2 g d) = ∑ n : Fin 40000, (if x2 (ix1 n) = BitVec.ofNat 32 g.val then (1 : EReal) else 0) * emb (ix2 n d) := by
  rw [acc_final (fun n h => (A n h).1 (ix2 g d))
    (fun t => ∑ r : Fin 2000, (if idsT t (ix2 r (0 : Fin 1)) = BitVec.ofNat 32 g.val then (1 : EReal) else 0) * embT t (ix2 r d))
    (fun h => by show (A 0 h).1 (ix2 g d) = _; rw [hA0]; dsimp only; rw [pay4_apply, pay1_apply])
    (fun n h => by show (A (n + 1) h).1 (ix2 g d) = _; rw [hAS]; dsimp only; rw [pay4_apply]),
    sum_rows]
  refine Finset.sum_congr rfl fun t _ => Finset.sum_congr rfl fun r _ => ?_
  rw [hids, hemb]

/-- After the last tile the count accumulator holds each graph's number of rows, in units of the float one. -/
theorem accC_final (g : Fin 64) :
    (A 19 (by decide)).2 (ix2 g (0 : Fin 1)) = ∑ n : Fin 40000, (if x2 (ix1 n) = BitVec.ofNat 32 g.val then (1 : EReal) else 0) * one32 := by
  rw [acc_final (fun n h => (A n h).2 (ix2 g (0 : Fin 1)))
    (fun t => ∑ r : Fin 2000, (if idsT t (ix2 r (0 : Fin 1)) = BitVec.ofNat 32 g.val then (1 : EReal) else 0) * one32)
    (fun h => by show (A 0 h).2 (ix2 g (0 : Fin 1)) = _; rw [hA0]; dsimp only; rw [pay5_apply, pay2_apply])
    (fun n h => by show (A (n + 1) h).2 (ix2 g (0 : Fin 1)) = _; rw [hAS]; dsimp only; rw [pay5_apply]),
    sum_rows (fun n => (if x2 (ix1 n) = BitVec.ofNat 32 g.val then (1 : EReal) else 0) * one32)]
  refine Finset.sum_congr rfl fun t _ => Finset.sum_congr rfl fun r _ => ?_
  rw [hids]

open Cert.ReferenceIdeal.Read in
/-- The pooled means the kernel stores are the reference's: segment sums over segment counts. -/
theorem pool_means :
    k6_pay6 (F := Ideal) (A 19 (by decide)).1 (A 19 (by decide)).2
      = Host.divf (Host.scatterAdd Cert.ReferenceIdeal.scatter_S64x128_S40000x1_S40000x128_1_0_0_1 (val_main_v128 (F := Ideal)) (val_main_v129 (F := Ideal) x2) emb)
          (val_main_v134 (F := Ideal) x2) := by
  funext i
  obtain ⟨g, d, rfl⟩ : ∃ (g : Fin 64) (d : Fin 128), i = ix2 g d := ⟨i 0, i 1, eq_ix2 i⟩
  rw [pay6_apply, accS_final x2 emb embT idsT hemb hids A hA0 hAS, accC_final x2 emb embT idsT hemb hids A hA0 hAS]
  unfold Host.divf Host.scatterAdd
  rw [Ideal.hostDivf_def, Ideal.hostScatterAdd_def, scatterS_apply, val_main_v134_apply, val_main_v133_apply, idx_133_134, val_main_v132_apply, Ideal.maximumf_def]
  unfold val_main_v127 Host.scatterAdd
  rw [Ideal.hostScatterAdd_def, scatterC_apply]
  have o1 : val_main_v131 (F := Ideal) (ix1 g) = one32 := rfl
  rw [o1]
  have z1 : val_main_v128 (F := Ideal) (ix2 g d) = 0 := Ideal.ofBits_zero_f32
  have z2 : val_main_v125 (F := Ideal) (ix1 g) = 0 := Ideal.ofBits_zero_f32
  rw [z1, z2, zero_add, zero_add]
  have e1 : ∀ n : Fin 40000, val_main_v129 (F := Ideal) x2 (ix2 n (0 : Fin 1)) = x2 (ix1 n) := fun n => by rw [val_main_v129_apply, idx_129]
  have e2 : ∀ n : Fin 40000, val_main_v126 (F := Ideal) x2 (ix2 n (0 : Fin 1)) = x2 (ix1 n) := fun n => by rw [val_main_v126_apply, idx_126]
  have e3 : ∀ n : Fin 40000, val_main_v124 (F := Ideal) (ix1 n) = one32 := fun n => rfl
  simp only [e1, e2, e3]

end Main

open Cert.ReferenceIdeal.Read in
/-- The reference's classifier product at one element: the row of means against the column of weights. -/
theorem refDot_apply (y : Vec Ideal S64x128 .f32) (x9 : Vec Ideal S128x2 .f32) (g : Fin 64) (j : Fin 2) :
    Host.dotGeneral (F := Ideal) (φ₁ := .f32) (φ₂ := .f32) Cert.ReferenceIdeal.dot_S64x128_S128x2_S64x2_1_0_0_1_n_n none y x9 (ix2 g j)
      = ∑ k : Fin 128, y (ix2 g k) * x9 (ix2 k j) := by
  simp only [Host.dotGeneral]
  rw [Ideal.dotGeneral_apply, ← Equiv.sum_comp (ValueIdx.contrEquiv1 Cert.ReferenceIdeal.dot_S64x128_S128x2_S64x2_1_0_0_1_n_n 128 rfl rfl).symm]
  refine Finset.sum_congr rfl fun k _ => ?_
  have hk := ValueIdx.contrEquiv1_symm_val Cert.ReferenceIdeal.dot_S64x128_S128x2_S64x2_1_0_0_1_n_n 128 rfl rfl k
  have el : Cert.ReferenceIdeal.dot_S64x128_S128x2_S64x2_1_0_0_1_n_n.lhsIdx (ix2 g j) ((ValueIdx.contrEquiv1 Cert.ReferenceIdeal.dot_S64x128_S128x2_S64x2_1_0_0_1_n_n 128 rfl rfl).symm k) = ix2 g k := funext fun a => Fin.ext (by
    match a with
    | ⟨0, _⟩ => exact lhs_main_v136_0 _ _
    | ⟨1, _⟩ => exact (lhs_main_v136_1 _ _).trans hk)
  have er : Cert.ReferenceIdeal.dot_S64x128_S128x2_S64x2_1_0_0_1_n_n.rhsIdx (ix2 g j) ((ValueIdx.contrEquiv1 Cert.ReferenceIdeal.dot_S64x128_S128x2_S64x2_1_0_0_1_n_n 128 rfl rfl).symm k) = ix2 k j := funext fun a => Fin.ext (by
    match a with
    | ⟨0, _⟩ => exact (rhs_main_v136_0 _ _).trans hk
    | ⟨1, _⟩ => exact rhs_main_v136_1 _ _)
  rw [el, er]

open Cert.ReferenceIdeal.Read in
theorem idx_137_138 (g : Fin 64) (j : Fin 2) : idx_main_v137 (idx_main_v138 (ix2 g j)) = ix1 j :=
  funext fun a => Fin.ext (by match a with | ⟨0, _⟩ => rfl)

section Logits

variable (x2 : (⟨Cert.ReferenceIdeal.S40000, .i32⟩ : BufTy).Contents (Elt Ideal)) (emb : Vec Ideal S40000x128 .f32)
  (embT : Fin 20 → Vec Ideal S2000x128 .f32) (idsT : Fin 20 → Vec Ideal S2000x1 .i32)
  (hemb : ∀ t r d, embT t (ix2 r d) = emb (ix2 (row t r) d))
  (hids : ∀ t r, idsT t (ix2 r (0 : Fin 1)) = x2 (ix1 (row t r)))
  (A : (n : ℕ) → n < 20 → Vec Ideal S64x128 .f32 × Vec Ideal S64x1 .f32)
  (hA0 : ∀ h, A 0 h = (k6_pay4 (F := Ideal) (embT ⟨0, h⟩) (idsT ⟨0, h⟩) (k6_pay1 (F := Ideal)), k6_pay5 (F := Ideal) (idsT ⟨0, h⟩) (k6_pay2 (F := Ideal))))
  (hAS : ∀ n (h : n + 1 < 20), A (n + 1) h = (k6_pay4 (F := Ideal) (embT ⟨n + 1, h⟩) (idsT ⟨n + 1, h⟩) (A n (by omega)).1, k6_pay5 (F := Ideal) (idsT ⟨n + 1, h⟩) (A n (by omega)).2))

include hemb hids hA0 hAS

open Cert.ReferenceIdeal.Read in
/-- The logits the kernel stores are the reference's: the pooled means times the weights plus the bias. -/
theorem pool_logits (W : Vec Ideal S128x2 .f32) (b : Vec Ideal S1x2 .f32) (x9 : Vec Ideal S128x2 .f32)
    (x10 : (⟨Cert.ReferenceIdeal.S2, .f32⟩ : BufTy).Contents (Elt Ideal))
    (hW : W = x9) (hb : ∀ j : Fin 2, b (ix2 (0 : Fin 1) j) = x10 (ix1 j)) :
    k6_pay7 (F := Ideal) (A 19 (by decide)).1 (A 19 (by decide)).2 W b
      = addf (Host.dotGeneral (φ₁ := .f32) (φ₂ := .f32) Cert.ReferenceIdeal.dot_S64x128_S128x2_S64x2_1_0_0_1_n_n none
          (Host.divf (φ := .f32) (Host.scatterAdd Cert.ReferenceIdeal.scatter_S64x128_S40000x1_S40000x128_1_0_0_1 (val_main_v128 (F := Ideal)) (val_main_v129 (F := Ideal) x2) emb)
            (val_main_v134 (F := Ideal) x2)) x9)
          (val_main_v138 (F := Ideal) x10) := by
  funext i
  obtain ⟨g, j, rfl⟩ : ∃ (g : Fin 64) (j : Fin 2), i = ix2 g j := ⟨i 0, i 1, eq_ix2 i⟩
  rw [pay7_apply, pool_means x2 emb embT idsT hemb hids A hA0 hAS, addf_apply, refDot_apply, val_main_v138_apply, val_main_v137_apply,
    idx_137_138, hW, hb]

end Logits

end Pool

end Cert.KernelIdeal.Val

end
-- ==== Proof.Val.Pool.lean ====
import proofs.«409148_j78477642432722_1_alg».proof.Proof.KI.R6Val
import proofs.«409148_j78477642432722_1_alg».proof.Proof.Val.PoolMath
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 6 at the ideal values: the pooled means and the logits are the reference's

The region reads the node embeddings and the graph ids tile by tile, the classifier's weights and bias whole, and writes
its two results once, at the last point, each as one block that is the whole array. With the accumulators after the last
tile known to be the segment sums and counts, the arrays after the region are the reference's means and logits. -/

variable (V : (c : Dev nD) → (b : Ref sig .tc) → Buf (Elt Ideal) ((c : Thread nD τ).loc b))

namespace Pool

/-! ## Which block each window holds at a point -/

/-- The index maps, decided over the grid: the embeddings' and the ids' tiles are tile `t` of the rows; the weights, the
    bias and the two results are one block each. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The embeddings' tile at point `t` is rows `2000 t …` of the embeddings. -/
theorem emb_tile (c : Dev nD) (t : Fin cfg6.N) (r : Fin 2000) (d : Fin 128) :
    iblk6 V c 0 t (ix2 r d) = V c (Pipeline.arrRef spec6 0) (ix2 (row t r) d) := by
  obtain ⟨e0, e1, -⟩ := idx_facts6 t
  unfold iblk6
  show V c (Pipeline.arrRef spec6 0) (((cfg6.win 0).blk t).view.emb (ix2 r d)) = V c (Pipeline.arrRef spec6 0) (ix2 (row t r) d)
  congr 1
  funext a; apply Fin.ext
  match a with
  | ⟨0, _⟩ => show win6_0.index t (0 : Fin 2) * 2000 + 1 * r.val = 2000 * t.val + r.val; omega
  | ⟨1, _⟩ => show win6_0.index t (1 : Fin 2) * 128 + 1 * d.val = d.val; omega

/-- The ids' tile at point `t` is rows `2000 t …` of the ids. -/
theorem ids_tile (c : Dev nD) (t : Fin cfg6.N) (r : Fin 2000) :
    iblk6 V c 1 t (ix2 r (0 : Fin 1)) = V c (Pipeline.arrRef spec6 1) (ix2 (row t r) (0 : Fin 1)) := by
  obtain ⟨-, -, e0, e1, -⟩ := idx_facts6 t
  unfold iblk6
  show V c (Pipeline.arrRef spec6 1) (((cfg6.win 1).blk t).view.emb (ix2 r (0 : Fin 1))) = V c (Pipeline.arrRef spec6 1) (ix2 (row t r) (0 : Fin 1))
  congr 1
  funext a; apply Fin.ext
  match a with
  | ⟨0, _⟩ => show win6_1.index t (0 : Fin 2) * 2000 + 1 * r.val = 2000 * t.val + r.val; omega
  | ⟨1, _⟩ => show win6_1.index t (1 : Fin 2) * 1 + 1 * 0 = 0; omega

/-- The weights' block at every point is the whole weight matrix. -/
theorem w_block (c : Dev nD) (t : Fin cfg6.N) : (iblk6 V c 2 t : Vec Ideal S128x2 .f32) = V c (Pipeline.arrRef spec6 2) := by
  obtain ⟨-, -, -, -, e0, e1, -⟩ := idx_facts6 t
  funext y
  unfold iblk6
  show V c (Pipeline.arrRef spec6 2) (((cfg6.win 2).blk t).view.emb y) = V c (Pipeline.arrRef spec6 2) y
  congr 1
  funext a; apply Fin.ext
  match a with
  | ⟨0, _⟩ => show win6_2.index t (0 : Fin 2) * 128 + 1 * (y 0).val = (y 0).val; omega
  | ⟨1, _⟩ => show win6_2.index t (1 : Fin 2) * 2 + 1 * (y 1).val = (y 1).val; omega

/-- The bias' block at every point is the whole bias row. -/
theorem b_block (c : Dev nD) (t : Fin cfg6.N) : (iblk6 V c 3 t : Vec Ideal S1x2 .f32) = V c (Pipeline.arrRef spec6 3) := by
  obtain ⟨-, -, -, -, -, -, e0, e1, -⟩ := idx_facts6 t
  funext y
  unfold iblk6
  show V c (Pipeline.arrRef spec6 3) (((cfg6.win 3).blk t).view.emb y) = V c (Pipeline.arrRef spec6 3) y
  congr 1
  funext a; apply Fin.ext
  match a with
  | ⟨0, _⟩ => show win6_3.index t (0 : Fin 2) * 1 + 1 * (y 0).val = (y 0).val; omega
  | ⟨1, _⟩ => show win6_3.index t (1 : Fin 2) * 2 + 1 * (y 1).val = (y 1).val; omega

/-! ## The one write-back of each result covers its array -/

theorem mem_blk4 (t : Fin cfg6.N) (i : S64x128.Idx) :
    i ∈ ((cfg6.win 4).blk t).view.set ↔ ∀ a : Fin 2, win6_4.index t a * S64x128.size a ≤ (i a).val ∧ (i a).val < win6_4.index t a * S64x128.size a + S64x128.size a := by
  show i ∈ ((View.whole (Pipeline.arrRef spec6 4)).slice (win6_4.rect t)).set ↔ _
  rw [View.set_slice_whole, Rect.mem_set_unit]
  exact Iff.rfl

theorem mem_blk5 (t : Fin cfg6.N) (i : S64x2.Idx) :
    i ∈ ((cfg6.win 5).blk t).view.set ↔ ∀ a : Fin 2, win6_5.index t a * S64x2.size a ≤ (i a).val ∧ (i a).val < win6_5.index t a * S64x2.size a + S64x2.size a := by
  show i ∈ ((View.whole (Pipeline.arrRef spec6 5)).slice (win6_5.rect t)).set ↔ _
  rw [View.set_slice_whole, Rect.mem_set_unit]
  exact Iff.rfl

/-- The last point's block of the means is the whole array. -/
theorem cover4 (i : S64x128.Idx) :
    ∃ t : Fin cfg6.N, (cfg6.win 4).flush t = true ∧ i ∈ ((cfg6.win 4).blk t).view.set := by
  have hi0 : (i 0).val < 64 := (i 0).isLt
  have hi1 : (i 1).val < 128 := (i 1).isLt
  refine ⟨⟨19, by decide⟩, (flush6_4 _).mpr (by decide), ?_⟩
  obtain ⟨-, -, -, -, -, -, -, -, e0, e1, -⟩ := idx_facts6 ⟨19, by decide⟩
  rw [mem_blk4]
  intro a
  match a with
  | ⟨0, _⟩ => show win6_4.index ⟨19, by decide⟩ (0 : Fin 2) * 64 ≤ (i 0).val ∧ (i 0).val < win6_4.index ⟨19, by decide⟩ (0 : Fin 2) * 64 + 64; omega
  | ⟨1, _⟩ => show win6_4.index ⟨19, by decide⟩ (1 : Fin 2) * 128 ≤ (i 1).val ∧ (i 1).val < win6_4.index ⟨19, by decide⟩ (1 : Fin 2) * 128 + 128; omega

/-- The last point's block of the logits is the whole array. -/
theorem cover5 (i : S64x2.Idx) :
    ∃ t : Fin cfg6.N, (cfg6.win 5).flush t = true ∧ i ∈ ((cfg6.win 5).blk t).view.set := by
  have hi0 : (i 0).val < 64 := (i 0).isLt
  have hi1 : (i 1).val < 2 := (i 1).isLt
  refine ⟨⟨19, by decide⟩, (flush6_5 _).mpr (by decide), ?_⟩
  obtain ⟨-, -, -, -, -, -, -, -, -, -, e0, e1⟩ := idx_facts6 ⟨19, by decide⟩
  rw [mem_blk5]
  intro a
  match a with
  | ⟨0, _⟩ => show win6_5.index ⟨19, by decide⟩ (0 : Fin 2) * 64 ≤ (i 0).val ∧ (i 0).val < win6_5.index ⟨19, by decide⟩ (0 : Fin 2) * 64 + 64; omega
  | ⟨1, _⟩ => show win6_5.index ⟨19, by decide⟩ (1 : Fin 2) * 2 ≤ (i 1).val ∧ (i 1).val < win6_5.index ⟨19, by decide⟩ (1 : Fin 2) * 2 + 2; omega

/-! ## What a point writes back -/

/-- The means' write-back: the block read off an array is the array. -/
theorem flushed4_eq (c : Dev nD) (G : Vec Ideal S64x128 .f32) (t : Fin cfg6.N) (hG : (dat6 (F := Ideal) V c).after 4 t = G) :
    (dat6 (F := Ideal) V c).flushed 4 t = ((cfg6.win 4).blk t).view.read (Elt Ideal) G := by
  obtain ⟨-, -, -, -, -, -, -, -, e0, e1, -⟩ := idx_facts6 t
  show (cfg6.win 4).cut (grid6.coords t) ((dat6 (F := Ideal) V c).after 4 t) = _
  rw [hG]
  funext j
  show G j = G (((cfg6.win 4).blk t).view.emb j)
  congr 1
  funext a; apply Fin.ext
  match a with
  | ⟨0, _⟩ => show (j 0).val = win6_4.index t (0 : Fin 2) * 64 + 1 * (j 0).val; omega
  | ⟨1, _⟩ => show (j 1).val = win6_4.index t (1 : Fin 2) * 128 + 1 * (j 1).val; omega

/-- The logits' write-back likewise. -/
theorem flushed5_eq (c : Dev nD) (G : Vec Ideal S64x2 .f32) (t : Fin cfg6.N) (hG : (dat6 (F := Ideal) V c).after 5 t = G) :
    (dat6 (F := Ideal) V c).flushed 5 t = ((cfg6.win 5).blk t).view.read (Elt Ideal) G := by
  obtain ⟨-, -, -, -, -, -, -, -, -, -, e0, e1⟩ := idx_facts6 t
  show (cfg6.win 5).cut (grid6.coords t) ((dat6 (F := Ideal) V c).after 5 t) = _
  rw [hG]
  funext j
  show G j = G (((cfg6.win 5).blk t).view.emb j)
  congr 1
  funext a; apply Fin.ext
  match a with
  | ⟨0, _⟩ => show (j 0).val = win6_5.index t (0 : Fin 2) * 64 + 1 * (j 0).val; omega
  | ⟨1, _⟩ => show (j 1).val = win6_5.index t (1 : Fin 2) * 2 + 1 * (j 1).val; omega

/-- The only point that writes the means back is the last. -/
theorem last_of_flush4 (t : Fin cfg6.N) (hf : (cfg6.win 4).flush t = true) : t = ⟨19, by decide⟩ :=
  Fin.ext (by
    have h1 := (flush6_4 t).mp hf
    have h2 : t.val < 20 := t.isLt
    show t.val = 19
    omega)
/-- The only point that writes the logits back is the last. -/
theorem last_of_flush5 (t : Fin cfg6.N) (hf : (cfg6.win 5).flush t = true) : t = ⟨19, by decide⟩ :=
  Fin.ext (by
    have h1 := (flush6_5 t).mp hf
    have h2 : t.val < 20 := t.isLt
    show t.val = 19
    omega)

end Pool

open Cert.ReferenceIdeal.Read in
/-- After the region the means' array holds the reference's pooled means. -/
theorem pool4_final (c : Dev nD)
    (x0 : (⟨S40000x128, .f32⟩ : BufTy).Contents (Elt Ideal)) (x1 : (⟨S2x640000, .i32⟩ : BufTy).Contents (Elt Ideal))
    (x2 : (⟨Cert.ReferenceIdeal.S40000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal))
    (x8 : (⟨S128, .f32⟩ : BufTy).Contents (Elt Ideal))
    (hE : V c (Pipeline.arrRef spec6 0) = val_main_v123 (F := Ideal) x0 x1 x3 x4 x5 x6 x7 x8)
    (hB : ∀ r : Fin 40000, V c (Pipeline.arrRef spec6 1) (ValueIdx.ix2 r (0 : Fin 1)) = x2 (ValueIdx.ix1 r)) :
    (dat6 (F := Ideal) V c).arrAt 4 cfg6.N = val_main_v135 (F := Ideal) x0 x1 x2 x3 x4 x5 x6 x7 x8 := by
  have hG : (dat6 (F := Ideal) V c).after 4 ⟨19, by decide⟩ = val_main_v135 (F := Ideal) x0 x1 x2 x3 x4 x5 x6 x7 x8 :=
    (after6_4_last (F := Ideal) V c).trans
      (Pool.pool_means x2 (val_main_v123 (F := Ideal) x0 x1 x3 x4 x5 x6 x7 x8)
        (fun t : Fin 20 => (iblk6 V c 0 t : Vec Ideal S2000x128 .f32)) (fun t : Fin 20 => (iblk6 V c 1 t : Vec Ideal S2000x1 .i32))
        (fun t r d => (Pool.emb_tile V c t r d).trans (congrFun hE _)) (fun t r => (Pool.ids_tile V c t r).trans (hB _))
        (acc6 (F := Ideal) V c) (acc6_zero (F := Ideal) V c) (acc6_succ (F := Ideal) V c))
  exact (dat6 (F := Ideal) V c).arrAt_eq_of_cover 4 (val_main_v135 (F := Ideal) x0 x1 x2 x3 x4 x5 x6 x7 x8)
    (fun t hf => by
      have ht := Pool.last_of_flush4 t hf
      subst ht
      exact Pool.flushed4_eq V c _ _ hG) Pool.cover4

open Cert.ReferenceIdeal.Read in
/-- After the region the logits' array holds the reference's logits. -/
theorem pool5_final (c : Dev nD)
    (x0 : (⟨S40000x128, .f32⟩ : BufTy).Contents (Elt Ideal)) (x1 : (⟨S2x640000, .i32⟩ : BufTy).Contents (Elt Ideal))
    (x2 : (⟨Cert.ReferenceIdeal.S40000, .i32⟩ : BufTy).Contents (Elt Ideal)) (x3 : (⟨S128x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x128, .f32⟩ : BufTy).Contents (Elt Ideal))
    (x8 : (⟨S128, .f32⟩ : BufTy).Contents (Elt Ideal)) (x9 : (⟨S128x2, .f32⟩ : BufTy).Contents (Elt Ideal))
    (x10 : (⟨Cert.ReferenceIdeal.S2, .f32⟩ : BufTy).Contents (Elt Ideal))
    (hE : V c (Pipeline.arrRef spec6 0) = val_main_v123 (F := Ideal) x0 x1 x3 x4 x5 x6 x7 x8)
    (hB : ∀ r : Fin 40000, V c (Pipeline.arrRef spec6 1) (ValueIdx.ix2 r (0 : Fin 1)) = x2 (ValueIdx.ix1 r))
    (hW : V c (Pipeline.arrRef spec6 2) = x9)
    (hb : ∀ j : Fin 2, V c (Pipeline.arrRef spec6 3) (ValueIdx.ix2 (0 : Fin 1) j) = x10 (ValueIdx.ix1 j)) :
    (dat6 (F := Ideal) V c).arrAt 5 cfg6.N = val_main_v139 (F := Ideal) x0 x1 x2 x3 x4 x5 x6 x7 x8 x9 x10 := by
  have hG : (dat6 (F := Ideal) V c).after 5 ⟨19, by decide⟩ = val_main_v139 (F := Ideal) x0 x1 x2 x3 x4 x5 x6 x7 x8 x9 x10 :=
    (after6_5_last (F := Ideal) V c).trans
      (Pool.pool_logits x2 (val_main_v123 (F := Ideal) x0 x1 x3 x4 x5 x6 x7 x8)
        (fun t : Fin 20 => (iblk6 V c 0 t : Vec Ideal S2000x128 .f32)) (fun t : Fin 20 => (iblk6 V c 1 t : Vec Ideal S2000x1 .i32))
        (fun t r d => (Pool.emb_tile V c t r d).trans (congrFun hE _)) (fun t r => (Pool.ids_tile V c t r).trans (hB _))
        (acc6 (F := Ideal) V c) (acc6_zero (F := Ideal) V c) (acc6_succ (F := Ideal) V c)
        (iblk6 V c 2 ⟨19, by decide⟩) (iblk6 V c 3 ⟨19, by decide⟩) x9 x10
        ((Pool.w_block V c ⟨19, by decide⟩).trans hW) (fun j => (congrFun (Pool.b_block V c ⟨19, by decide⟩) _).trans (hb j)))
  exact (dat6 (F := Ideal) V c).arrAt_eq_of_cover 5 (val_main_v139 (F := Ideal) x0 x1 x2 x3 x4 x5 x6 x7 x8 x9 x10)
    (fun t hf => by
      have ht := Pool.last_of_flush5 t hf
      subst ht
      exact Pool.flushed5_eq V c _ _ hG) Pool.cover5

end Cert.KernelIdeal.Val

end
-- ==== Proof.Val.Host.lean ====
import proofs.«409148_j78477642432722_1_alg».proof.Proof.Gen.KernelIdeal.Launch
import proofs.«409148_j78477642432722_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-! The values the kernel program's host stretches compute, as the reference's stage functions.

Between its kernel regions the kernel program runs the reference's own array operations: the in-degree and its inverse
root, the gathers of that normaliser at each edge's source and destination (negative indices wrapped), the gather of
the projected rows at the sources, the product, and the scatter-add over destinations. Stated per stretch, at a
valuation whose inputs are named by hypotheses. -/

open Idealize.ShloMosaic.ValueIdx in
/-- A vector cast to a one-column matrix reads, at `(i, u)`, the vector at `i`: both positions are `i` in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! # The host stretches of the kernel program, as the reference's stages

Each stretch is the reference's own sequence of operations on the same operands; the two programs carry their own
copies of the shape records, equal up to a proof field, so once both sides are written over the same operands they
agree by computation. These equations hold over any float model. -/

section Generic
variable {F : FTy → Type} [FloatOps F] (W : Valuation τ sig (Elt F))

/-- The source row of the edge list. -/
theorem host0_v1 : StableHlo.after hostOps0 W (Proc.devRef .tc main_call0_v1)
    = Cert.ReferenceIdeal.Read.val_main_v1 (F := F) (W (Proc.devRef .tc main_arg1)) := by
  after_results
  simp only [TRef.ofBuf, TRef.toBuf, cast_eq]
  rfl

/-- The destination row of the edge list. -/
theorem host0_v3 : StableHlo.after hostOps0 W (Proc.devRef .tc main_call0_v3)
    = Cert.ReferenceIdeal.Read.val_main_v3 (F := F) (W (Proc.devRef .tc main_arg1)) := by
  after_results
  simp only [TRef.ofBuf, TRef.toBuf, cast_eq]
  rfl

/-- The degree normaliser: one over the root of the in-degree plus one. -/
theorem host0_v10 : StableHlo.after hostOps0 W (Proc.devRef .tc main_call0_v10)
    = Cert.ReferenceIdeal.Read.val_main_v10 (F := F) (W (Proc.devRef .tc main_arg1)) := by
  after_results
  simp only [TRef.ofBuf, TRef.toBuf, cast_eq]
  simp only [Cert.ReferenceIdeal.Read.val_main_v10, Cert.ReferenceIdeal.Read.val_main_v9, Cert.ReferenceIdeal.Read.val_main_v8,
    Cert.ReferenceIdeal.Read.val_main_v7, Cert.ReferenceIdeal.Read.val_main_v6, Cert.ReferenceIdeal.Read.val_main_v5,
    Cert.ReferenceIdeal.Read.val_main_v4, Cert.ReferenceIdeal.Read.val_main_v3, Cert.ReferenceIdeal.Read.val_main_v2,
    Cert.ReferenceIdeal.Read.val_main_cst, Cert.ReferenceIdeal.Read.val_main_cst_0, Cert.ReferenceIdeal.Read.val_main_cst_1]
  rfl

/-- The normaliser as a column is the cast of the normaliser. -/
theorem host0_v11 : StableHlo.after hostOps0 W (Proc.devRef .tc main_call0_v11)
    = shapeCast S40000x1 (StableHlo.after hostOps0 W (Proc.devRef .tc main_call0_v10)) shapeCasts_S40000_S40000x1 := by
  after_results
  simp only [TRef.ofBuf, TRef.toBuf, cast_eq]
  rfl

/-- The first aggregation: the scatter-add over destinations of the gathered projected rows times the edge
    normaliser, over the reference's stages, the product's factors in the kernel program's order. -/
theorem host1_v40 (x0 : (⟨Cert.ReferenceIdeal.S40000x128, .f32⟩ : BufTy).Contents (Elt F))
    (x1 : (⟨Cert.ReferenceIdeal.S2x640000, .i32⟩ : BufTy).Contents (Elt F))
    (x3 : (⟨Cert.ReferenceIdeal.S128x256, .f32⟩ : BufTy).Contents (Elt F))
    (hv1 : W (Proc.devRef .tc main_call0_v1) = Cert.ReferenceIdeal.Read.val_main_v1 (F := F) x1)
    (hv3 : W (Proc.devRef .tc main_call0_v3) = Cert.ReferenceIdeal.Read.val_main_v3 (F := F) x1)
    (hv10 : W (Proc.devRef .tc main_call0_v10) = Cert.ReferenceIdeal.Read.val_main_v10 (F := F) x1)
    (hv12 : W (Proc.devRef .tc main_call0_v12) = Cert.ReferenceIdeal.Read.val_main_v11 (F := F) x0 x3) :
    StableHlo.after hostOps1 W (Proc.devRef .tc main_call0_v40)
      = Host.scatterAdd Cert.ReferenceIdeal.scatter_S40000x256_S640000x1_S640000x256_1_0_0_1 (Cert.ReferenceIdeal.Read.val_main_v37 (F := F))
          (Cert.ReferenceIdeal.Read.val_main_v38 (F := F) x1)
          (mulf (Cert.ReferenceIdeal.Read.val_main_v34 (F := F) x0 x1 x3) (Cert.ReferenceIdeal.Read.val_main_v35 (F := F) x1)) := by
  after_results_simp
  simp only [TRef.ofBuf, TRef.toBuf, cast_eq]
  rw [hv1, hv3, hv10, hv12]
  simp only [Cert.ReferenceIdeal.Read.val_main_v12, Cert.ReferenceIdeal.Read.val_main_v13, Cert.ReferenceIdeal.Read.val_main_v14,
    Cert.ReferenceIdeal.Read.val_main_v15, Cert.ReferenceIdeal.Read.val_main_v16, Cert.ReferenceIdeal.Read.val_main_v17,
    Cert.ReferenceIdeal.Read.val_main_v18, Cert.ReferenceIdeal.Read.val_main_v19, Cert.ReferenceIdeal.Read.val_main_v20,
    Cert.ReferenceIdeal.Read.val_main_v21, Cert.ReferenceIdeal.Read.val_main_v22, Cert.ReferenceIdeal.Read.val_main_v23,
    Cert.ReferenceIdeal.Read.val_main_v24, Cert.ReferenceIdeal.Read.val_main_v25, Cert.ReferenceIdeal.Read.val_main_v26,
    Cert.ReferenceIdeal.Read.val_main_v27, Cert.ReferenceIdeal.Read.val_main_v28, Cert.ReferenceIdeal.Read.val_main_v29,
    Cert.ReferenceIdeal.Read.val_main_v30, Cert.ReferenceIdeal.Read.val_main_v31, Cert.ReferenceIdeal.Read.val_main_v32,
    Cert.ReferenceIdeal.Read.val_main_v33, Cert.ReferenceIdeal.Read.val_main_v34, Cert.ReferenceIdeal.Read.val_main_v35,
    Cert.ReferenceIdeal.Read.val_main_v37, Cert.ReferenceIdeal.Read.val_main_v38, Cert.ReferenceIdeal.Read.val_main_c,
    Cert.ReferenceIdeal.Read.val_main_c_2, Cert.ReferenceIdeal.Read.val_main_c_3, Cert.ReferenceIdeal.Read.val_main_c_4,
    Cert.ReferenceIdeal.Read.val_main_c_5, Cert.ReferenceIdeal.Read.val_main_c_6, Cert.ReferenceIdeal.Read.val_main_cst_7]
  rfl

/-- The layer's bias as a row is the cast of the bias vector. -/
theorem host1_v41 : StableHlo.after hostOps1 W (Proc.devRef .tc main_call0_v41)
    = shapeCast S1x256 (W (Proc.devRef .tc main_arg4)) shapeCasts_S256_S1x256 := by
  after_results_simp
  rfl

/-- The second aggregation, over the reference's stages, the product's factors in the kernel program's order. -/
theorem host3_v71 (x0 : (⟨Cert.ReferenceIdeal.S40000x128, .f32⟩ : BufTy).Contents (Elt F))
    (x1 : (⟨Cert.ReferenceIdeal.S2x640000, .i32⟩ : BufTy).Contents (Elt F))
    (x3 : (⟨Cert.ReferenceIdeal.S128x256, .f32⟩ : BufTy).Contents (Elt F))
    (x4 : (⟨Cert.ReferenceIdeal.S256, .f32⟩ : BufTy).Contents (Elt F))
    (x5 : (⟨Cert.ReferenceIdeal.S256x256, .f32⟩ : BufTy).Contents (Elt F))
    (hv1 : W (Proc.devRef .tc main_call0_v1) = Cert.ReferenceIdeal.Read.val_main_v1 (F := F) x1)
    (hv3 : W (Proc.devRef .tc main_call0_v3) = Cert.ReferenceIdeal.Read.val_main_v3 (F := F) x1)
    (hv10 : W (Proc.devRef .tc main_call0_v10) = Cert.ReferenceIdeal.Read.val_main_v10 (F := F) x1)
    (hv43 : W (Proc.devRef .tc main_call0_v43) = Cert.ReferenceIdeal.Read.val_main_v49 (F := F) x0 x1 x3 x4 x5) :
    StableHlo.after hostOps3 W (Proc.devRef .tc main_call0_v71)
      = Host.scatterAdd Cert.ReferenceIdeal.scatter_S40000x256_S640000x1_S640000x256_1_0_0_1 (Cert.ReferenceIdeal.Read.val_main_v75 (F := F))
          (Cert.ReferenceIdeal.Read.val_main_v76 (F := F) x1)
          (mulf (Cert.ReferenceIdeal.Read.val_main_v72 (F := F) x0 x1 x3 x4 x5) (Cert.ReferenceIdeal.Read.val_main_v73 (F := F) x1)) := by
  after_results_simp
  simp only [TRef.ofBuf, TRef.toBuf, cast_eq]
  rw [hv1, hv3, hv10, hv43]
  simp only [Cert.ReferenceIdeal.Read.val_main_v50, Cert.ReferenceIdeal.Read.val_main_v51, Cert.ReferenceIdeal.Read.val_main_v52,
    Cert.ReferenceIdeal.Read.val_main_v53, Cert.ReferenceIdeal.Read.val_main_v54, Cert.ReferenceIdeal.Read.val_main_v55,
    Cert.ReferenceIdeal.Read.val_main_v56, Cert.ReferenceIdeal.Read.val_main_v57, Cert.ReferenceIdeal.Read.val_main_v58,
    Cert.ReferenceIdeal.Read.val_main_v59, Cert.ReferenceIdeal.Read.val_main_v60, Cert.ReferenceIdeal.Read.val_main_v61,
    Cert.ReferenceIdeal.Read.val_main_v62, Cert.ReferenceIdeal.Read.val_main_v63, Cert.ReferenceIdeal.Read.val_main_v64,
    Cert.ReferenceIdeal.Read.val_main_v65, Cert.ReferenceIdeal.Read.val_main_v66, Cert.ReferenceIdeal.Read.val_main_v67,
    Cert.ReferenceIdeal.Read.val_main_v68, Cert.ReferenceIdeal.Read.val_main_v69, Cert.ReferenceIdeal.Read.val_main_v70,
    Cert.ReferenceIdeal.Read.val_main_v71, Cert.ReferenceIdeal.Read.val_main_v72, Cert.ReferenceIdeal.Read.val_main_v73,
    Cert.ReferenceIdeal.Read.val_main_v75, Cert.ReferenceIdeal.Read.val_main_v76, Cert.ReferenceIdeal.Read.val_main_c_8,
    Cert.ReferenceIdeal.Read.val_main_c_9, Cert.ReferenceIdeal.Read.val_main_c_10, Cert.ReferenceIdeal.Read.val_main_c_11,
    Cert.ReferenceIdeal.Read.val_main_c_12, Cert.ReferenceIdeal.Read.val_main_c_13, Cert.ReferenceIdeal.Read.val_main_cst_14]
  rfl

/-- The layer's bias as a row is the cast of the bias vector. -/
theorem host3_v72 : StableHlo.after hostOps3 W (Proc.devRef .tc main_call0_v72)
    = shapeCast S1x256 (W (Proc.devRef .tc main_arg6)) shapeCasts_S256_S1x256 := by
  after_results_simp
  rfl

/-- The third aggregation, over the reference's stages, the product's factors in the kernel program's order. -/
theorem host5_v102 (x0 : (⟨Cert.ReferenceIdeal.S40000x128, .f32⟩ : BufTy).Contents (Elt F))
    (x1 : (⟨Cert.ReferenceIdeal.S2x640000, .i32⟩ : BufTy).Contents (Elt F))
    (x3 : (⟨Cert.ReferenceIdeal.S128x256, .f32⟩ : BufTy).Contents (Elt F))
    (x4 : (⟨Cert.ReferenceIdeal.S256, .f32⟩ : BufTy).Contents (Elt F))
    (x5 : (⟨Cert.ReferenceIdeal.S256x256, .f32⟩ : BufTy).Contents (Elt F))
    (x6 : (⟨Cert.ReferenceIdeal.S256, .f32⟩ : BufTy).Contents (Elt F))
    (x7 : (⟨Cert.ReferenceIdeal.S256x128, .f32⟩ : BufTy).Contents (Elt F))
    (hv1 : W (Proc.devRef .tc main_call0_v1) = Cert.ReferenceIdeal.Read.val_main_v1 (F := F) x1)
    (hv3 : W (Proc.devRef .tc main_call0_v3) = Cert.ReferenceIdeal.Read.val_main_v3 (F := F) x1)
    (hv10 : W (Proc.devRef .tc main_call0_v10) = Cert.ReferenceIdeal.Read.val_main_v10 (F := F) x1)
    (hv74 : W (Proc.devRef .tc main_call0_v74) = Cert.ReferenceIdeal.Read.val_main_v87 (F := F) x0 x1 x3 x4 x5 x6 x7) :
    StableHlo.after hostOps5 W (Proc.devRef .tc main_call0_v102)
      = Host.scatterAdd Cert.ReferenceIdeal.scatter_S40000x128_S640000x1_S640000x128_1_0_0_1 (Cert.ReferenceIdeal.Read.val_main_v113 (F := F))
          (Cert.ReferenceIdeal.Read.val_main_v114 (F := F) x1)
          (mulf (Cert.ReferenceIdeal.Read.val_main_v110 (F := F) x0 x1 x3 x4 x5 x6 x7) (Cert.ReferenceIdeal.Read.val_main_v111 (F := F) x1)) := by
  after_results_simp
  simp only [TRef.ofBuf, TRef.toBuf, cast_eq]
  rw [hv1, hv3, hv10, hv74]
  simp only [Cert.ReferenceIdeal.Read.val_main_v88, Cert.ReferenceIdeal.Read.val_main_v89, Cert.ReferenceIdeal.Read.val_main_v90,
    Cert.ReferenceIdeal.Read.val_main_v91, Cert.ReferenceIdeal.Read.val_main_v92, Cert.ReferenceIdeal.Read.val_main_v93,
    Cert.ReferenceIdeal.Read.val_main_v94, Cert.ReferenceIdeal.Read.val_main_v95, Cert.ReferenceIdeal.Read.val_main_v96,
    Cert.ReferenceIdeal.Read.val_main_v97, Cert.ReferenceIdeal.Read.val_main_v98, Cert.ReferenceIdeal.Read.val_main_v99,
    Cert.ReferenceIdeal.Read.val_main_v100, Cert.ReferenceIdeal.Read.val_main_v101, Cert.ReferenceIdeal.Read.val_main_v102,
    Cert.ReferenceIdeal.Read.val_main_v103, Cert.ReferenceIdeal.Read.val_main_v104, Cert.ReferenceIdeal.Read.val_main_v105,
    Cert.ReferenceIdeal.Read.val_main_v106, Cert.ReferenceIdeal.Read.val_main_v107, Cert.ReferenceIdeal.Read.val_main_v108,
    Cert.ReferenceIdeal.Read.val_main_v109, Cert.ReferenceIdeal.Read.val_main_v110, Cert.ReferenceIdeal.Read.val_main_v111,
    Cert.ReferenceIdeal.Read.val_main_v113, Cert.ReferenceIdeal.Read.val_main_v114, Cert.ReferenceIdeal.Read.val_main_c_15,
    Cert.ReferenceIdeal.Read.val_main_c_16, Cert.ReferenceIdeal.Read.val_main_c_17, Cert.ReferenceIdeal.Read.val_main_c_18,
    Cert.ReferenceIdeal.Read.val_main_c_19, Cert.ReferenceIdeal.Read.val_main_c_20, Cert.ReferenceIdeal.Read.val_main_cst_21]
  rfl

/-- The layer's bias as a row is the cast of the bias vector. -/
theorem host5_v103 : StableHlo.after hostOps5 W (Proc.devRef .tc main_call0_v103)
    = shapeCast S1x128 (W (Proc.devRef .tc main_arg8)) shapeCasts_S128_S1x128 := by
  after_results_simp
  rfl

end Generic

/-! # At the ideal model

The statements the value proof cites: each stretch's results as the reference's stage functions of the arguments. The
one place the two programs differ is the order of the edge product's factors, gathered row times normaliser against
normaliser times gathered row: multiplication in the extended reals commutes. -/

section AtIdeal
variable (W : Valuation τ sig (Elt Ideal))

/-- The elementwise product of two arrays of extended reals commutes. -/
theorem mulf_comm {s : Shape} {φ : FTy} (a b : FVec Ideal s φ) : mulf a b = mulf b a :=
  funext fun i => (Ideal.mulf_def (a i) (b i)).trans ((mul_comm (a i) (b i)).trans (Ideal.mulf_def (b i) (a i)).symm)

/-- The first stretch: the two index rows, the degree normaliser, and the normaliser as a column. -/
theorem host0 (x1 : (⟨Cert.ReferenceIdeal.S2x640000, .i32⟩ : BufTy).Contents (Elt Ideal))
    (h1 : W (Proc.devRef .tc main_arg1) = x1) :
    StableHlo.after hostOps0 W (Proc.devRef .tc main_call0_v1) = Cert.ReferenceIdeal.Read.val_main_v1 (F := Ideal) x1
    ∧ StableHlo.after hostOps0 W (Proc.devRef .tc main_call0_v3) = Cert.ReferenceIdeal.Read.val_main_v3 (F := Ideal) x1
    ∧ StableHlo.after hostOps0 W (Proc.devRef .tc main_call0_v10) = Cert.ReferenceIdeal.Read.val_main_v10 (F := Ideal) x1
    ∧ ∀ r : Fin 40000, StableHlo.after hostOps0 W (Proc.devRef .tc main_call0_v11) (ValueIdx.ix2 r 0)
        = Cert.ReferenceIdeal.Read.val_main_v10 (F := Ideal) x1 (ValueIdx.ix1 r) := by
  subst h1
  refine ⟨host0_v1 W, host0_v3 W, host0_v10 W, fun r => ?_⟩
  rw [host0_v11 W, host0_v10 W]
  exact shapeCast_a_a1_apply _ _ r 0

/-- The second stretch: the first layer's aggregation is the reference's (the edge product's factors commute in the
    extended reals), and the bias as a row reads the bias vector. -/
theorem host1 (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (hv1 : W (Proc.devRef .tc main_call0_v1) = Cert.ReferenceIdeal.Read.val_main_v1 (F := Ideal) x1)
    (hv3 : W (Proc.devRef .tc main_call0_v3) = Cert.ReferenceIdeal.Read.val_main_v3 (F := Ideal) x1)
    (hv10 : W (Proc.devRef .tc main_call0_v10) = Cert.ReferenceIdeal.Read.val_main_v10 (F := Ideal) x1)
    (hv12 : W (Proc.devRef .tc main_call0_v12) = Cert.ReferenceIdeal.Read.val_main_v11 (F := Ideal) x0 x3)
    (h4 : W (Proc.devRef .tc main_arg4) = x4) :
    StableHlo.after hostOps1 W (Proc.devRef .tc main_call0_v40) = Cert.ReferenceIdeal.Read.val_main_v39 (F := Ideal) x0 x1 x3
    ∧ ∀ j : Fin 256, StableHlo.after hostOps1 W (Proc.devRef .tc main_call0_v41) (ValueIdx.ix2 0 j) = x4 (ValueIdx.ix1 j) := by
  refine ⟨?_, fun j => ?_⟩
  · rw [host1_v40 W x0 x1 x3 hv1 hv3 hv10 hv12,
      mulf_comm (Cert.ReferenceIdeal.Read.val_main_v34 (F := Ideal) x0 x1 x3) (Cert.ReferenceIdeal.Read.val_main_v35 (F := Ideal) x1)]
    simp only [Cert.ReferenceIdeal.Read.val_main_v39, Cert.ReferenceIdeal.Read.val_main_v36]
  · rw [host1_v41 W, h4]
    exact ValueIdx.shapeCast_a_1a_apply x4 _ 0 j

/-- The third stretch: the second layer's aggregation is the reference's, and the bias as a row reads the bias vector. -/
theorem host3 (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (hv1 : W (Proc.devRef .tc main_call0_v1) = Cert.ReferenceIdeal.Read.val_main_v1 (F := Ideal) x1)
    (hv3 : W (Proc.devRef .tc main_call0_v3) = Cert.ReferenceIdeal.Read.val_main_v3 (F := Ideal) x1)
    (hv10 : W (Proc.devRef .tc main_call0_v10) = Cert.ReferenceIdeal.Read.val_main_v10 (F := Ideal) x1)
    (hv43 : W (Proc.devRef .tc main_call0_v43) = Cert.ReferenceIdeal.Read.val_main_v49 (F := Ideal) x0 x1 x3 x4 x5)
    (h6 : W (Proc.devRef .tc main_arg6) = x6) :
    StableHlo.after hostOps3 W (Proc.devRef .tc main_call0_v71) = Cert.ReferenceIdeal.Read.val_main_v77 (F := Ideal) x0 x1 x3 x4 x5
    ∧ ∀ j : Fin 256, StableHlo.after hostOps3 W (Proc.devRef .tc main_call0_v72) (ValueIdx.ix2 0 j) = x6 (ValueIdx.ix1 j) := by
  refine ⟨?_, fun j => ?_⟩
  · rw [host3_v71 W x0 x1 x3 x4 x5 hv1 hv3 hv10 hv43,
      mulf_comm (Cert.ReferenceIdeal.Read.val_main_v72 (F := Ideal) x0 x1 x3 x4 x5) (Cert.ReferenceIdeal.Read.val_main_v73 (F := Ideal) x1)]
    simp only [Cert.ReferenceIdeal.Read.val_main_v77, Cert.ReferenceIdeal.Read.val_main_v74]
  · rw [host3_v72 W, h6]
    exact ValueIdx.shapeCast_a_1a_apply x6 _ 0 j

/-- The fourth stretch: the third layer's aggregation is the reference's, and the bias as a row reads the bias vector. -/
theorem host5 (x0 : (⟨Cert.ReferenceIdeal.S40000x128, .f32⟩ : BufTy).Contents (Elt Ideal))
    (x1 : (⟨Cert.ReferenceIdeal.S2x640000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (x7 : (⟨Cert.ReferenceIdeal.S256x128, .f32⟩ : BufTy).Contents (Elt Ideal))
    (x8 : (⟨Cert.ReferenceIdeal.S128, .f32⟩ : BufTy).Contents (Elt Ideal))
    (hv1 : W (Proc.devRef .tc main_call0_v1) = Cert.ReferenceIdeal.Read.val_main_v1 (F := Ideal) x1)
    (hv3 : W (Proc.devRef .tc main_call0_v3) = Cert.ReferenceIdeal.Read.val_main_v3 (F := Ideal) x1)
    (hv10 : W (Proc.devRef .tc main_call0_v10) = Cert.ReferenceIdeal.Read.val_main_v10 (F := Ideal) x1)
    (hv74 : W (Proc.devRef .tc main_call0_v74) = Cert.ReferenceIdeal.Read.val_main_v87 (F := Ideal) x0 x1 x3 x4 x5 x6 x7)
    (h8 : W (Proc.devRef .tc main_arg8) = x8) :
    StableHlo.after hostOps5 W (Proc.devRef .tc main_call0_v102) = Cert.ReferenceIdeal.Read.val_main_v115 (F := Ideal) x0 x1 x3 x4 x5 x6 x7
    ∧ ∀ j : Fin 128, StableHlo.after hostOps5 W (Proc.devRef .tc main_call0_v103) (ValueIdx.ix2 0 j) = x8 (ValueIdx.ix1 j) := by
  refine ⟨?_, fun j => ?_⟩
  · rw [host5_v102 W x0 x1 x3 x4 x5 x6 x7 hv1 hv3 hv10 hv74,
      mulf_comm (Cert.ReferenceIdeal.Read.val_main_v110 (F := Ideal) x0 x1 x3 x4 x5 x6 x7) (Cert.ReferenceIdeal.Read.val_main_v111 (F := Ideal) x1)]
    simp only [Cert.ReferenceIdeal.Read.val_main_v115, Cert.ReferenceIdeal.Read.val_main_v112]
  · rw [host5_v103 W, h8]
    exact ValueIdx.shapeCast_a_1a_apply x8 _ 0 j

/-- The last stretch: the graph ids as a column, the classifier bias as a row. -/
theorem host6 (x2 : (⟨Cert.ReferenceIdeal.S40000, .i32⟩ : BufTy).Contents (Elt Ideal))
    (x10 : (⟨Cert.ReferenceIdeal.S2, .f32⟩ : BufTy).Contents (Elt Ideal))
    (h2 : W (Proc.devRef .tc main_arg2) = x2) (h10 : W (Proc.devRef .tc main_arg10) = x10) :
    (∀ r : Fin 40000, StableHlo.after hostOps6 W (Proc.devRef .tc main_call0_v105) (ValueIdx.ix2 r 0) = x2 (ValueIdx.ix1 r))
    ∧ ∀ j : Fin 2, StableHlo.after hostOps6 W (Proc.devRef .tc main_call0_v106) (ValueIdx.ix2 0 j) = x10 (ValueIdx.ix1 j) := by
  subst h2 h10
  refine ⟨fun r => ?_, fun j => ?_⟩
  · after_results
    exact shapeCast_a_a1_apply (W (Proc.devRef .tc main_arg2)) shapeCasts_S40000_S40000x1 r 0
  · after_results
    exact ValueIdx.shapeCast_a_1a_apply (W (Proc.devRef .tc main_arg10)) shapeCasts_S2_S1x2 0 j

end AtIdeal

end Cert.KernelIdeal.Val
-- ==== Proof.Val.Bridge.lean ====
import proofs.«409148_j78477642432722_1_alg».proof.Proof.KI.Kept
import proofs.«409148_j78477642432722_1_alg».proof.Proof.Val.MM0
import proofs.«409148_j78477642432722_1_alg».proof.Proof.Val.MM2
import proofs.«409148_j78477642432722_1_alg».proof.Proof.Val.MM4
import proofs.«409148_j78477642432722_1_alg».proof.Proof.Val.Fin1
import proofs.«409148_j78477642432722_1_alg».proof.Proof.Val.Fin3
import proofs.«409148_j78477642432722_1_alg».proof.Proof.Val.Fin5
import proofs.«409148_j78477642432722_1_alg».proof.Proof.Val.Pool
import proofs.«409148_j78477642432722_1_alg».proof.Proof.Val.Host
import proofs.«409148_j78477642432722_1_alg».proof.Proof.Gen.ReferenceIdeal.Read

set_option maxRecDepth 16384
set_option maxHeartbeats 1600000

noncomputable section

namespace Cert.KernelIdeal.Val

open Cert.KernelIdeal Cert.KernelIdeal.Gen Cert.KernelIdeal.Hand
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg) (c : Dev nD)

/-! # The three results are the reference's

Stage by stage through the run: each region's output array, and each host stretch's results, are the reference's
stage functions of the launch arguments. The layer structure is: projected features (a region, against the
reference's matrix product), neighbour sum (host operations shared with the reference up to the order of one
product), pointwise finish (a region, against the reference's pointwise operations); then the pooled means and
the classifier (one region, against the reference's segment sums, quotient and matrix product). Between the stages a
buffer keeps what the last item that may write it left. -/

abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)
abbrev x4 := m ((c.tc : Thread nD τ).loc main_arg4)
abbrev x5 := m ((c.tc : Thread nD τ).loc main_arg5)
abbrev x6 := m ((c.tc : Thread nD τ).loc main_arg6)
abbrev x7 := m ((c.tc : Thread nD τ).loc main_arg7)
abbrev x8 := m ((c.tc : Thread nD τ).loc main_arg8)
abbrev x9 := m ((c.tc : Thread nD τ).loc main_arg9)
abbrev x10 := m ((c.tc : Thread nD τ).loc main_arg10)

/-- The edge ends, the degree scale and its column form (host stretch 0). -/
theorem stage0 :
    W1 m ρ c (Proc.devRef .tc main_call0_v1) = Cert.ReferenceIdeal.Read.val_main_v1 (F := Ideal) (x1 m c)
    ∧ W1 m ρ c (Proc.devRef .tc main_call0_v3) = Cert.ReferenceIdeal.Read.val_main_v3 (F := Ideal) (x1 m c)
    ∧ W1 m ρ c (Proc.devRef .tc main_call0_v10) = Cert.ReferenceIdeal.Read.val_main_v10 (F := Ideal) (x1 m c)
    ∧ ∀ r : Fin 40000, W1 m ρ c (Proc.devRef .tc main_call0_v11) (ValueIdx.ix2 r 0) = Cert.ReferenceIdeal.Read.val_main_v10 (F := Ideal) (x1 m c) (ValueIdx.ix1 r) :=
  host0 (W0 m ρ c) (x1 m c) rfl

/-- The edge ends and the degree scale are still there when a later host stretch (after item J) reads them. -/
theorem ends_at (J : ℕ) (h1 : ∀ k, k < J → main_call0_v1 ∉ wr (1 + k + 1)) (h3 : ∀ k, k < J → main_call0_v3 ∉ wr (1 + k + 1))
    (h10 : ∀ k, k < J → main_call0_v10 ∉ wr (1 + k + 1)) :
    Wseq m ρ (1 + J) c (Proc.devRef .tc main_call0_v1) = Cert.ReferenceIdeal.Read.val_main_v1 (F := Ideal) (x1 m c)
    ∧ Wseq m ρ (1 + J) c (Proc.devRef .tc main_call0_v3) = Cert.ReferenceIdeal.Read.val_main_v3 (F := Ideal) (x1 m c)
    ∧ Wseq m ρ (1 + J) c (Proc.devRef .tc main_call0_v10) = Cert.ReferenceIdeal.Read.val_main_v10 (F := Ideal) (x1 m c) :=
  ⟨(kept m ρ c main_call0_v1 1 J h1).trans (stage0 m ρ c).1, (kept m ρ c main_call0_v3 1 J h3).trans (stage0 m ρ c).2.1,
    (kept m ρ c main_call0_v10 1 J h10).trans (stage0 m ρ c).2.2.1⟩

/-- The degree scale's column form is still there when a finishing region (after item J) reads it. -/
theorem dis_at (J : ℕ) (h : ∀ k, k < J → main_call0_v11 ∉ wr (1 + k + 1)) (r : Fin 40000) :
    Wseq m ρ (1 + J) c (Proc.devRef .tc main_call0_v11) (ValueIdx.ix2 r 0) = Cert.ReferenceIdeal.Read.val_main_v10 (F := Ideal) (x1 m c) (ValueIdx.ix1 r) :=
  (congrFun (kept m ρ c main_call0_v11 1 J h) _).trans ((stage0 m ρ c).2.2.2 r)

/-- Layer 1, projection. -/
theorem stage2 : W2 m ρ c (Proc.devRef .tc main_call0_v12) = Cert.ReferenceIdeal.Read.val_main_v11 (F := Ideal) (x0 m c) (x3 m c) :=
  (W2_arr m ρ c 2).trans ((mm0_final (V1 m ρ) c).trans (by
    rw [show V1 m ρ c (Pipeline.arrRef spec0 0) = x0 m c from ((kept m ρ c main_arg0 0 1 (by decide)).trans rfl), show V1 m ρ c (Pipeline.arrRef spec0 1) = x3 m c from ((kept m ρ c main_arg3 0 1 (by decide)).trans rfl)]; rfl))

/-- Layer 1, neighbour sum and the bias as a row. -/
theorem stage3 :
    W3 m ρ c (Proc.devRef .tc main_call0_v40) = Cert.ReferenceIdeal.Read.val_main_v39 (F := Ideal) (x0 m c) (x1 m c) (x3 m c)
    ∧ ∀ j : Fin 256, W3 m ρ c (Proc.devRef .tc main_call0_v41) (ValueIdx.ix2 0 j) = x4 m c (ValueIdx.ix1 j) :=
  host1 (W2 m ρ c) (x0 m c) (x1 m c) (x3 m c) (x4 m c) (ends_at m ρ c 1 (by decide) (by decide) (by decide)).1 (ends_at m ρ c 1 (by decide) (by decide) (by decide)).2.1
    (ends_at m ρ c 1 (by decide) (by decide) (by decide)).2.2 (stage2 m ρ c) ((kept m ρ c main_arg4 0 2 (by decide)).trans rfl)

/-- Layer 1, finish. -/
theorem stage4 : W4 m ρ c (Proc.devRef .tc main_call0_v42) = Cert.ReferenceIdeal.Read.val_main_v48 (F := Ideal) (x0 m c) (x1 m c) (x3 m c) (x4 m c) :=
  (W4_arr m ρ c 4).trans (fin1_final (V3 m ρ) c (x0 m c) (x1 m c) (x3 m c) (x4 m c) (stage3 m ρ c).1
    ((kept m ρ c main_call0_v12 2 1 (by decide)).trans (stage2 m ρ c))
    (dis_at m ρ c 2 (by decide)) (stage3 m ρ c).2)

/-- Layer 2, projection. -/
theorem stage5 : W5 m ρ c (Proc.devRef .tc main_call0_v43) = Cert.ReferenceIdeal.Read.val_main_v49 (F := Ideal) (x0 m c) (x1 m c) (x3 m c) (x4 m c) (x5 m c) :=
  (W5_arr m ρ c 2).trans ((mm2_final (V4 m ρ) c).trans (by
    rw [show V4 m ρ c (Pipeline.arrRef spec2 0) = _ from stage4 m ρ c, show V4 m ρ c (Pipeline.arrRef spec2 1) = x5 m c from ((kept m ρ c main_arg5 0 4 (by decide)).trans rfl)]; rfl))

/-- Layer 2, neighbour sum and the bias as a row. -/
theorem stage6 :
    W6 m ρ c (Proc.devRef .tc main_call0_v71) = Cert.ReferenceIdeal.Read.val_main_v77 (F := Ideal) (x0 m c) (x1 m c) (x3 m c) (x4 m c) (x5 m c)
    ∧ ∀ j : Fin 256, W6 m ρ c (Proc.devRef .tc main_call0_v72) (ValueIdx.ix2 0 j) = x6 m c (ValueIdx.ix1 j) :=
  host3 (W5 m ρ c) (x0 m c) (x1 m c) (x3 m c) (x4 m c) (x5 m c) (x6 m c) (ends_at m ρ c 4 (by decide) (by decide) (by decide)).1 (ends_at m ρ c 4 (by decide) (by decide) (by decide)).2.1
    (ends_at m ρ c 4 (by decide) (by decide) (by decide)).2.2 (stage5 m ρ c) ((kept m ρ c main_arg6 0 5 (by decide)).trans rfl)

/-- Layer 2, finish. -/
theorem stage7 : W7 m ρ c (Proc.devRef .tc main_call0_v73) = Cert.ReferenceIdeal.Read.val_main_v86 (F := Ideal) (x0 m c) (x1 m c) (x3 m c) (x4 m c) (x5 m c) (x6 m c) :=
  (W7_arr m ρ c 4).trans (fin3_final (V6 m ρ) c (x0 m c) (x1 m c) (x3 m c) (x4 m c) (x5 m c) (x6 m c) (stage6 m ρ c).1
    ((kept m ρ c main_call0_v43 5 1 (by decide)).trans (stage5 m ρ c))
    (dis_at m ρ c 5 (by decide)) (stage6 m ρ c).2)

/-- Layer 3, projection. -/
theorem stage8 : W8 m ρ c (Proc.devRef .tc main_call0_v74) = Cert.ReferenceIdeal.Read.val_main_v87 (F := Ideal) (x0 m c) (x1 m c) (x3 m c) (x4 m c) (x5 m c) (x6 m c) (x7 m c) :=
  (W8_arr m ρ c 2).trans ((mm4_final (V7 m ρ) c).trans (by
    rw [show V7 m ρ c (Pipeline.arrRef spec4 0) = _ from stage7 m ρ c, show V7 m ρ c (Pipeline.arrRef spec4 1) = x7 m c from ((kept m ρ c main_arg7 0 7 (by decide)).trans rfl)]; rfl))

/-- Layer 3, neighbour sum and the bias as a row. -/
theorem stage9 :
    W9 m ρ c (Proc.devRef .tc main_call0_v102) = Cert.ReferenceIdeal.Read.val_main_v115 (F := Ideal) (x0 m c) (x1 m c) (x3 m c) (x4 m c) (x5 m c) (x6 m c) (x7 m c)
    ∧ ∀ j : Fin 128, W9 m ρ c (Proc.devRef .tc main_call0_v103) (ValueIdx.ix2 0 j) = x8 m c (ValueIdx.ix1 j) :=
  host5 (W8 m ρ c) (x0 m c) (x1 m c) (x3 m c) (x4 m c) (x5 m c) (x6 m c) (x7 m c) (x8 m c) (ends_at m ρ c 7 (by decide) (by decide) (by decide)).1 (ends_at m ρ c 7 (by decide) (by decide) (by decide)).2.1
    (ends_at m ρ c 7 (by decide) (by decide) (by decide)).2.2 (stage8 m ρ c) ((kept m ρ c main_arg8 0 8 (by decide)).trans rfl)

/-- Layer 3, finish: the node embeddings. -/
theorem stage10 : W10 m ρ c (Proc.devRef .tc main_v0_0) = Cert.ReferenceIdeal.Read.val_main_v123 (F := Ideal) (x0 m c) (x1 m c) (x3 m c) (x4 m c) (x5 m c) (x6 m c) (x7 m c) (x8 m c) :=
  (W10_arr m ρ c 4).trans (fin5_final (V9 m ρ) c (x0 m c) (x1 m c) (x3 m c) (x4 m c) (x5 m c) (x6 m c) (x7 m c) (x8 m c) (stage9 m ρ c).1
    ((kept m ρ c main_call0_v74 8 1 (by decide)).trans (stage8 m ρ c))
    (dis_at m ρ c 8 (by decide)) (stage9 m ρ c).2)

/-- The graph ids as a column and the classifier's bias as a row. -/
theorem stage11 :
    (∀ r : Fin 40000, W11 m ρ c (Proc.devRef .tc main_call0_v105) (ValueIdx.ix2 r 0) = x2 m c (ValueIdx.ix1 r))
    ∧ ∀ j : Fin 2, W11 m ρ c (Proc.devRef .tc main_call0_v106) (ValueIdx.ix2 0 j) = x10 m c (ValueIdx.ix1 j) :=
  host6 (W10 m ρ c) (x2 m c) (x10 m c) ((kept m ρ c main_arg2 0 10 (by decide)).trans rfl) ((kept m ρ c main_arg10 0 10 (by decide)).trans rfl)

theorem emb_at11 : V11 m ρ c (Pipeline.arrRef spec6 0) = Cert.ReferenceIdeal.Read.val_main_v123 (F := Ideal) (x0 m c) (x1 m c) (x3 m c) (x4 m c) (x5 m c) (x6 m c) (x7 m c) (x8 m c) :=
  (kept m ρ c main_v0_0 10 1 (by decide)).trans (stage10 m ρ c)

/-- The three results. -/
theorem chain :
    W12 m ρ c (Proc.devRef .tc main_v0_0) = Cert.ReferenceIdeal.Read.val_main_v123 (F := Ideal) (x0 m c) (x1 m c) (x3 m c) (x4 m c) (x5 m c) (x6 m c) (x7 m c) (x8 m c)
    ∧ W12 m ρ c (Proc.devRef .tc main_v0_1) = Cert.ReferenceIdeal.Read.val_main_v135 (F := Ideal) (x0 m c) (x1 m c) (x2 m c) (x3 m c) (x4 m c) (x5 m c) (x6 m c) (x7 m c) (x8 m c)
    ∧ W12 m ρ c (Proc.devRef .tc main_v0_2) = Cert.ReferenceIdeal.Read.val_main_v139 (F := Ideal) (x0 m c) (x1 m c) (x2 m c) (x3 m c) (x4 m c) (x5 m c) (x6 m c) (x7 m c) (x8 m c) (x9 m c) (x10 m c) :=
  ⟨(kept m ρ c main_v0_0 10 2 (by decide)).trans (stage10 m ρ c),
    (W12_arr m ρ c 4).trans (pool4_final (V11 m ρ) c (x0 m c) (x1 m c) (x2 m c) (x3 m c) (x4 m c) (x5 m c) (x6 m c) (x7 m c) (x8 m c) (emb_at11 m ρ c) (stage11 m ρ c).1),
    (W12_arr m ρ c 5).trans (pool5_final (V11 m ρ) c (x0 m c) (x1 m c) (x2 m c) (x3 m c) (x4 m c) (x5 m c) (x6 m c) (x7 m c) (x8 m c) (x9 m c) (x10 m c) (emb_at11 m ρ c) (stage11 m ρ c).1 ((kept m ρ c main_arg9 0 11 (by decide)).trans rfl) (stage11 m ρ c).2)⟩

end Cert.KernelIdeal.Val

end
-- ==== Proof.lean ====
/- The certificate of a three-layer graph convolution network with mean pooling and a linear classifier, computed by
   seven tiled kernels among host operations, against its plain array-program reference.

   Frames. The kernel program is run item by item: a host stretch applies its operations to the buffer contents, a region
   replaces its output arrays by what its write-backs leave (for six regions one whole tile per grid point, a function of
   the point's input tiles; for the pooling region two accumulators carried across the twenty points and the two results
   stored at the last point). No item writes an argument array, so each ends as launched. The reference is a straight line
   of host operations; its frame is its run with the results dropped.

   Values, at the extended reals. Each projection region's output is the reference's matrix product (a row tile of a product
   is the product of the row tile; rounding the operands to a narrower format is the identity here). The neighbour sums are
   host operations both programs share, up to the order of one product under the segment sum. Each finishing region is
   the reference's pointwise expression agg + (dis·dis)·h + b (followed by max with 0 in the first two layers), tile by tile.
   The pooling region's one-hot products accumulated over the row tiles are the reference's segment sums: a row contributes
   to graph g exactly when its graph id is g, ids outside 0..63 contributing nothing on either side; sums of extended reals
   may be regrouped freely. The quotient by max(count, 1) and the classifier's product and bias are the same operations. -/
import proofs.«409148_j78477642432722_1_alg».proof.Defs
import proofs.«409148_j78477642432722_1_alg».proof.Proof.Gen.Kernel
import proofs.«409148_j78477642432722_1_alg».proof.Proof.Gen.KernelIdeal
import proofs.«409148_j78477642432722_1_alg».proof.Proof.Gen.ReferenceIdeal
import proofs.«409148_j78477642432722_1_alg».proof.Proof.Gen.Pre_finite_inputs
import proofs.«409148_j78477642432722_1_alg».proof.Proof.Gen.ReferenceIdeal.Run
import proofs.«409148_j78477642432722_1_alg».proof.Proof.Gen.ReferenceIdeal.Read
import proofs.«409148_j78477642432722_1_alg».proof.Proof.K.Kept
import proofs.«409148_j78477642432722_1_alg».proof.Proof.KI.Kept
import proofs.«409148_j78477642432722_1_alg».proof.Proof.Val.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments as launched. -/
theorem frame_kernel : Cert.frame_Kernel := fun m ρ _ =>
  (θ_run (Cert.Kernel.defs (F := Bits)) _ _).mono (fun r h c => ⟨(h c _ (Cert.Kernel.Hand.mem_uc Cert.Kernel.main_arg0 (by decide))).trans ((Cert.Kernel.Hand.kept m ρ c Cert.Kernel.main_arg0 0 12 (by decide)).trans rfl),
    (h c _ (Cert.Kernel.Hand.mem_uc Cert.Kernel.main_arg1 (by decide))).trans ((Cert.Kernel.Hand.kept m ρ c Cert.Kernel.main_arg1 0 12 (by decide)).trans rfl),
    (h c _ (Cert.Kernel.Hand.mem_uc Cert.Kernel.main_arg2 (by decide))).trans ((Cert.Kernel.Hand.kept m ρ c Cert.Kernel.main_arg2 0 12 (by decide)).trans rfl),
    (h c _ (Cert.Kernel.Hand.mem_uc Cert.Kernel.main_arg3 (by decide))).trans ((Cert.Kernel.Hand.kept m ρ c Cert.Kernel.main_arg3 0 12 (by decide)).trans rfl),
    (h c _ (Cert.Kernel.Hand.mem_uc Cert.Kernel.main_arg4 (by decide))).trans ((Cert.Kernel.Hand.kept m ρ c Cert.Kernel.main_arg4 0 12 (by decide)).trans rfl),
    (h c _ (Cert.Kernel.Hand.mem_uc Cert.Kernel.main_arg5 (by decide))).trans ((Cert.Kernel.Hand.kept m ρ c Cert.Kernel.main_arg5 0 12 (by decide)).trans rfl),
    (h c _ (Cert.Kernel.Hand.mem_uc Cert.Kernel.main_arg6 (by decide))).trans ((Cert.Kernel.Hand.kept m ρ c Cert.Kernel.main_arg6 0 12 (by decide)).trans rfl),
    (h c _ (Cert.Kernel.Hand.mem_uc Cert.Kernel.main_arg7 (by decide))).trans ((Cert.Kernel.Hand.kept m ρ c Cert.Kernel.main_arg7 0 12 (by decide)).trans rfl),
    (h c _ (Cert.Kernel.Hand.mem_uc Cert.Kernel.main_arg8 (by decide))).trans ((Cert.Kernel.Hand.kept m ρ c Cert.Kernel.main_arg8 0 12 (by decide)).trans rfl),
    (h c _ (Cert.Kernel.Hand.mem_uc Cert.Kernel.main_arg9 (by decide))).trans ((Cert.Kernel.Hand.kept m ρ c Cert.Kernel.main_arg9 0 12 (by decide)).trans rfl),
    (h c _ (Cert.Kernel.Hand.mem_uc Cert.Kernel.main_arg10 (by decide))).trans ((Cert.Kernel.Hand.kept m ρ c Cert.Kernel.main_arg10 0 12 (by decide)).trans rfl)⟩) (Cert.Kernel.Hand.run_main (F := Bits) m ρ)

/-- So does the idealized program. -/
theorem frame_kernelIdeal : Cert.frame_KernelIdeal := fun m ρ _ =>
  (θ_run (Cert.KernelIdeal.defs (F := Ideal)) _ _).mono (fun r h c => ⟨(h c _ (Cert.KernelIdeal.Hand.mem_uc Cert.KernelIdeal.main_arg0 (by decide))).trans ((Cert.KernelIdeal.Hand.kept m ρ c Cert.KernelIdeal.main_arg0 0 12 (by decide)).trans rfl),
    (h c _ (Cert.KernelIdeal.Hand.mem_uc Cert.KernelIdeal.main_arg1 (by decide))).trans ((Cert.KernelIdeal.Hand.kept m ρ c Cert.KernelIdeal.main_arg1 0 12 (by decide)).trans rfl),
    (h c _ (Cert.KernelIdeal.Hand.mem_uc Cert.KernelIdeal.main_arg2 (by decide))).trans ((Cert.KernelIdeal.Hand.kept m ρ c Cert.KernelIdeal.main_arg2 0 12 (by decide)).trans rfl),
    (h c _ (Cert.KernelIdeal.Hand.mem_uc Cert.KernelIdeal.main_arg3 (by decide))).trans ((Cert.KernelIdeal.Hand.kept m ρ c Cert.KernelIdeal.main_arg3 0 12 (by decide)).trans rfl),
    (h c _ (Cert.KernelIdeal.Hand.mem_uc Cert.KernelIdeal.main_arg4 (by decide))).trans ((Cert.KernelIdeal.Hand.kept m ρ c Cert.KernelIdeal.main_arg4 0 12 (by decide)).trans rfl),
    (h c _ (Cert.KernelIdeal.Hand.mem_uc Cert.KernelIdeal.main_arg5 (by decide))).trans ((Cert.KernelIdeal.Hand.kept m ρ c Cert.KernelIdeal.main_arg5 0 12 (by decide)).trans rfl),
    (h c _ (Cert.KernelIdeal.Hand.mem_uc Cert.KernelIdeal.main_arg6 (by decide))).trans ((Cert.KernelIdeal.Hand.kept m ρ c Cert.KernelIdeal.main_arg6 0 12 (by decide)).trans rfl),
    (h c _ (Cert.KernelIdeal.Hand.mem_uc Cert.KernelIdeal.main_arg7 (by decide))).trans ((Cert.KernelIdeal.Hand.kept m ρ c Cert.KernelIdeal.main_arg7 0 12 (by decide)).trans rfl),
    (h c _ (Cert.KernelIdeal.Hand.mem_uc Cert.KernelIdeal.main_arg8 (by decide))).trans ((Cert.KernelIdeal.Hand.kept m ρ c Cert.KernelIdeal.main_arg8 0 12 (by decide)).trans rfl),
    (h c _ (Cert.KernelIdeal.Hand.mem_uc Cert.KernelIdeal.main_arg9 (by decide))).trans ((Cert.KernelIdeal.Hand.kept m ρ c Cert.KernelIdeal.main_arg9 0 12 (by decide)).trans rfl),
    (h c _ (Cert.KernelIdeal.Hand.mem_uc Cert.KernelIdeal.main_arg10 (by decide))).trans ((Cert.KernelIdeal.Hand.kept m ρ c Cert.KernelIdeal.main_arg10 0 12 (by decide)).trans rfl)⟩) (Cert.KernelIdeal.Hand.run_main (F := Ideal) m ρ)

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the arguments both idealized programs end with the same three results: the kernel
    program's are the last fold's contents of the result buffers, which stage by stage are the reference's stage
    functions of the arguments. -/
theorem algebraic : Cert.algebraic_KernelIdeal_ReferenceIdeal := by
  intro m ρ m' ρ' _ hagree
  refine ⟨fun c => Cert.KernelIdeal.Hand.W12 m ρ c (Proc.devRef .tc Cert.KernelIdeal.main_v0_0), fun c => Cert.KernelIdeal.Hand.W12 m ρ c (Proc.devRef .tc Cert.KernelIdeal.main_v0_1),
    fun c => Cert.KernelIdeal.Hand.W12 m ρ c (Proc.devRef .tc Cert.KernelIdeal.main_v0_2), ?_, ?_⟩
  · exact (θ_run (Cert.KernelIdeal.defs (F := Ideal)) _ _).mono (fun r h c => ⟨h c _ (Cert.KernelIdeal.Hand.mem_uc Cert.KernelIdeal.main_v0_0 (by decide)),
      h c _ (Cert.KernelIdeal.Hand.mem_uc Cert.KernelIdeal.main_v0_1 (by decide)), h c _ (Cert.KernelIdeal.Hand.mem_uc Cert.KernelIdeal.main_v0_2 (by decide)),
      (h c _ (Cert.KernelIdeal.Hand.mem_uc Cert.KernelIdeal.main_arg0 (by decide))).trans ((Cert.KernelIdeal.Hand.kept m ρ c Cert.KernelIdeal.main_arg0 0 12 (by decide)).trans rfl),
      (h c _ (Cert.KernelIdeal.Hand.mem_uc Cert.KernelIdeal.main_arg1 (by decide))).trans ((Cert.KernelIdeal.Hand.kept m ρ c Cert.KernelIdeal.main_arg1 0 12 (by decide)).trans rfl),
      (h c _ (Cert.KernelIdeal.Hand.mem_uc Cert.KernelIdeal.main_arg2 (by decide))).trans ((Cert.KernelIdeal.Hand.kept m ρ c Cert.KernelIdeal.main_arg2 0 12 (by decide)).trans rfl),
      (h c _ (Cert.KernelIdeal.Hand.mem_uc Cert.KernelIdeal.main_arg3 (by decide))).trans ((Cert.KernelIdeal.Hand.kept m ρ c Cert.KernelIdeal.main_arg3 0 12 (by decide)).trans rfl),
      (h c _ (Cert.KernelIdeal.Hand.mem_uc Cert.KernelIdeal.main_arg4 (by decide))).trans ((Cert.KernelIdeal.Hand.kept m ρ c Cert.KernelIdeal.main_arg4 0 12 (by decide)).trans rfl),
      (h c _ (Cert.KernelIdeal.Hand.mem_uc Cert.KernelIdeal.main_arg5 (by decide))).trans ((Cert.KernelIdeal.Hand.kept m ρ c Cert.KernelIdeal.main_arg5 0 12 (by decide)).trans rfl),
      (h c _ (Cert.KernelIdeal.Hand.mem_uc Cert.KernelIdeal.main_arg6 (by decide))).trans ((Cert.KernelIdeal.Hand.kept m ρ c Cert.KernelIdeal.main_arg6 0 12 (by decide)).trans rfl),
      (h c _ (Cert.KernelIdeal.Hand.mem_uc Cert.KernelIdeal.main_arg7 (by decide))).trans ((Cert.KernelIdeal.Hand.kept m ρ c Cert.KernelIdeal.main_arg7 0 12 (by decide)).trans rfl),
      (h c _ (Cert.KernelIdeal.Hand.mem_uc Cert.KernelIdeal.main_arg8 (by decide))).trans ((Cert.KernelIdeal.Hand.kept m ρ c Cert.KernelIdeal.main_arg8 0 12 (by decide)).trans rfl),
      (h c _ (Cert.KernelIdeal.Hand.mem_uc Cert.KernelIdeal.main_arg9 (by decide))).trans ((Cert.KernelIdeal.Hand.kept m ρ c Cert.KernelIdeal.main_arg9 0 12 (by decide)).trans rfl),
      (h c _ (Cert.KernelIdeal.Hand.mem_uc Cert.KernelIdeal.main_arg10 (by decide))).trans ((Cert.KernelIdeal.Hand.kept m ρ c Cert.KernelIdeal.main_arg10 0 12 (by decide)).trans rfl)⟩) (Cert.KernelIdeal.Hand.run_main (F := Ideal) m ρ)
  · refine (θ_run Cert.ReferenceIdeal.defs _ _).mono (fun r h c => ?_) (Cert.ReferenceIdeal.Value.run (F := Ideal) m' ρ')
    obtain ⟨h0, h1, h2, hargs⟩ := h c
    obtain ⟨c0, c1, c2⟩ := Cert.KernelIdeal.Val.chain m ρ c
    obtain ⟨a0, a1, a2, a3, a4, a5, a6, a7, a8, a9, a10⟩ := hagree c
    refine ⟨h0.trans ?_, h1.trans ?_, h2.trans ?_, hargs⟩
    · rw [Cert.ReferenceIdeal.Read.val_main_v123_eq, a0, a1, a3, a4, a5, a6, a7, a8]; exact c0.symm
    · rw [Cert.ReferenceIdeal.Read.val_main_v135_eq, a0, a1, a2, a3, a4, a5, a6, a7, a8]; exact c1.symm
    · rw [Cert.ReferenceIdeal.Read.val_main_v139_eq, a0, a1, a2, a3, a4, a5, a6, a7, a8, a9, a10]; exact c2.symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
